-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_arg0)) (v3 : (c : Dev Cert.KernelIdeal.nD) → Buf (Elt Ideal) ((c.tc : Thread Cert.KernelIdeal.nD Cert.KernelIdeal.τ).loc Cert.KernelIdeal.main_v3_1)) (v4 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_v4_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x256 .f32) (main_arg3 : FVec F S256 .f32) (main_arg4 : FVec F S256x128 .f32) (main_arg5 : FVec F S128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S10000x128 : Shape := ⟨2, ![10000, 128]⟩
abbrev S200x10000 : Shape := ⟨2, ![200, 10000]⟩
abbrev S400x256 : Shape := ⟨2, ![400, 256]⟩
abbrev S400x128 : Shape := ⟨2, ![400, 128]⟩
abbrev S200x256 : Shape := ⟨2, ![200, 256]⟩
abbrev S200x128 : Shape := ⟨2, ![200, 128]⟩
abbrev S200 : Shape := ⟨1, ![200]⟩
abbrev S200x1 : Shape := ⟨2, ![200, 1]⟩

abbrev nBuf : Space → Nat
  | .hbm => 14
  | .vmem => 26
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x256, .f32⟩
  | .hbm, ⟨7, _⟩ => ⟨S1x128, .f32⟩
  | .hbm, ⟨8, _⟩ => ⟨S10000x256, .bf16⟩
  | .hbm, ⟨9, _⟩ => ⟨S10000x256, .f32⟩
  | .hbm, ⟨10, _⟩ => ⟨S10000x256, .f32⟩
  | .hbm, ⟨11, _⟩ => ⟨S10000x128, .bf16⟩
  | .hbm, ⟨12, _⟩ => ⟨S10000x128, .f32⟩
  | .hbm, ⟨13, _⟩ => ⟨S10000x128, .f32⟩
  | .local _ .vmem, ⟨0, _⟩ => ⟨S10000x256, .f32⟩
  | .local _ .vmem, ⟨1, _⟩ => ⟨S256x256, .f32⟩
  | .local _ .vmem, ⟨2, _⟩ => ⟨S10000x256, .bf16⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S10000x256, .bf16⟩
  | .local _ .vmem, ⟨8, _⟩ => ⟨S1x256, .f32⟩
  | .local _ .vmem, ⟨9, _⟩ => ⟨S256x128, .f32⟩
  | .local _ .vmem, ⟨10, _⟩ => ⟨S400x256, .f32⟩
  | .local _ .vmem, ⟨11, _⟩ => ⟨S400x256, .f32⟩
  | .local _ .vmem, ⟨12, _⟩ => ⟨S400x256, .f32⟩
  | .local _ .vmem, ⟨13, _⟩ => ⟨S400x256, .f32⟩
  | .local _ .vmem, ⟨14, _⟩ => ⟨S400x128, .bf16⟩
  | .local _ .vmem, ⟨15, _⟩ => ⟨S400x128, .bf16⟩
  | .local _ .vmem, ⟨16, _⟩ => ⟨S200x10000, .f32⟩
  | .local _ .vmem, ⟨17, _⟩ => ⟨S200x10000, .f32⟩
  | .local _ .vmem, ⟨18, _⟩ => ⟨S200x10000, .f32⟩
  | .local _ .vmem, ⟨19, _⟩ => ⟨S200x10000, .f32⟩
  | .local _ .vmem, ⟨20, _⟩ => ⟨S10000x128, .bf16⟩
  | .local _ .vmem, ⟨21, _⟩ => ⟨S1x128, .f32⟩
  | .local _ .vmem, ⟨22, _⟩ => ⟨S400x128, .f32⟩
  | .local _ .vmem, ⟨23, _⟩ => ⟨S400x128, .f32⟩
  | .local _ .vmem, ⟨24, _⟩ => ⟨S400x128, .f32⟩
  | .local _ .vmem, ⟨25, _⟩ => ⟨S400x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S256_S1x256 : S256.ShapeCasts S1x256
  shapeCasts_S128_S1x128 : S128.ShapeCasts S1x128
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S10000x256_S10000x256_0_0 : (Rect.unit (s := S10000x256) ![0, 0] S10000x256.size inb_S10000x256_S10000x256_0_0).PackedRows (EltTy.packing .bf16)
  inb_S256x128_S256x128_0_0 : ∀ a, (![0, 0] : Fin 2 → Nat) a + S256x128.size a ≤ S256x128.size a
  h_S256x128 : 0 < S256x128.numel
  shapeCasts_S10000x256_S10000x256 : S10000x256.ShapeCasts S10000x256
  inb_S200x10000_S200x10000_0_0 : ∀ a, (![0, 0] : Fin 2 → Nat) a + S200x10000.size a ≤ S200x10000.size a
  h_S200x10000 : 0 < S200x10000.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S400x256_S200x256_0_0 : ∀ a, (![0, 0] : Fin 2 → Nat) a + S200x256.size a ≤ S400x256.size a
  h_S200x256 : 0 < S200x256.numel
  inb_S400x128_S200x128_0_0 : ∀ a, (![0, 0] : Fin 2 → Nat) a + S200x128.size a ≤ S400x128.size a
  h_S200x128 : 0 < S200x128.numel
  packedbf16_S400x128_S200x128_0_0 : (Rect.unit (s := S400x128) ![0, 0] S200x128.size inb_S400x128_S200x128_0_0).PackedRows (EltTy.packing .bf16)
  inb_S400x256_S200x256_200_0 : ∀ a, (![200, 0] : Fin 2 → Nat) a + S200x256.size a ≤ S400x256.size a
  inb_S400x128_S200x128_200_0 : ∀ a, (![200, 0] : Fin 2 → Nat) a + S200x128.size a ≤ S400x128.size a
  packedbf16_S400x128_S200x128_200_0 : (Rect.unit (s := S400x128) ![200, 0] S200x128.size inb_S400x128_S200x128_200_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  reduces_S200x128_S200 : S200x128.Reduces [1] S200
  shapeCasts_S200_S200x1 : S200.ShapeCasts S200x1
  broadcasts_S200x1_S200x128 : S200x1.Broadcasts S200x128
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  dot_S200x256_S256x128_S200x128_1_0_0_1_n_n_wf : DotDims.WF S200x256 S256x128 S200x128 [1] [0] [0] [1] [] []
  dot_S200x10000_S10000x128_S200x128_1_0_0_1_n_n_wf : DotDims.WF S200x10000 S10000x128 S200x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x256.size a ≤ S10000x256.size a
  hwx1_2 : ∀ i : grid1.Coords, EltTy.bits .bf16 = 32 ∨ (Rect.block (s := S10000x256) S10000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x256.size a ≤ S10000x256.size a
  hwx1_5 : ∀ i : grid1.Coords, EltTy.bits .f32 = 32 ∨ (Rect.block (s := S10000x256) S400x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x256.size a ≤ S10000x256.size a
  hwx1_6 : ∀ i : grid1.Coords, EltTy.bits .f32 = 32 ∨ (Rect.block (s := S10000x256) S400x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x128.size a ≤ S10000x128.size a
  hwx1_7 : ∀ i : grid1.Coords, EltTy.bits .bf16 = 32 ∨ (Rect.block (s := S10000x128) S400x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x10000.size a ≤ S10000x10000.size a
  hwx2_1 : ∀ i : grid2.Coords, EltTy.bits .f32 = 32 ∨ (Rect.block (s := S10000x10000) S200x10000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S10000x128.size a
  hwx2_2 : ∀ i : grid2.Coords, EltTy.bits .bf16 = 32 ∨ (Rect.block (s := S10000x128) S10000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x128_S200x128_1_0_0_1_n_n : DotDims S200x256 S256x128 S200x128 where
  lhsContracting := [1]
  rhsContracting := [0]
  lhsNonContracting := [0]
  rhsNonContracting := [1]
  lhsBatch := []
  rhsBatch := []
  wf := dot_S200x256_S256x128_S200x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S10000x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S400x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S400x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v3_2) S400x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S200x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_2) S10000x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4_0) S400x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v4_1) S400x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S_ : Shape := ⟨0, ![]⟩
abbrev S10000x128 : Shape := ⟨2, ![10000, 128]⟩
abbrev S1x128 : Shape := ⟨2, ![1, 128]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S10000x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x128, .f32⟩
  | .hbm, ⟨33, _⟩ => ⟨S10000x128, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Reg0.lean ====
/-
  The first pallas_call of the kernel, `xw1 = x · W1`, as a pipeline of ONE point over whole arrays:
  two input windows (x : 10000×256, W1 : 256×256) and one output window (10000×256). What the body leaves in the
  output window's buffer is one store covering the buffer: the product of the two loaded blocks. Everything is
  stated at a PARAMETER `V`, the contents of the core's buffers when the region is entered, and at any float
  instance `F`.
-/
import proofs.«134506_g53876069761532_cont_9to1_m_356_22_alg».proof.Proof.Gen.Kernel.Launch
import proofs.«134506_g53876069761532_cont_9to1_m_356_22_alg».proof.Proof.Gen.Kernel.Skeleton
import proofs.«134506_g53876069761532_cont_9to1_m_356_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the array's block at the point, whatever it held before the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 10000×256 rectangle and the whole 256×256 rectangle: the body's three accesses. -/
abbrev rX : Rect S10000x256 := Rect.unit (s := S10000x256) ![0, 0] S10000x256.size inb_S10000x256_S10000x256_0_0
abbrev rW : Rect S256x256 := Rect.unit (s := S256x256) ![0, 0] S256x256.size inb_S256x256_S256x256_0_0

/-- The output window's buffer after the body: its one store, the product of the loaded blocks. -/
def out0_2 (x0 : Vec F S10000x256 .f32) (x1 : Vec F S256x256 .f32) : Vec F S10000x256 .bf16 :=
  View.canon [⟨rX, k0_pay1 (View.ld x0 rX) (View.ld x1 rW)⟩]

/-- The one store covers the buffer. -/
theorem cover0_2 (p0 : Vec F S10000x256 .bf16) (y : S10000x256.Idx) :
    ∃ pc ∈ ([⟨rX, p0⟩] : List (View.Piece (Elt F) S10000x256 .bf16)), y ∈ pc.1.set :=
  View.cover_of_tiled [⟨rX, p0⟩] S10000x256.size (by rfl) y

set_option maxHeartbeats 1000000 in
/-- The body on whole staging memrefs: the inputs' contents stay, the output's becomes `out0_2` of them. -/
theorem sound_kernel0 (c : Dev nD) (E : Set ℕ) (arg0 : Memref sig .tc .vmem S10000x256 .f32) (harg0 : arg0.IsWhole)
    (arg1 : Memref sig .tc .vmem S256x256 .f32) (harg1 : arg1.IsWhole) (arg2 : Memref sig .tc .vmem S10000x256 .bf16) (harg2 : arg2.IsWhole)
    (x0 : Vec F S10000x256 .f32) (x1 : Vec F S256x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__xw1_body arg0 harg0 arg1 harg1 arg2 harg2) K := by
  simp only [cc0__xw1_body_eq_skeleton]; unfold cc0__xw1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body each
    input's buffer at its block and the output's at `out0_2` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at the point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at the point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/-
  The second pallas_call of the kernel as a pipeline of 25 points. At point `i` two input windows hold
  rows 400·i … 400·i+199 and 400·i+200 … 400·i+399 of the adjacency (both windows on the ONE array, each holding
  half of its share), three more hold `xw1`, the bias row and `W2` whole; the three output windows are blocks of 400 rows
  of `pre1`, `h1` and `hw2`, each written by two stores of 200 rows, one per adjacency window:
      pre1 = A_blk · xw1 + b1,   h1 = max(pre1, 0),   hw2 = h1 · W2.
  Everything is stated at a PARAMETER `V`, the contents of the core's buffers when the region is entered, and at
  any float instance `F`.
-/
import proofs.«134506_g53876069761532_cont_9to1_m_356_22_alg».proof.Proof.Gen.Kernel.Launch
import proofs.«134506_g53876069761532_cont_9to1_m_356_22_alg».proof.Proof.Gen.Kernel.Skeleton
import proofs.«134506_g53876069761532_cont_9to1_m_356_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads and stores through: each input block whole; each output block's lower and upper half. -/
abbrev rAdj1 : Rect S200x10000 := Rect.unit (s := S200x10000) ![0, 0] S200x10000.size inb_S200x10000_S200x10000_0_0
abbrev rXw1 : Rect S10000x256 := Rect.unit (s := S10000x256) ![0, 0] S10000x256.size inb_S10000x256_S10000x256_0_0
abbrev rB1 : Rect S1x256 := Rect.unit (s := S1x256) ![0, 0] S1x256.size inb_S1x256_S1x256_0_0
abbrev rW2 : Rect S256x128 := Rect.unit (s := S256x128) ![0, 0] S256x128.size inb_S256x128_S256x128_0_0
abbrev rLo256 : Rect S400x256 := Rect.unit (s := S400x256) ![0, 0] S200x256.size inb_S400x256_S200x256_0_0
abbrev rHi256 : Rect S400x256 := Rect.unit (s := S400x256) ![200, 0] S200x256.size inb_S400x256_S200x256_200_0
abbrev rLo128 : Rect S400x128 := Rect.unit (s := S400x128) ![0, 0] S200x128.size inb_S400x128_S200x128_0_0
abbrev rHi128 : Rect S400x128 := Rect.unit (s := S400x128) ![200, 0] S200x128.size inb_S400x128_S200x128_200_0

/-- The `pre1` window's buffer after the body: its two stores as pieces, the later one first. -/
def out1_5 (a0 a1 : Vec F S200x10000 .f32) (xw : Vec F S10000x256 .bf16) (b : Vec F S1x256 .f32) : Vec F S400x256 .f32 :=
  View.canon [⟨rHi256, k1_pay7 (View.ld xw rXw1) (View.ld a1 rAdj1) (View.ld b rB1)⟩,
    ⟨rLo256, k1_pay4 (View.ld xw rXw1) (View.ld a0 rAdj1) (View.ld b rB1)⟩]

/-- The `h1` window's buffer after the body. -/
def out1_6 (a0 a1 : Vec F S200x10000 .f32) (xw : Vec F S10000x256 .bf16) (b : Vec F S1x256 .f32) : Vec F S400x256 .f32 :=
  View.canon [⟨rHi256, k1_pay8 (View.ld xw rXw1) (View.ld a1 rAdj1) (View.ld b rB1)⟩,
    ⟨rLo256, k1_pay5 (View.ld xw rXw1) (View.ld a0 rAdj1) (View.ld b rB1)⟩]

/-- The `hw2` window's buffer after the body. -/
def out1_7 (a0 a1 : Vec F S200x10000 .f32) (xw : Vec F S10000x256 .bf16) (b : Vec F S1x256 .f32) (w2 : Vec F S256x128 .f32) : Vec F S400x128 .bf16 :=
  View.canon [⟨rHi128, k1_pay1 (k1_pay2 (View.ld w2 rW2)) (k1_pay8 (View.ld xw rXw1) (View.ld a1 rAdj1) (View.ld b rB1))⟩,
    ⟨rLo128, k1_pay6 (View.ld w2 rW2) (View.ld xw rXw1) (View.ld a0 rAdj1) (View.ld b rB1)⟩]

/-- The proof data of the second pipeline on core `c`: the arrays as the region finds them; after the body at point
    `t` each input's buffer at its block and each output's at `out1_W` of the input blocks; the two adjacency windows
    hold the left and the right half of the array's share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t)
    | ⟨7, _⟩ => out1_7 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem q1_0 (c : Dev nD) : (dat1 V c).q 0 = fullShare.left := by dsimp only [dat1]
theorem q1_1 (c : Dev nD) : (dat1 V c).q 1 = fullShare.right := by dsimp only [dat1]
theorem q1_rest (c : Dev nD) (w : Fin cfg1.W) (h0 : w ≠ 0) (h1 : w ≠ 1) : (dat1 V c).q w = fullShare := by
  match w, h0, h1 with
  | ⟨0, _⟩, h0, _ => exact absurd rfl h0
  | ⟨1, _⟩, _, h1 => exact absurd rfl h1
  | ⟨2, _⟩, _, _ => dsimp only [dat1]
  | ⟨3, _⟩, _, _ => dsimp only [dat1]
  | ⟨4, _⟩, _, _ => dsimp only [dat1]
  | ⟨5, _⟩, _, _ => dsimp only [dat1]
  | ⟨6, _⟩, _, _ => dsimp only [dat1]
  | ⟨7, _⟩, _, _ => dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]
theorem after1_6 (c : Dev nD) (t : Fin cfg1.N) : (dat1 V c).after 6 t = out1_6 (iblk1 V c 0 t) (iblk1 V c 1 t) (iblk1 V c 2 t) (iblk1 V c 3 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]

/-- An input window's staging buffer holds the array's block at the point, fetched there or not, whatever it held
    before: the three whole windows are fetched at the first point only and their index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The two half-block stores of a 400×256 output block cover it. -/
theorem cover1_256 (pHi pLo : Vec F S200x256 .f32) (y : S400x256.Idx) :
    ∃ pc ∈ ([⟨rHi256, pHi⟩, ⟨rLo256, pLo⟩] : List (View.Piece (Elt F) S400x256 .f32)), y ∈ pc.1.set :=
  View.cover_of_tiled [⟨rHi256, pHi⟩, ⟨rLo256, pLo⟩] S200x256.size (by rfl) y

/-- The two half-block stores of the 400×128 output block cover it. -/
theorem cover1_128 (pHi pLo : Vec F S200x128 .bf16) (y : S400x128.Idx) :
    ∃ pc ∈ ([⟨rHi128, pHi⟩, ⟨rLo128, pLo⟩] : List (View.Piece (Elt F) S400x128 .bf16)), y ∈ pc.1.set :=
  View.cover_of_tiled [⟨rHi128, pHi⟩, ⟨rLo128, pLo⟩] S200x128.size (by rfl) y

set_option maxHeartbeats 1000000 in
/-- The body on whole staging memrefs: the five inputs' contents stay; each output's becomes `out1_W` of them. -/
theorem sound_kernel1 (c : Dev nD) (E : Set ℕ) (i : grid1.Coords)
    (arg1 : Memref sig .tc .vmem S200x10000 .f32) (harg1 : arg1.IsWhole)
    (arg2 : Memref sig .tc .vmem S200x10000 .f32) (harg2 : arg2.IsWhole)
    (arg3 : Memref sig .tc .vmem S10000x256 .bf16) (harg3 : arg3.IsWhole)
    (arg4 : Memref sig .tc .vmem S1x256 .f32) (harg4 : arg4.IsWhole)
    (arg5 : Memref sig .tc .vmem S256x128 .f32) (harg5 : arg5.IsWhole)
    (arg6 : Memref sig .tc .vmem S400x256 .f32) (harg6 : arg6.IsWhole)
    (arg7 : Memref sig .tc .vmem S400x256 .f32) (harg7 : arg7.IsWhole)
    (arg8 : Memref sig .tc .vmem S400x128 .bf16) (harg8 : arg8.IsWhole)
    (a0 a1 : Vec F S200x10000 .f32) (xw : Vec F S10000x256 .bf16) (b : Vec F S1x256 .f32) (w2 : Vec F S256x128 .f32)
    (K : PUnit → sProp 𝕄) :
    iprop(owns (c : Thread nD τ) arg1 fullShare a0 ∗ owns (c : Thread nD τ) arg2 fullShare a1
        ∗ owns (c : Thread nD τ) arg3 fullShare xw ∗ owns (c : Thread nD τ) arg4 fullShare b
        ∗ owns (c : Thread nD τ) arg5 fullShare w2
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare a0 ∗ owns (c : Thread nD τ) arg2 fullShare a1
            ∗ owns (c : Thread nD τ) arg3 fullShare xw ∗ owns (c : Thread nD τ) arg4 fullShare b
            ∗ owns (c : Thread nD τ) arg5 fullShare w2
            ∗ owns (c : Thread nD τ) arg6 fullShare (out1_5 a0 a1 xw b)
            ∗ owns (c : Thread nD τ) arg7 fullShare (out1_6 a0 a1 xw b)
            ∗ owns (c : Thread nD τ) arg8 fullShare (out1_7 a0 a1 xw b w2)) -∗ K ⟨⟩))
      ⊢ wp frame (wpE (defs₀ (F := F)) Variants.none c none) E
          (cc1__layer1_body i arg1 harg1 arg2 harg2 arg3 harg3 arg4 harg4 arg5 harg5 arg6 harg6 arg7 harg7 arg8 harg8) K := by
  simp only [cc1__layer1_body_eq_skeleton]; unfold cc1__layer1_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_256 _ _)
  isplitl [H7]
  · iexists _; isplitr
    swap; · iexact H7
    ipureintro
    exact View.read_writes_eq_canon _ _ _ (cover1_256 _ _)
  iexists _; isplitr
  swap; · iexact H8
  ipureintro
  exact View.read_writes_eq_canon _ _ _ (cover1_128 _ _)

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so `sound_kernel1` applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (iblk1 V c 0 t) (iblk1 V c 1 t) (iblk1 V c 2 t) (iblk1 V c 3 t) (iblk1 V c 4 t)
    _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/-
  The third pallas_call of the kernel as a pipeline of 25 points. At point `i` two input windows hold rows
  400·i … 400·i+199 and 400·i+200 … 400·i+399 of the adjacency (both on the ONE array, each holding half of its
  share), two more hold `hw2` and the bias row whole; the two output windows are blocks of 400 rows of `pre2` and of
  its row-wise log-softmax, each written by two stores of 200 rows, one per adjacency window:
      pre2 = A_blk · hw2 + b2,   out = pre2 − (log Σ exp(pre2 − m) + m),  m the row's maximum.
  Everything is stated at a PARAMETER `V`, the contents of the core's buffers when the region is entered, and at
  any float instance `F`.
-/
import proofs.«134506_g53876069761532_cont_9to1_m_356_22_alg».proof.Proof.Gen.Kernel.Launch
import proofs.«134506_g53876069761532_cont_9to1_m_356_22_alg».proof.Proof.Gen.Kernel.Skeleton
import proofs.«134506_g53876069761532_cont_9to1_m_356_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangles the body loads and stores through: each input block whole; each output block's lower and upper half. -/
abbrev rAdj2 : Rect S200x10000 := Rect.unit (s := S200x10000) ![0, 0] S200x10000.size inb_S200x10000_S200x10000_0_0
abbrev rHw2 : Rect S10000x128 := Rect.unit (s := S10000x128) ![0, 0] S10000x128.size inb_S10000x128_S10000x128_0_0
abbrev rB2 : Rect S1x128 := Rect.unit (s := S1x128) ![0, 0] S1x128.size inb_S1x128_S1x128_0_0
abbrev rLo : Rect S400x128 := Rect.unit (s := S400x128) ![0, 0] S200x128.size inb_S400x128_S200x128_0_0
abbrev rHi : Rect S400x128 := Rect.unit (s := S400x128) ![200, 0] S200x128.size inb_S400x128_S200x128_200_0

/-- The `pre2` window's buffer after the body: its two stores as pieces, the later one first. -/
def out2_4 (a0 a1 : Vec F S200x10000 .f32) (hw : Vec F S10000x128 .bf16) (b : Vec F S1x128 .f32) : Vec F S400x128 .f32 :=
  View.canon [⟨rHi, k2_pay5 (View.ld hw rHw2) (View.ld a1 rAdj2) (View.ld b rB2)⟩,
    ⟨rLo, k2_pay3 (View.ld hw rHw2) (View.ld a0 rAdj2) (View.ld b rB2)⟩]

/-- The log-softmax window's buffer after the body. -/
def out2_5 (a0 a1 : Vec F S200x10000 .f32) (hw : Vec F S10000x128 .bf16) (b : Vec F S1x128 .f32) : Vec F S400x128 .f32 :=
  View.canon [⟨rHi, k2_pay1 (k2_pay5 (View.ld hw rHw2) (View.ld a1 rAdj2) (View.ld b rB2)) (k2_pay6 (View.ld hw rHw2) (View.ld a1 rAdj2) (View.ld b rB2)) (k2_pay7 (View.ld hw rHw2) (View.ld a1 rAdj2) (View.ld b rB2))⟩,
    ⟨rLo, k2_pay4 (View.ld hw rHw2) (View.ld a0 rAdj2) (View.ld b rB2)⟩]

/-- The proof data of the third pipeline on core `c`: the arrays as the region finds them; after the body at point
    `t` each input's buffer at its block and each output's at `out2_W` of the input blocks; the two adjacency windows
    hold the left and the right half of the array's share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq2 (c : Dev nD) (w : Fin cfg2.W) : (dat2 V c).A w = V c (Pipeline.arrRef spec2 w) := by
  dsimp only [dat2]
theorem q2_0 (c : Dev nD) : (dat2 V c).q 0 = fullShare.left := by dsimp only [dat2]
theorem q2_1 (c : Dev nD) : (dat2 V c).q 1 = fullShare.right := by dsimp only [dat2]
theorem q2_rest (c : Dev nD) (w : Fin cfg2.W) (h0 : w ≠ 0) (h1 : w ≠ 1) : (dat2 V c).q w = fullShare := by
  match w, h0, h1 with
  | ⟨0, _⟩, h0, _ => exact absurd rfl h0
  | ⟨1, _⟩, _, h1 => exact absurd rfl h1
  | ⟨2, _⟩, _, _ => dsimp only [dat2]
  | ⟨3, _⟩, _, _ => dsimp only [dat2]
  | ⟨4, _⟩, _, _ => dsimp only [dat2]
  | ⟨5, _⟩, _, _ => dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- An input window's current staging buffer holds the array's block at the point, whether it was fetched there or
    at an earlier point with the same block index: the two adjacency windows move with the point, the `hw2` and bias
    windows stay on their one block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The two half-block stores tile a 400×128 buffer in blocks of 200×128, so together they cover it. -/
theorem cover2_out (p1 : rHi.shape.Idx → Elt F .f32) (p0 : rLo.shape.Idx → Elt F .f32) (y : S400x128.Idx) :
    ∃ pc ∈ ([⟨rHi, p1⟩, ⟨rLo, p0⟩] : List (View.Piece (Elt F) S400x128 .f32)), y ∈ pc.1.set :=
  View.cover_of_tiled [⟨rHi, p1⟩, ⟨rLo, p0⟩] S200x128.size (by rfl) y

set_option maxHeartbeats 1000000 in
/-- The body on whole staging memrefs: the four inputs' contents stay; each output's becomes its two stores'
    canon, rows 0–199 from the first adjacency window's block and rows 200–399 from the second's. -/
theorem sound_kernel2 (c : Dev nD) (E : Set ℕ) (i : grid2.Coords)
    (arg1 : Memref sig .tc .vmem S200x10000 .f32) (harg1 : arg1.IsWhole) (arg2 : Memref sig .tc .vmem S200x10000 .f32) (harg2 : arg2.IsWhole)
    (arg3 : Memref sig .tc .vmem S10000x128 .bf16) (harg3 : arg3.IsWhole) (arg4 : Memref sig .tc .vmem S1x128 .f32) (harg4 : arg4.IsWhole)
    (arg5 : Memref sig .tc .vmem S400x128 .f32) (harg5 : arg5.IsWhole) (arg6 : Memref sig .tc .vmem S400x128 .f32) (harg6 : arg6.IsWhole)
    (a0 a1 : Vec F S200x10000 .f32) (hw : Vec F S10000x128 .bf16) (b : Vec F S1x128 .f32) (K : PUnit → sProp 𝕄) :
    iprop(owns (c : Thread nD τ) arg1 fullShare a0 ∗ owns (c : Thread nD τ) arg2 fullShare a1 ∗ owns (c : Thread nD τ) arg3 fullShare hw ∗ owns (c : Thread nD τ) arg4 fullShare b
        ∗ (∃ d, owns (c : Thread nD τ) arg5 fullShare d) ∗ (∃ d, owns (c : Thread nD τ) arg6 fullShare d)
        ∗ (iprop(owns (c : Thread nD τ) arg1 fullShare a0 ∗ owns (c : Thread nD τ) arg2 fullShare a1 ∗ owns (c : Thread nD τ) arg3 fullShare hw ∗ owns (c : Thread nD τ) arg4 fullShare b
            ∗ owns (c : Thread nD τ) arg5 fullShare (out2_4 a0 a1 hw b) ∗ owns (c : Thread nD τ) arg6 fullShare (out2_5 a0 a1 hw b)) -∗ K ⟨⟩))
      ⊢ wp frame (wpE (defs₀ (F := F)) Variants.none c none) E (cc2__layer2_body i arg1 harg1 arg2 harg2 arg3 harg3 arg4 harg4 arg5 harg5 arg6 harg6) K := by
  simp only [cc2__layer2_body_eq_skeleton]; unfold cc2__layer2_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover2_out _ _)).trans ?_
    simp only [View.readAt_eq_ld]
    rfl
  iexists _; isplitr
  swap; · iexact H5
  ipureintro
  refine (View.read_writes_eq_canon _ _ _ (cover2_out _ _)).trans ?_
  simp only [View.readAt_eq_ld]
  rfl

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies at those blocks; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Share.lean ====
/-
  The core's unscoped buffers against a pipeline's windowed arrays, when TWO INPUT WINDOWS READ ONE ARRAY.

  In the second and the third pallas_call windows 0 and 1 both read the adjacency. The array's buffer, held whole at
  the full share, is dealt to the two windows as the left and the right half of that share (each window only reads);
  every other window's array is a buffer of its own at the full share. Entering the region splits the core's
  unscoped buffers into the windows' arrays and the rest; leaving it joins the two halves again and puts every
  array back at the contents the pipeline left.
-/
import proofs.«134506_g53876069761532_cont_9to1_m_356_22_alg».proof.Proof.Gen.Kernel.Launch
import proofs.«134506_g53876069761532_cont_9to1_m_356_22_alg».proof.Proof.Gen.Kernel.Skeleton
import proofs.«134506_g53876069761532_cont_9to1_m_356_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section Share
omit V
variable {c : Dev nD}

/-- The distinct buffers behind the second pallas_call's windows, one by one: the adjacency once. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v2) ↦{fullShare} V main_v2)
          ∗ (((c : Thread nD τ).loc main_v0) ↦{fullShare} V main_v0) ∗ (((c : Thread nD τ).loc main_arg4) ↦{fullShare} V main_arg4)
          ∗ (((c : Thread nD τ).loc main_v3_0) ↦{fullShare} V main_v3_0) ∗ (((c : Thread nD τ).loc main_v3_1) ↦{fullShare} V main_v3_1)
          ∗ (((c : Thread nD τ).loc main_v3_2) ↦{fullShare} V main_v3_2)) := by
  unfold Pipeline.arrBufs
  exact bigSep_eq_bigSepL_of_eq [main_arg1, main_v2, main_v0, main_arg4, main_v3_0, main_v3_1, main_v3_2] (by decide) (by decide) _

/-- The second pallas_call's windowed arrays, one by one: the adjacency's two windows hold the halves of its
    share, every other window its array's full share. -/
theorem arrays1_eq (dat : Dat τ (Elt F) Unit ℕ (UR sig nD τ) ℕ cfg1 c)
    (hq0 : dat.q 0 = fullShare.left) (hq1 : dat.q 1 = fullShare.right)
    (hq : ∀ w : Fin cfg1.W, w ≠ 0 → w ≠ 1 → dat.q w = fullShare)
    (G : (w : Fin cfg1.W) → Buf (Elt F) ((cfg1.win w).arr.view.loc (c.tc : Thread nD τ))) :
    (dat.arrays G : sProp 𝕄)
      = iprop((((c : Thread nD τ).loc main_arg1) ↦{fullShare.left} G 0) ∗ (((c : Thread nD τ).loc main_arg1) ↦{fullShare.right} G 1)
          ∗ (((c : Thread nD τ).loc main_v2) ↦{fullShare} G 2) ∗ (((c : Thread nD τ).loc main_v0) ↦{fullShare} G 3)
          ∗ (((c : Thread nD τ).loc main_arg4) ↦{fullShare} G 4) ∗ (((c : Thread nD τ).loc main_v3_0) ↦{fullShare} G 5)
          ∗ (((c : Thread nD τ).loc main_v3_1) ↦{fullShare} G 6) ∗ (((c : Thread nD τ).loc main_v3_2) ↦{fullShare} G 7)) := by
  have e : ∀ (w : Fin cfg1.W) (q : PosShare TreeShare), dat.share w = q →
      ((cfg1.win w).arr.view.loc (c.tc : Thread nD τ) ↦[(cfg1.win w).arr.view.set]{dat.share w} G w : sProp 𝕄)
      = ((cfg1.win w).arr.view.loc (c.tc : Thread nD τ) ↦{q} G w) := fun w q h => by rw [(Gen.arr_whole1 w).set_eq_univ, h]
  unfold Dat.arrays
  refine (Gen.bigSep_W1 _).trans ?_
  refine congrArg₂ BI.sep ?_ (congrArg₂ BI.sep ?_ (congrArg₂ BI.sep ?_ (congrArg₂ BI.sep ?_ (congrArg₂ BI.sep ?_ (congrArg₂ BI.sep ?_ (congrArg₂ BI.sep ?_ ?_))))))
  · exact e 0 _ hq0
  · exact e 1 _ hq1
  · exact e 2 _ (hq 2 (by decide) (by decide))
  · exact e 3 _ (hq 3 (by decide) (by decide))
  · exact e 4 _ (hq 4 (by decide) (by decide))
  · exact e 5 _ rfl
  · exact e 6 _ rfl
  · exact e 7 _ rfl

/-- The distinct buffers behind the second pallas_call's windows, at contents `V`, are its windowed arrays at the
    contents `V` has at each window's array: the adjacency's full share is its left and its right half. -/
theorem arrBufs1_eq_arrays (dat : Dat τ (Elt F) Unit ℕ (UR sig nD τ) ℕ cfg1 c)
    (hq0 : dat.q 0 = fullShare.left) (hq1 : dat.q 1 = fullShare.right)
    (hq : ∀ w : Fin cfg1.W, w ≠ 0 → w ≠ 1 → dat.q w = fullShare)
    (V : (b : Ref sig .tc) → Buf (Elt F) ((c : Thread nD τ).loc b)) :
    (Pipeline.arrBufs (Ix := Unit) (Name := ℕ) (U := UR sig nD τ) (Lvl := ℕ) spec1 c V : sProp 𝕄)
      = dat.arrays fun w => V (Pipeline.arrRef spec1 w) := by
  have hsh : (((c : Thread nD τ).loc main_arg1) ↦{fullShare} V main_arg1 : sProp 𝕄)
      = iprop((((c : Thread nD τ).loc main_arg1) ↦{fullShare.left} V main_arg1) ∗ (((c : Thread nD τ).loc main_arg1) ↦{fullShare.right} V main_arg1)) :=
    Idealize.SL.BI.Entails.antisymm (pointsTo_share (PosShare.mem_left_op_right fullShare)).1
      (pointsTo_share (PosShare.mem_left_op_right fullShare)).2
  rw [arrBufs1_eq, arrays1_eq dat hq0 hq1 hq, hsh]
  exact Idealize.SL.BI.Entails.antisymm Idealize.SL.BI.sep_assoc Idealize.SL.BI.sep_assoc'

/-- Entering the second pallas_call: the unscoped buffers at `V` are its windows' arrays (the adjacency in two halves)
    and the unscoped rest. -/
theorem arrays_of_unscopedBufs1 (dat : Dat τ (Elt F) Unit ℕ (UR sig nD τ) ℕ cfg1 c)
    (hq0 : dat.q 0 = fullShare.left) (hq1 : dat.q 1 = fullShare.right)
    (hq : ∀ w : Fin cfg1.W, w ≠ 0 → w ≠ 1 → dat.q w = fullShare)
    (V : (b : Ref sig .tc) → Buf (Elt F) ((c : Thread nD τ).loc b)) (hA : ∀ w, dat.A w = V (Pipeline.arrRef spec1 w)) :
    (unscopedBufs c V : sProp 𝕄)
      ⊢ iprop(dat.arrays dat.A ∗ Pipeline.unscopedRest (Ix := Unit) (Name := ℕ) (U := UR sig nD τ) (Lvl := ℕ) spec1 c V) := by
  have hs : (unscopedBufs c V : sProp 𝕄) = iprop(Pipeline.arrBufs spec1 c V ∗ Pipeline.unscopedRest spec1 c V) :=
    Pipeline.unscopedBufs_split₀ cfgs 1 Gen.winFacts₀1.arr_unscoped c V
  rw [hs, arrBufs1_eq_arrays dat hq0 hq1 hq V, show dat.A = fun w => V (Pipeline.arrRef spec1 w) from funext hA]

/-- Leaving it: the arrays at contents `G` and the rest at `V` are the unscoped buffers at any `V'` that has the
    arrays at `G` and agrees with `V` off them. -/
theorem unscopedBufs_of_arrays1 (dat : Dat τ (Elt F) Unit ℕ (UR sig nD τ) ℕ cfg1 c)
    (hq0 : dat.q 0 = fullShare.left) (hq1 : dat.q 1 = fullShare.right)
    (hq : ∀ w : Fin cfg1.W, w ≠ 0 → w ≠ 1 → dat.q w = fullShare)
    (V V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w))
    (hrest : ∀ b, b ∉ Finset.univ.image (Pipeline.arrRef spec1) → V' b = V b) :
    iprop(dat.arrays G ∗ Pipeline.unscopedRest (Ix := Unit) (Name := ℕ) (U := UR sig nD τ) (Lvl := ℕ) spec1 c V)
      ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs 1 Gen.winFacts₀1.arr_unscoped c V'
  rw [hs, arrBufs1_eq_arrays dat hq0 hq1 hq V', show G = fun w => V' (Pipeline.arrRef spec1 w) from funext hG]
  refine sep_mono .rfl (Entails.of_eq ?_)
  unfold Pipeline.unscopedRest
  exact bigSep_congr fun b hb => by rw [hrest b (Finset.mem_sdiff.mp hb).2]

/-- The distinct buffers behind the third pallas_call's windows, one by one: the adjacency once. -/
theorem arrBufs2_eq (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_arg1) ↦{fullShare} V main_arg1) ∗ (((c : Thread nD τ).loc main_v3_2) ↦{fullShare} V main_v3_2)
          ∗ (((c : Thread nD τ).loc main_v1) ↦{fullShare} V main_v1) ∗ (((c : Thread nD τ).loc main_v4_0) ↦{fullShare} V main_v4_0)
          ∗ (((c : Thread nD τ).loc main_v4_1) ↦{fullShare} V main_v4_1)) := by
  unfold Pipeline.arrBufs
  exact bigSep_eq_bigSepL_of_eq [main_arg1, main_v3_2, main_v1, main_v4_0, main_v4_1] (by decide) (by decide) _

/-- The third pallas_call's windowed arrays, one by one: the adjacency's two windows hold the halves of its
    share, every other window its array's full share. -/
theorem arrays2_eq (dat : Dat τ (Elt F) Unit ℕ (UR sig nD τ) ℕ cfg2 c)
    (hq0 : dat.q 0 = fullShare.left) (hq1 : dat.q 1 = fullShare.right)
    (hq : ∀ w : Fin cfg2.W, w ≠ 0 → w ≠ 1 → dat.q w = fullShare)
    (G : (w : Fin cfg2.W) → Buf (Elt F) ((cfg2.win w).arr.view.loc (c.tc : Thread nD τ))) :
    (dat.arrays G : sProp 𝕄)
      = iprop((((c : Thread nD τ).loc main_arg1) ↦{fullShare.left} G 0) ∗ (((c : Thread nD τ).loc main_arg1) ↦{fullShare.right} G 1)
          ∗ (((c : Thread nD τ).loc main_v3_2) ↦{fullShare} G 2) ∗ (((c : Thread nD τ).loc main_v1) ↦{fullShare} G 3)
          ∗ (((c : Thread nD τ).loc main_v4_0) ↦{fullShare} G 4) ∗ (((c : Thread nD τ).loc main_v4_1) ↦{fullShare} G 5)) := by
  have e : ∀ (w : Fin cfg2.W) (q : PosShare TreeShare), dat.share w = q →
      ((cfg2.win w).arr.view.loc (c.tc : Thread nD τ) ↦[(cfg2.win w).arr.view.set]{dat.share w} G w : sProp 𝕄)
      = ((cfg2.win w).arr.view.loc (c.tc : Thread nD τ) ↦{q} G w) := fun w q h => by rw [(Gen.arr_whole2 w).set_eq_univ, h]
  unfold Dat.arrays
  refine (Gen.bigSep_W2 _).trans ?_
  refine congrArg₂ BI.sep ?_ (congrArg₂ BI.sep ?_ (congrArg₂ BI.sep ?_ (congrArg₂ BI.sep ?_ (congrArg₂ BI.sep ?_ ?_))))
  · exact e 0 _ hq0
  · exact e 1 _ hq1
  · exact e 2 _ (hq 2 (by decide) (by decide))
  · exact e 3 _ (hq 3 (by decide) (by decide))
  · exact e 4 _ rfl
  · exact e 5 _ rfl

/-- The distinct buffers behind the third pallas_call's windows, at contents `V`, are its windowed arrays at the
    contents `V` has at each window's array: the adjacency's full share is its left and its right half. -/
theorem arrBufs2_eq_arrays (dat : Dat τ (Elt F) Unit ℕ (UR sig nD τ) ℕ cfg2 c)
    (hq0 : dat.q 0 = fullShare.left) (hq1 : dat.q 1 = fullShare.right)
    (hq : ∀ w : Fin cfg2.W, w ≠ 0 → w ≠ 1 → dat.q w = fullShare)
    (V : (b : Ref sig .tc) → Buf (Elt F) ((c : Thread nD τ).loc b)) :
    (Pipeline.arrBufs (Ix := Unit) (Name := ℕ) (U := UR sig nD τ) (Lvl := ℕ) spec2 c V : sProp 𝕄)
      = dat.arrays fun w => V (Pipeline.arrRef spec2 w) := by
  have hsh : (((c : Thread nD τ).loc main_arg1) ↦{fullShare} V main_arg1 : sProp 𝕄)
      = iprop((((c : Thread nD τ).loc main_arg1) ↦{fullShare.left} V main_arg1) ∗ (((c : Thread nD τ).loc main_arg1) ↦{fullShare.right} V main_arg1)) :=
    Idealize.SL.BI.Entails.antisymm (pointsTo_share (PosShare.mem_left_op_right fullShare)).1
      (pointsTo_share (PosShare.mem_left_op_right fullShare)).2
  rw [arrBufs2_eq, arrays2_eq dat hq0 hq1 hq, hsh]
  exact Idealize.SL.BI.Entails.antisymm Idealize.SL.BI.sep_assoc Idealize.SL.BI.sep_assoc'

/-- Entering the third pallas_call. -/
theorem arrays_of_unscopedBufs2 (dat : Dat τ (Elt F) Unit ℕ (UR sig nD τ) ℕ cfg2 c)
    (hq0 : dat.q 0 = fullShare.left) (hq1 : dat.q 1 = fullShare.right)
    (hq : ∀ w : Fin cfg2.W, w ≠ 0 → w ≠ 1 → dat.q w = fullShare)
    (V : (b : Ref sig .tc) → Buf (Elt F) ((c : Thread nD τ).loc b)) (hA : ∀ w, dat.A w = V (Pipeline.arrRef spec2 w)) :
    (unscopedBufs c V : sProp 𝕄)
      ⊢ iprop(dat.arrays dat.A ∗ Pipeline.unscopedRest (Ix := Unit) (Name := ℕ) (U := UR sig nD τ) (Lvl := ℕ) spec2 c V) := by
  have hs : (unscopedBufs c V : sProp 𝕄) = iprop(Pipeline.arrBufs spec2 c V ∗ Pipeline.unscopedRest spec2 c V) :=
    Pipeline.unscopedBufs_split₀ cfgs 2 Gen.winFacts₀2.arr_unscoped c V
  rw [hs, arrBufs2_eq_arrays dat hq0 hq1 hq V, show dat.A = fun w => V (Pipeline.arrRef spec2 w) from funext hA]

/-- Leaving it. -/
theorem unscopedBufs_of_arrays2 (dat : Dat τ (Elt F) Unit ℕ (UR sig nD τ) ℕ cfg2 c)
    (hq0 : dat.q 0 = fullShare.left) (hq1 : dat.q 1 = fullShare.right)
    (hq : ∀ w : Fin cfg2.W, w ≠ 0 → w ≠ 1 → dat.q w = fullShare)
    (V V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w))
    (hrest : ∀ b, b ∉ Finset.univ.image (Pipeline.arrRef spec2) → V' b = V b) :
    iprop(dat.arrays G ∗ Pipeline.unscopedRest (Ix := Unit) (Name := ℕ) (U := UR sig nD τ) (Lvl := ℕ) spec2 c V)
      ⊢ (unscopedBufs c V' : sProp 𝕄) := by
  have hs : (unscopedBufs c V' : sProp 𝕄) = iprop(Pipeline.arrBufs spec2 c V' ∗ Pipeline.unscopedRest spec2 c V') :=
    Pipeline.unscopedBufs_split₀ cfgs 2 Gen.winFacts₀2.arr_unscoped c V'
  rw [hs, arrBufs2_eq_arrays dat hq0 hq1 hq V', show G = fun w => V' (Pipeline.arrRef spec2 w) from funext hG]
  refine sep_mono .rfl (Entails.of_eq ?_)
  unfold Pipeline.unscopedRest
  exact bigSep_congr fun b hb => by rw [hrest b (Finset.mem_sdiff.mp hb).2]

end Share

end Cert.Kernel.Fr

end
-- ==== Proof.K.Run.lean ====
/-
  The idealized kernel's @main from the launch to the return: a stretch of two host reshapes (the bias vectors laid
  out as one-row matrices) and the three pallas_calls in order. Between two items every unscoped buffer of the core
  is held at a known valuation: the launch contents, then the host stretch applied, then after each region its output
  arrays replaced by what the pipeline's write-backs leave (every other buffer as it was). Each region is entered
  from the valuation before it and left at the one after it; the run ends with every unscoped buffer at the last
  valuation, from which the arguments (untouched) and the five results are read.
-/
import proofs.«134506_g53876069761532_cont_9to1_m_356_22_alg».proof.Proof.Gen.Kernel.Launch
import proofs.«134506_g53876069761532_cont_9to1_m_356_22_alg».proof.Proof.Gen.Kernel.Skeleton
import proofs.«134506_g53876069761532_cont_9to1_m_356_22_alg».proof.Proof.Gen.Kernel.Points
import proofs.«134506_g53876069761532_cont_9to1_m_356_22_alg».proof.Proof.Gen.Kernel.Regions
import proofs.«134506_g53876069761532_cont_9to1_m_356_22_alg».proof.Proof.K.Reg0
import proofs.«134506_g53876069761532_cont_9to1_m_356_22_alg».proof.Proof.K.Reg1
import proofs.«134506_g53876069761532_cont_9to1_m_356_22_alg».proof.Proof.K.Reg2
import proofs.«134506_g53876069761532_cont_9to1_m_356_22_alg».proof.Proof.K.Share
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- The contents the first region is entered at: the launch contents with the host stretch applied. -/
abbrev E0 : (c : Dev nD) → (b : Ref sig .tc) → Buf (Elt F) ((c : Thread nD τ).loc b) := fun c b => V1 m c b
/-- After the first region: its output array at what the pipeline leaves. -/
def X2 (c : Dev nD) : Valuation τ sig (Elt F) :=
  Function.update (V1 m c) main_v2 ((dat0 (E0 m) c).arrAt 2 cfg0.N)
/-- The contents the second region is entered at. -/
abbrev E1 : (c : Dev nD) → (b : Ref sig .tc) → Buf (Elt F) ((c : Thread nD τ).loc b) := fun c b => X2 m c b
/-- After the second region: its three output arrays at what the pipeline leaves. -/
def X3 (c : Dev nD) : Valuation τ sig (Elt F) :=
  Function.update (Function.update (Function.update (X2 m c) main_v3_0 ((dat1 (E1 m) c).arrAt 5 cfg1.N))
    main_v3_1 ((dat1 (E1 m) c).arrAt 6 cfg1.N)) main_v3_2 ((dat1 (E1 m) c).arrAt 7 cfg1.N)
/-- The contents the third region is entered at. -/
abbrev E2 : (c : Dev nD) → (b : Ref sig .tc) → Buf (Elt F) ((c : Thread nD τ).loc b) := fun c b => X3 m c b
/-- After the third region: its two output arrays at what the pipeline leaves. -/
def X4 (c : Dev nD) : Valuation τ sig (Elt F) :=
  Function.update (Function.update (X3 m c) main_v4_0 ((dat2 (E2 m) c).arrAt 4 cfg2.N))
    main_v4_1 ((dat2 (E2 m) c).arrAt 5 cfg2.N)

/-- Two different references are different keys of a valuation. -/
theorem dne {r r' : Ref sig .tc} (h : r ≠ r') : (Proc.devRef .tc r : DevRef τ sig) ≠ Proc.devRef .tc r' :=
  StableHlo.devRef_ne_of_ne h

/-! ### Reading the valuations -/

theorem X2_v2 (c : Dev nD) : X2 m c main_v2 = (dat0 (E0 m) c).arrAt 2 cfg0.N := by
  unfold X2; exact Function.update_self ..
theorem X2_of (c : Dev nD) (r : Ref sig .tc) (h : r ≠ main_v2) : X2 m c r = V1 m c r := by
  unfold X2; exact Function.update_of_ne (dne h) ..

theorem X3_v3_0 (c : Dev nD) : X3 m c main_v3_0 = (dat1 (E1 m) c).arrAt 5 cfg1.N := by
  unfold X3
  rw [Function.update_of_ne (dne (by decide : main_v3_0 ≠ main_v3_2)), Function.update_of_ne (dne (by decide : main_v3_0 ≠ main_v3_1))]
  exact Function.update_self ..
theorem X3_v3_1 (c : Dev nD) : X3 m c main_v3_1 = (dat1 (E1 m) c).arrAt 6 cfg1.N := by
  unfold X3
  rw [Function.update_of_ne (dne (by decide : main_v3_1 ≠ main_v3_2))]
  exact Function.update_self ..
theorem X3_v3_2 (c : Dev nD) : X3 m c main_v3_2 = (dat1 (E1 m) c).arrAt 7 cfg1.N := by
  unfold X3; exact Function.update_self ..
theorem X3_of (c : Dev nD) (r : Ref sig .tc) (h0 : r ≠ main_v3_0) (h1 : r ≠ main_v3_1) (h2 : r ≠ main_v3_2) : X3 m c r = X2 m c r := by
  unfold X3
  rw [Function.update_of_ne (dne h2), Function.update_of_ne (dne h1), Function.update_of_ne (dne h0)]

theorem X4_v4_0 (c : Dev nD) : X4 m c main_v4_0 = (dat2 (E2 m) c).arrAt 4 cfg2.N := by
  unfold X4
  rw [Function.update_of_ne (dne (by decide : main_v4_0 ≠ main_v4_1))]
  exact Function.update_self ..
theorem X4_v4_1 (c : Dev nD) : X4 m c main_v4_1 = (dat2 (E2 m) c).arrAt 5 cfg2.N := by
  unfold X4; exact Function.update_self ..
theorem X4_of (c : Dev nD) (r : Ref sig .tc) (h0 : r ≠ main_v4_0) (h1 : r ≠ main_v4_1) : X4 m c r = X3 m c r := by
  unfold X4
  rw [Function.update_of_ne (dne h1), Function.update_of_ne (dne h0)]

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### Each region's arrays at its exit valuation -/

theorem hF0 (c : Dev nD) (w : Fin cfg0.W) : (dat0 (E0 m) c).arrAt w cfg0.N = E1 m c (Pipeline.arrRef spec0 w) := by
  match w with
  | ⟨0, _⟩ => exact ((dat0 (E0 m) c).arrAt_in 0 rfl _).trans ((A_eq0 (E0 m) c 0).trans (X2_of m c main_arg0 (by decide)).symm)
  | ⟨1, _⟩ => exact ((dat0 (E0 m) c).arrAt_in 1 rfl _).trans ((A_eq0 (E0 m) c 1).trans (X2_of m c main_arg2 (by decide)).symm)
  | ⟨2, _⟩ => exact (X2_v2 m c).symm
theorem hrest0 (c : Dev nD) : ∀ b, b ∉ Finset.univ.image (Pipeline.arrRef spec0) → E1 m c b = E0 m c b :=
  fun b hb => X2_of m c b fun e => hb (Finset.mem_image.mpr ⟨2, Finset.mem_univ _, e.symm⟩)

theorem hF1 (c : Dev nD) (w : Fin cfg1.W) : (dat1 (E1 m) c).arrAt w cfg1.N = E2 m c (Pipeline.arrRef spec1 w) := by
  match w with
  | ⟨0, _⟩ => exact ((dat1 (E1 m) c).arrAt_in 0 rfl _).trans ((A_eq1 (E1 m) c 0).trans (X3_of m c main_arg1 (by decide) (by decide) (by decide)).symm)
  | ⟨1, _⟩ => exact ((dat1 (E1 m) c).arrAt_in 1 rfl _).trans ((A_eq1 (E1 m) c 1).trans (X3_of m c main_arg1 (by decide) (by decide) (by decide)).symm)
  | ⟨2, _⟩ => exact ((dat1 (E1 m) c).arrAt_in 2 rfl _).trans ((A_eq1 (E1 m) c 2).trans (X3_of m c main_v2 (by decide) (by decide) (by decide)).symm)
  | ⟨3, _⟩ => exact ((dat1 (E1 m) c).arrAt_in 3 rfl _).trans ((A_eq1 (E1 m) c 3).trans (X3_of m c main_v0 (by decide) (by decide) (by decide)).symm)
  | ⟨4, _⟩ => exact ((dat1 (E1 m) c).arrAt_in 4 rfl _).trans ((A_eq1 (E1 m) c 4).trans (X3_of m c main_arg4 (by decide) (by decide) (by decide)).symm)
  | ⟨5, _⟩ => exact (X3_v3_0 m c).symm
  | ⟨6, _⟩ => exact (X3_v3_1 m c).symm
  | ⟨7, _⟩ => exact (X3_v3_2 m c).symm
theorem hrest1 (c : Dev nD) : ∀ b, b ∉ Finset.univ.image (Pipeline.arrRef spec1) → E2 m c b = E1 m c b :=
  fun b hb => X3_of m c b (fun e => hb (Finset.mem_image.mpr ⟨5, Finset.mem_univ _, e.symm⟩))
    (fun e => hb (Finset.mem_image.mpr ⟨6, Finset.mem_univ _, e.symm⟩)) (fun e => hb (Finset.mem_image.mpr ⟨7, Finset.mem_univ _, e.symm⟩))

theorem hF2 (c : Dev nD) (w : Fin cfg2.W) : (dat2 (E2 m) c).arrAt w cfg2.N = X4 m c (Pipeline.arrRef spec2 w) := by
  match w with
  | ⟨0, _⟩ => exact ((dat2 (E2 m) c).arrAt_in 0 rfl _).trans ((A_eq2 (E2 m) c 0).trans (X4_of m c main_arg1 (by decide) (by decide)).symm)
  | ⟨1, _⟩ => exact ((dat2 (E2 m) c).arrAt_in 1 rfl _).trans ((A_eq2 (E2 m) c 1).trans (X4_of m c main_arg1 (by decide) (by decide)).symm)
  | ⟨2, _⟩ => exact ((dat2 (E2 m) c).arrAt_in 2 rfl _).trans ((A_eq2 (E2 m) c 2).trans (X4_of m c main_v3_2 (by decide) (by decide)).symm)
  | ⟨3, _⟩ => exact ((dat2 (E2 m) c).arrAt_in 3 rfl _).trans ((A_eq2 (E2 m) c 3).trans (X4_of m c main_v1 (by decide) (by decide)).symm)
  | ⟨4, _⟩ => exact (X4_v4_0 m c).symm
  | ⟨5, _⟩ => exact (X4_v4_1 m c).symm
theorem hrest2 (c : Dev nD) : ∀ b, b ∉ Finset.univ.image (Pipeline.arrRef spec2) → (fun b => X4 m c b : (b : Ref sig .tc) → Buf (Elt F) ((c : Thread nD τ).loc b)) b = E2 m c b :=
  fun b hb => X4_of m c b (fun e => hb (Finset.mem_image.mpr ⟨4, Finset.mem_univ _, e.symm⟩))
    (fun e => hb (Finset.mem_image.mpr ⟨5, Finset.mem_univ _, e.symm⟩))

/-! ## The regions as segments -/

set_option backward.isDefEq.respectTransparency.types false in
/-- The first pallas_call over the thread state: entered from every unscoped buffer at the contents before it, left at
    the contents after it; its arrays split out of the unscoped buffers and put back; the generator register into the
    pipeline's invariant and out; nothing owed; no semaphore of the kernel's own. -/
def reg0 : Pipeline.RegionSeg (pcfgs (F := F)) adm (pdats m) () defs₀ 𝒱₀ L lv 0 where
  win := launch0.win.to₀
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at the contents before it, left at
    the contents after it; its arrays split out of the unscoped buffers and put back; the generator register into the
    pipeline's invariant and out; nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := arrays_of_unscopedBufs1 (c := c) (pdats m 1 c) (q1_0 (E1 m) c) (q1_1 (E1 m) c) (q1_rest (E1 m) c) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (c := c) (pdats m 1 c) (q1_0 (E1 m) c) (q1_1 (E1 m) c) (q1_rest (E1 m) c)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third pallas_call over the thread state: entered from every unscoped buffer at the contents before it, left at
    the contents after it; its arrays split out of the unscoped buffers and put back; the generator register into the
    pipeline's invariant and out; nothing owed; no semaphore of the kernel's own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := arrays_of_unscopedBufs2 (c := c) (pdats m 2 c) (q2_0 (E2 m) c) (q2_1 (E2 m) c) (q2_rest (E2 m) c) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (c := c) (pdats m 2 c) (q2_0 (E2 m) c) (q2_1 (E2 m) c) (q2_rest (E2 m) c)
      (E2 m c) (fun b => X4 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev segs : List (Pipeline.Seg (pcfgs (F := F)) adm (pdats m) () defs₀ 𝒱₀ L lv) :=
  [ .host (hseg0 m), .region (reg0 m), .region (reg1 m), .region (reg2 m) ]

theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every final state holds every unscoped buffer of every core at the last valuation. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = X4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (X4 m c) ∗ ∃ r, prngReg c r))
    (hch := ⟨fun _ => .rfl, fun _ => .rfl, fun _ => .rfl, fun _ => .rfl, fun c => by
      show iprop(StableHlo.held (c : Thread nD τ) (Pipeline.ucRefs τ sig) (X4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X4 m c b)
    (hfin := fun c s' => by
      iintro ⟨⟨Hh, -⟩, HSI⟩
      unfold StableHlo.held
      imodintro
      iapply (pointsTo_read_all (Pipeline.ucRefs τ sig) (fun b => (((c : Thread nD τ)).1, b)) (X4 m c) s')
      isplitl [Hh] <;> iassumption)
    (hQ := fun s h c => h c)

/-! ## Reading the last valuation -/

/-- An argument's buffer is never written: the last valuation has it as launched. -/
theorem X4_arg (c : Dev nD) (r : Ref sig .tc) (h2 : r ≠ main_v2) (h30 : r ≠ main_v3_0) (h31 : r ≠ main_v3_1) (h32 : r ≠ main_v3_2)
    (h40 : r ≠ main_v4_0) (h41 : r ≠ main_v4_1) (hw : r ∉ hostOps0_W) : X4 m c r = m ((c : Thread nD τ).loc r) :=
  (X4_of m c r h40 h41).trans <| (X3_of m c r h30 h31 h32).trans <| (X2_of m c r h2).trans <| (V1_of m c r hw).trans rfl

end Cert.Kernel.Fr

end
-- ==== Proof.KI.Reg0.lean ====
/-
  The first pallas_call of the idealized kernel, `xw1 = x · W1`, as a pipeline of ONE point over whole arrays:
  two input windows (x : 10000×256, W1 : 256×256) and one output window (10000×256). What the body leaves in the
  output window's buffer is one store covering the buffer: the product of the two loaded blocks. Everything is
  stated at a PARAMETER `V`, the contents of the core's buffers when the region is entered, and at any float
  instance `F`.
-/
import proofs.«134506_g53876069761532_cont_9to1_m_356_22_alg».proof.Proof.Gen.KernelIdeal.Launch
import proofs.«134506_g53876069761532_cont_9to1_m_356_22_alg».proof.Proof.Gen.KernelIdeal.Skeleton
import proofs.«134506_g53876069761532_cont_9to1_m_356_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the array's block at the point, whatever it held before the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 10000×256 rectangle and the whole 256×256 rectangle: the body's three accesses. -/
abbrev rX : Rect S10000x256 := Rect.unit (s := S10000x256) ![0, 0] S10000x256.size inb_S10000x256_S10000x256_0_0
abbrev rW : Rect S256x256 := Rect.unit (s := S256x256) ![0, 0] S256x256.size inb_S256x256_S256x256_0_0

/-- The output window's buffer after the body: its one store, the product of the loaded blocks. -/
def out0_2 (x0 : Vec F S10000x256 .f32) (x1 : Vec F S256x256 .f32) : Vec F S10000x256 .bf16 :=
  View.canon [⟨rX, k0_pay1 (View.ld x0 rX) (View.ld x1 rW)⟩]

/-- The one store covers the buffer. -/
theorem cover0_2 (p0 : Vec F S10000x256 .bf16) (y : S10000x256.Idx) :
    ∃ pc ∈ ([⟨rX, p0⟩] : List (View.Piece (Elt F) S10000x256 .bf16)), y ∈ pc.1.set :=
  View.cover_of_tiled [⟨rX, p0⟩] S10000x256.size (by rfl) y

set_option maxHeartbeats 1000000 in
/-- The body on whole staging memrefs: the inputs' contents stay, the output's becomes `out0_2` of them. -/
theorem sound_kernel0 (c : Dev nD) (E : Set ℕ) (arg0 : Memref sig .tc .vmem S10000x256 .f32) (harg0 : arg0.IsWhole)
    (arg1 : Memref sig .tc .vmem S256x256 .f32) (harg1 : arg1.IsWhole) (arg2 : Memref sig .tc .vmem S10000x256 .bf16) (harg2 : arg2.IsWhole)
    (x0 : Vec F S10000x256 .f32) (x1 : Vec F S256x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__xw1_body arg0 harg0 arg1 harg1 arg2 harg2) K := by
  simp only [cc0__xw1_body_eq_skeleton]; unfold cc0__xw1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as the region finds them; after the body each
    input's buffer at its block and the output's at `out0_2` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at the point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at the point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  The second pallas_call of the idealized kernel as a pipeline of 25 points. At point `i` two input windows hold
  rows 400·i … 400·i+199 and 400·i+200 … 400·i+399 of the adjacency (both windows on the ONE array, each holding
  half of its share), three more hold `xw1`, the bias row and `W2` whole; the three output windows are blocks of 400 rows
  of `pre1`, `h1` and `hw2`, each written by two stores of 200 rows, one per adjacency window:
      pre1 = A_blk · xw1 + b1,   h1 = max(pre1, 0),   hw2 = h1 · W2.
  Everything is stated at a PARAMETER `V`, the contents of the core's buffers when the region is entered, and at
  any float instance `F`.
-/
import proofs.«134506_g53876069761532_cont_9to1_m_356_22_alg».proof.Proof.Gen.KernelIdeal.Launch
import proofs.«134506_g53876069761532_cont_9to1_m_356_22_alg».proof.Proof.Gen.KernelIdeal.Skeleton
import proofs.«134506_g53876069761532_cont_9to1_m_356_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads and stores through: each input block whole; each output block's lower and upper half. -/
abbrev rAdj1 : Rect S200x10000 := Rect.unit (s := S200x10000) ![0, 0] S200x10000.size inb_S200x10000_S200x10000_0_0
abbrev rXw1 : Rect S10000x256 := Rect.unit (s := S10000x256) ![0, 0] S10000x256.size inb_S10000x256_S10000x256_0_0
abbrev rB1 : Rect S1x256 := Rect.unit (s := S1x256) ![0, 0] S1x256.size inb_S1x256_S1x256_0_0
abbrev rW2 : Rect S256x128 := Rect.unit (s := S256x128) ![0, 0] S256x128.size inb_S256x128_S256x128_0_0
abbrev rLo256 : Rect S400x256 := Rect.unit (s := S400x256) ![0, 0] S200x256.size inb_S400x256_S200x256_0_0
abbrev rHi256 : Rect S400x256 := Rect.unit (s := S400x256) ![200, 0] S200x256.size inb_S400x256_S200x256_200_0
abbrev rLo128 : Rect S400x128 := Rect.unit (s := S400x128) ![0, 0] S200x128.size inb_S400x128_S200x128_0_0
abbrev rHi128 : Rect S400x128 := Rect.unit (s := S400x128) ![200, 0] S200x128.size inb_S400x128_S200x128_200_0

/-- The `pre1` window's buffer after the body: its two stores as pieces, the later one first. -/
def out1_5 (a0 a1 : Vec F S200x10000 .f32) (xw : Vec F S10000x256 .bf16) (b : Vec F S1x256 .f32) : Vec F S400x256 .f32 :=
  View.canon [⟨rHi256, k1_pay7 (View.ld xw rXw1) (View.ld a1 rAdj1) (View.ld b rB1)⟩,
    ⟨rLo256, k1_pay4 (View.ld xw rXw1) (View.ld a0 rAdj1) (View.ld b rB1)⟩]

/-- The `h1` window's buffer after the body. -/
def out1_6 (a0 a1 : Vec F S200x10000 .f32) (xw : Vec F S10000x256 .bf16) (b : Vec F S1x256 .f32) : Vec F S400x256 .f32 :=
  View.canon [⟨rHi256, k1_pay8 (View.ld xw rXw1) (View.ld a1 rAdj1) (View.ld b rB1)⟩,
    ⟨rLo256, k1_pay5 (View.ld xw rXw1) (View.ld a0 rAdj1) (View.ld b rB1)⟩]

/-- The `hw2` window's buffer after the body. -/
def out1_7 (a0 a1 : Vec F S200x10000 .f32) (xw : Vec F S10000x256 .bf16) (b : Vec F S1x256 .f32) (w2 : Vec F S256x128 .f32) : Vec F S400x128 .bf16 :=
  View.canon [⟨rHi128, k1_pay1 (k1_pay2 (View.ld w2 rW2)) (k1_pay8 (View.ld xw rXw1) (View.ld a1 rAdj1) (View.ld b rB1))⟩,
    ⟨rLo128, k1_pay6 (View.ld w2 rW2) (View.ld xw rXw1) (View.ld a0 rAdj1) (View.ld b rB1)⟩]

/-- The proof data of the second pipeline on core `c`: the arrays as the region finds them; after the body at point
    `t` each input's buffer at its block and each output's at `out1_W` of the input blocks; the two adjacency windows
    hold the left and the right half of the array's share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t)
    | ⟨7, _⟩ => out1_7 (iblk1 V c 0 t) (iblk1 V c 1 t) (iblk1 V c 2 t) (iblk1 V c 3 t) (iblk1 V c 4 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem q1_0 (c : Dev nD) : (dat1 V c).q 0 = fullShare.left := by dsimp only [dat1]
theorem q1_1 (c : Dev nD) : (dat1 V c).q 1 = fullShare.right := by dsimp only [dat1]
theorem q1_rest (c : Dev nD) (w : Fin cfg1.W) (h0 : w ≠ 0) (h1 : w ≠ 1) : (dat1 V c).q w = fullShare := by
  match w, h0, h1 with
  | ⟨0, _⟩, h0, _ => exact absurd rfl h0
  | ⟨1, _⟩, _, h1 => exact absurd rfl h1
  | ⟨2, _⟩, _, _ => dsimp only [dat1]
  | ⟨3, _⟩, _, _ => dsimp only [dat1]
  | ⟨4, _⟩, _, _ => dsimp only [dat1]
  | ⟨5, _⟩, _, _ => dsimp only [dat1]
  | ⟨6, _⟩, _, _ => dsimp only [dat1]
  | ⟨7, _⟩, _, _ => dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]
theorem after1_6 (c : Dev nD) (t : Fin cfg1.N) : (dat1 V c).after 6 t = out1_6 (iblk1 V c 0 t) (iblk1 V c 1 t) (iblk1 V c 2 t) (iblk1 V c 3 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]

/-- An input window's staging buffer holds the array's block at the point, fetched there or not, whatever it held
    before: the three whole windows are fetched at the first point only and their index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The two half-block stores of a 400×256 output block cover it. -/
theorem cover1_256 (pHi pLo : Vec F S200x256 .f32) (y : S400x256.Idx) :
    ∃ pc ∈ ([⟨rHi256, pHi⟩, ⟨rLo256, pLo⟩] : List (View.Piece (Elt F) S400x256 .f32)), y ∈ pc.1.set :=
  View.cover_of_tiled [⟨rHi256, pHi⟩, ⟨rLo256, pLo⟩] S200x256.size (by rfl) y

/-- The two half-block stores of the 400×128 output block cover it. -/
theorem cover1_128 (pHi pLo : Vec F S200x128 .bf16) (y : S400x128.Idx) :
    ∃ pc ∈ ([⟨rHi128, pHi⟩, ⟨rLo128, pLo⟩] : List (View.Piece (Elt F) S400x128 .bf16)), y ∈ pc.1.set :=
  View.cover_of_tiled [⟨rHi128, pHi⟩, ⟨rLo128, pLo⟩] S200x128.size (by rfl) y

set_option maxHeartbeats 1000000 in
/-- The body on whole staging memrefs: the five inputs' contents stay; each output's becomes `out1_W` of them. -/
theorem sound_kernel1 (c : Dev nD) (E : Set ℕ) (i : grid1.Coords)
    (arg1 : Memref sig .tc .vmem S200x10000 .f32) (harg1 : arg1.IsWhole)
    (arg2 : Memref sig .tc .vmem S200x10000 .f32) (harg2 : arg2.IsWhole)
    (arg3 : Memref sig .tc .vmem S10000x256 .bf16) (harg3 : arg3.IsWhole)
    (arg4 : Memref sig .tc .vmem S1x256 .f32) (harg4 : arg4.IsWhole)
    (arg5 : Memref sig .tc .vmem S256x128 .f32) (harg5 : arg5.IsWhole)
    (arg6 : Memref sig .tc .vmem S400x256 .f32) (harg6 : arg6.IsWhole)
    (arg7 : Memref sig .tc .vmem S400x256 .f32) (harg7 : arg7.IsWhole)
    (arg8 : Memref sig .tc .vmem S400x128 .bf16) (harg8 : arg8.IsWhole)
    (a0 a1 : Vec F S200x10000 .f32) (xw : Vec F S10000x256 .bf16) (b : Vec F S1x256 .f32) (w2 : Vec F S256x128 .f32)
    (K : PUnit → sProp 𝕄) :
    iprop(owns (c : Thread nD τ) arg1 fullShare a0 ∗ owns (c : Thread nD τ) arg2 fullShare a1
        ∗ owns (c : Thread nD τ) arg3 fullShare xw ∗ owns (c : Thread nD τ) arg4 fullShare b
        ∗ owns (c : Thread nD τ) arg5 fullShare w2
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare a0 ∗ owns (c : Thread nD τ) arg2 fullShare a1
            ∗ owns (c : Thread nD τ) arg3 fullShare xw ∗ owns (c : Thread nD τ) arg4 fullShare b
            ∗ owns (c : Thread nD τ) arg5 fullShare w2
            ∗ owns (c : Thread nD τ) arg6 fullShare (out1_5 a0 a1 xw b)
            ∗ owns (c : Thread nD τ) arg7 fullShare (out1_6 a0 a1 xw b)
            ∗ owns (c : Thread nD τ) arg8 fullShare (out1_7 a0 a1 xw b w2)) -∗ K ⟨⟩))
      ⊢ wp frame (wpE (defs₀ (F := F)) Variants.none c none) E
          (cc1__layer1_body i arg1 harg1 arg2 harg2 arg3 harg3 arg4 harg4 arg5 harg5 arg6 harg6 arg7 harg7 arg8 harg8) K := by
  simp only [cc1__layer1_body_eq_skeleton]; unfold cc1__layer1_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_256 _ _)
  isplitl [H7]
  · iexists _; isplitr
    swap; · iexact H7
    ipureintro
    exact View.read_writes_eq_canon _ _ _ (cover1_256 _ _)
  iexists _; isplitr
  swap; · iexact H8
  ipureintro
  exact View.read_writes_eq_canon _ _ _ (cover1_128 _ _)

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so `sound_kernel1` applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (iblk1 V c 0 t) (iblk1 V c 1 t) (iblk1 V c 2 t) (iblk1 V c 3 t) (iblk1 V c 4 t)
    _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  The third pallas_call of the idealized kernel as a pipeline of 25 points. At point `i` two input windows hold rows
  400·i … 400·i+199 and 400·i+200 … 400·i+399 of the adjacency (both on the ONE array, each holding half of its
  share), two more hold `hw2` and the bias row whole; the two output windows are blocks of 400 rows of `pre2` and of
  its row-wise log-softmax, each written by two stores of 200 rows, one per adjacency window:
      pre2 = A_blk · hw2 + b2,   out = pre2 − (log Σ exp(pre2 − m) + m),  m the row's maximum.
  Everything is stated at a PARAMETER `V`, the contents of the core's buffers when the region is entered, and at
  any float instance `F`.
-/
import proofs.«134506_g53876069761532_cont_9to1_m_356_22_alg».proof.Proof.Gen.KernelIdeal.Launch
import proofs.«134506_g53876069761532_cont_9to1_m_356_22_alg».proof.Proof.Gen.KernelIdeal.Skeleton
import proofs.«134506_g53876069761532_cont_9to1_m_356_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangles the body loads and stores through: each input block whole; each output block's lower and upper half. -/
abbrev rAdj2 : Rect S200x10000 := Rect.unit (s := S200x10000) ![0, 0] S200x10000.size inb_S200x10000_S200x10000_0_0
abbrev rHw2 : Rect S10000x128 := Rect.unit (s := S10000x128) ![0, 0] S10000x128.size inb_S10000x128_S10000x128_0_0
abbrev rB2 : Rect S1x128 := Rect.unit (s := S1x128) ![0, 0] S1x128.size inb_S1x128_S1x128_0_0
abbrev rLo : Rect S400x128 := Rect.unit (s := S400x128) ![0, 0] S200x128.size inb_S400x128_S200x128_0_0
abbrev rHi : Rect S400x128 := Rect.unit (s := S400x128) ![200, 0] S200x128.size inb_S400x128_S200x128_200_0

/-- The `pre2` window's buffer after the body: its two stores as pieces, the later one first. -/
def out2_4 (a0 a1 : Vec F S200x10000 .f32) (hw : Vec F S10000x128 .bf16) (b : Vec F S1x128 .f32) : Vec F S400x128 .f32 :=
  View.canon [⟨rHi, k2_pay5 (View.ld hw rHw2) (View.ld a1 rAdj2) (View.ld b rB2)⟩,
    ⟨rLo, k2_pay3 (View.ld hw rHw2) (View.ld a0 rAdj2) (View.ld b rB2)⟩]

/-- The log-softmax window's buffer after the body. -/
def out2_5 (a0 a1 : Vec F S200x10000 .f32) (hw : Vec F S10000x128 .bf16) (b : Vec F S1x128 .f32) : Vec F S400x128 .f32 :=
  View.canon [⟨rHi, k2_pay1 (k2_pay5 (View.ld hw rHw2) (View.ld a1 rAdj2) (View.ld b rB2)) (k2_pay6 (View.ld hw rHw2) (View.ld a1 rAdj2) (View.ld b rB2)) (k2_pay7 (View.ld hw rHw2) (View.ld a1 rAdj2) (View.ld b rB2))⟩,
    ⟨rLo, k2_pay4 (View.ld hw rHw2) (View.ld a0 rAdj2) (View.ld b rB2)⟩]

/-- The proof data of the third pipeline on core `c`: the arrays as the region finds them; after the body at point
    `t` each input's buffer at its block and each output's at `out2_W` of the input blocks; the two adjacency windows
    hold the left and the right half of the array's share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq2 (c : Dev nD) (w : Fin cfg2.W) : (dat2 V c).A w = V c (Pipeline.arrRef spec2 w) := by
  dsimp only [dat2]
theorem q2_0 (c : Dev nD) : (dat2 V c).q 0 = fullShare.left := by dsimp only [dat2]
theorem q2_1 (c : Dev nD) : (dat2 V c).q 1 = fullShare.right := by dsimp only [dat2]
theorem q2_rest (c : Dev nD) (w : Fin cfg2.W) (h0 : w ≠ 0) (h1 : w ≠ 1) : (dat2 V c).q w = fullShare := by
  match w, h0, h1 with
  | ⟨0, _⟩, h0, _ => exact absurd rfl h0
  | ⟨1, _⟩, _, h1 => exact absurd rfl h1
  | ⟨2, _⟩, _, _ => dsimp only [dat2]
  | ⟨3, _⟩, _, _ => dsimp only [dat2]
  | ⟨4, _⟩, _, _ => dsimp only [dat2]
  | ⟨5, _⟩, _, _ => dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- An input window's current staging buffer holds the array's block at the point, whether it was fetched there or
    at an earlier point with the same block index: the two adjacency windows move with the point, the `hw2` and bias
    windows stay on their one block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The two half-block stores tile a 400×128 buffer in blocks of 200×128, so together they cover it. -/
theorem cover2_out (p1 : rHi.shape.Idx → Elt F .f32) (p0 : rLo.shape.Idx → Elt F .f32) (y : S400x128.Idx) :
    ∃ pc ∈ ([⟨rHi, p1⟩, ⟨rLo, p0⟩] : List (View.Piece (Elt F) S400x128 .f32)), y ∈ pc.1.set :=
  View.cover_of_tiled [⟨rHi, p1⟩, ⟨rLo, p0⟩] S200x128.size (by rfl) y

set_option maxHeartbeats 1000000 in
/-- The body on whole staging memrefs: the four inputs' contents stay; each output's becomes its two stores'
    canon, rows 0–199 from the first adjacency window's block and rows 200–399 from the second's. -/
theorem sound_kernel2 (c : Dev nD) (E : Set ℕ) (i : grid2.Coords)
    (arg1 : Memref sig .tc .vmem S200x10000 .f32) (harg1 : arg1.IsWhole) (arg2 : Memref sig .tc .vmem S200x10000 .f32) (harg2 : arg2.IsWhole)
    (arg3 : Memref sig .tc .vmem S10000x128 .bf16) (harg3 : arg3.IsWhole) (arg4 : Memref sig .tc .vmem S1x128 .f32) (harg4 : arg4.IsWhole)
    (arg5 : Memref sig .tc .vmem S400x128 .f32) (harg5 : arg5.IsWhole) (arg6 : Memref sig .tc .vmem S400x128 .f32) (harg6 : arg6.IsWhole)
    (a0 a1 : Vec F S200x10000 .f32) (hw : Vec F S10000x128 .bf16) (b : Vec F S1x128 .f32) (K : PUnit → sProp 𝕄) :
    iprop(owns (c : Thread nD τ) arg1 fullShare a0 ∗ owns (c : Thread nD τ) arg2 fullShare a1 ∗ owns (c : Thread nD τ) arg3 fullShare hw ∗ owns (c : Thread nD τ) arg4 fullShare b
        ∗ (∃ d, owns (c : Thread nD τ) arg5 fullShare d) ∗ (∃ d, owns (c : Thread nD τ) arg6 fullShare d)
        ∗ (iprop(owns (c : Thread nD τ) arg1 fullShare a0 ∗ owns (c : Thread nD τ) arg2 fullShare a1 ∗ owns (c : Thread nD τ) arg3 fullShare hw ∗ owns (c : Thread nD τ) arg4 fullShare b
            ∗ owns (c : Thread nD τ) arg5 fullShare (out2_4 a0 a1 hw b) ∗ owns (c : Thread nD τ) arg6 fullShare (out2_5 a0 a1 hw b)) -∗ K ⟨⟩))
      ⊢ wp frame (wpE (defs₀ (F := F)) Variants.none c none) E (cc2__layer2_body i arg1 harg1 arg2 harg2 arg3 harg3 arg4 harg4 arg5 harg5 arg6 harg6) K := by
  simp only [cc2__layer2_body_eq_skeleton]; unfold cc2__layer2_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover2_out _ _)).trans ?_
    simp only [View.readAt_eq_ld]
    rfl
  iexists _; isplitr
  swap; · iexact H5
  ipureintro
  refine (View.read_writes_eq_canon _ _ _ (cover2_out _ _)).trans ?_
  simp only [View.readAt_eq_ld]
  rfl

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies at those blocks; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Share.lean ====
/-
  The core's unscoped buffers against a pipeline's windowed arrays, when TWO INPUT WINDOWS READ ONE ARRAY.

  In the second and the third pallas_call windows 0 and 1 both read the adjacency. The array's buffer, held whole at
  the full share, is dealt to the two windows as the left and the right half of that share (each window only reads);
  every other window's array is a buffer of its own at the full share. Entering the region splits the core's
  unscoped buffers into the windows' arrays and the rest; leaving it joins the two halves again and puts every
  array back at the contents the pipeline left.
-/
import proofs.«134506_g53876069761532_cont_9to1_m_356_22_alg».proof.Proof.Gen.KernelIdeal.Launch
import proofs.«134506_g53876069761532_cont_9to1_m_356_22_alg».proof.Proof.Gen.KernelIdeal.Skeleton
import proofs.«134506_g53876069761532_cont_9to1_m_356_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section Share
omit V
variable {c : Dev nD}

/-- The distinct buffers behind the second pallas_call's windows, one by one: the adjacency once. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v2) ↦{fullShare} V main_v2)
          ∗ (((c : Thread nD τ).loc main_v0) ↦{fullShare} V main_v0) ∗ (((c : Thread nD τ).loc main_arg4) ↦{fullShare} V main_arg4)
          ∗ (((c : Thread nD τ).loc main_v3_0) ↦{fullShare} V main_v3_0) ∗ (((c : Thread nD τ).loc main_v3_1) ↦{fullShare} V main_v3_1)
          ∗ (((c : Thread nD τ).loc main_v3_2) ↦{fullShare} V main_v3_2)) := by
  unfold Pipeline.arrBufs
  exact bigSep_eq_bigSepL_of_eq [main_arg1, main_v2, main_v0, main_arg4, main_v3_0, main_v3_1, main_v3_2] (by decide) (by decide) _

/-- The second pallas_call's windowed arrays, one by one: the adjacency's two windows hold the halves of its
    share, every other window its array's full share. -/
theorem arrays1_eq (dat : Dat τ (Elt F) Unit ℕ (UR sig nD τ) ℕ cfg1 c)
    (hq0 : dat.q 0 = fullShare.left) (hq1 : dat.q 1 = fullShare.right)
    (hq : ∀ w : Fin cfg1.W, w ≠ 0 → w ≠ 1 → dat.q w = fullShare)
    (G : (w : Fin cfg1.W) → Buf (Elt F) ((cfg1.win w).arr.view.loc (c.tc : Thread nD τ))) :
    (dat.arrays G : sProp 𝕄)
      = iprop((((c : Thread nD τ).loc main_arg1) ↦{fullShare.left} G 0) ∗ (((c : Thread nD τ).loc main_arg1) ↦{fullShare.right} G 1)
          ∗ (((c : Thread nD τ).loc main_v2) ↦{fullShare} G 2) ∗ (((c : Thread nD τ).loc main_v0) ↦{fullShare} G 3)
          ∗ (((c : Thread nD τ).loc main_arg4) ↦{fullShare} G 4) ∗ (((c : Thread nD τ).loc main_v3_0) ↦{fullShare} G 5)
          ∗ (((c : Thread nD τ).loc main_v3_1) ↦{fullShare} G 6) ∗ (((c : Thread nD τ).loc main_v3_2) ↦{fullShare} G 7)) := by
  have e : ∀ (w : Fin cfg1.W) (q : PosShare TreeShare), dat.share w = q →
      ((cfg1.win w).arr.view.loc (c.tc : Thread nD τ) ↦[(cfg1.win w).arr.view.set]{dat.share w} G w : sProp 𝕄)
      = ((cfg1.win w).arr.view.loc (c.tc : Thread nD τ) ↦{q} G w) := fun w q h => by rw [(Gen.arr_whole1 w).set_eq_univ, h]
  unfold Dat.arrays
  refine (Gen.bigSep_W1 _).trans ?_
  refine congrArg₂ BI.sep ?_ (congrArg₂ BI.sep ?_ (congrArg₂ BI.sep ?_ (congrArg₂ BI.sep ?_ (congrArg₂ BI.sep ?_ (congrArg₂ BI.sep ?_ (congrArg₂ BI.sep ?_ ?_))))))
  · exact e 0 _ hq0
  · exact e 1 _ hq1
  · exact e 2 _ (hq 2 (by decide) (by decide))
  · exact e 3 _ (hq 3 (by decide) (by decide))
  · exact e 4 _ (hq 4 (by decide) (by decide))
  · exact e 5 _ rfl
  · exact e 6 _ rfl
  · exact e 7 _ rfl

/-- The distinct buffers behind the second pallas_call's windows, at contents `V`, are its windowed arrays at the
    contents `V` has at each window's array: the adjacency's full share is its left and its right half. -/
theorem arrBufs1_eq_arrays (dat : Dat τ (Elt F) Unit ℕ (UR sig nD τ) ℕ cfg1 c)
    (hq0 : dat.q 0 = fullShare.left) (hq1 : dat.q 1 = fullShare.right)
    (hq : ∀ w : Fin cfg1.W, w ≠ 0 → w ≠ 1 → dat.q w = fullShare)
    (V : (b : Ref sig .tc) → Buf (Elt F) ((c : Thread nD τ).loc b)) :
    (Pipeline.arrBufs (Ix := Unit) (Name := ℕ) (U := UR sig nD τ) (Lvl := ℕ) spec1 c V : sProp 𝕄)
      = dat.arrays fun w => V (Pipeline.arrRef spec1 w) := by
  have hsh : (((c : Thread nD τ).loc main_arg1) ↦{fullShare} V main_arg1 : sProp 𝕄)
      = iprop((((c : Thread nD τ).loc main_arg1) ↦{fullShare.left} V main_arg1) ∗ (((c : Thread nD τ).loc main_arg1) ↦{fullShare.right} V main_arg1)) :=
    Idealize.SL.BI.Entails.antisymm (pointsTo_share (PosShare.mem_left_op_right fullShare)).1
      (pointsTo_share (PosShare.mem_left_op_right fullShare)).2
  rw [arrBufs1_eq, arrays1_eq dat hq0 hq1 hq, hsh]
  exact Idealize.SL.BI.Entails.antisymm Idealize.SL.BI.sep_assoc Idealize.SL.BI.sep_assoc'

/-- Entering the second pallas_call: the unscoped buffers at `V` are its windows' arrays (the adjacency in two halves)
    and the unscoped rest. -/
theorem arrays_of_unscopedBufs1 (dat : Dat τ (Elt F) Unit ℕ (UR sig nD τ) ℕ cfg1 c)
    (hq0 : dat.q 0 = fullShare.left) (hq1 : dat.q 1 = fullShare.right)
    (hq : ∀ w : Fin cfg1.W, w ≠ 0 → w ≠ 1 → dat.q w = fullShare)
    (V : (b : Ref sig .tc) → Buf (Elt F) ((c : Thread nD τ).loc b)) (hA : ∀ w, dat.A w = V (Pipeline.arrRef spec1 w)) :
    (unscopedBufs c V : sProp 𝕄)
      ⊢ iprop(dat.arrays dat.A ∗ Pipeline.unscopedRest (Ix := Unit) (Name := ℕ) (U := UR sig nD τ) (Lvl := ℕ) spec1 c V) := by
  have hs : (unscopedBufs c V : sProp 𝕄) = iprop(Pipeline.arrBufs spec1 c V ∗ Pipeline.unscopedRest spec1 c V) :=
    Pipeline.unscopedBufs_split₀ cfgs 1 Gen.winFacts₀1.arr_unscoped c V
  rw [hs, arrBufs1_eq_arrays dat hq0 hq1 hq V, show dat.A = fun w => V (Pipeline.arrRef spec1 w) from funext hA]

/-- Leaving it: the arrays at contents `G` and the rest at `V` are the unscoped buffers at any `V'` that has the
    arrays at `G` and agrees with `V` off them. -/
theorem unscopedBufs_of_arrays1 (dat : Dat τ (Elt F) Unit ℕ (UR sig nD τ) ℕ cfg1 c)
    (hq0 : dat.q 0 = fullShare.left) (hq1 : dat.q 1 = fullShare.right)
    (hq : ∀ w : Fin cfg1.W, w ≠ 0 → w ≠ 1 → dat.q w = fullShare)
    (V V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w))
    (hrest : ∀ b, b ∉ Finset.univ.image (Pipeline.arrRef spec1) → V' b = V b) :
    iprop(dat.arrays G ∗ Pipeline.unscopedRest (Ix := Unit) (Name := ℕ) (U := UR sig nD τ) (Lvl := ℕ) spec1 c V)
      ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs 1 Gen.winFacts₀1.arr_unscoped c V'
  rw [hs, arrBufs1_eq_arrays dat hq0 hq1 hq V', show G = fun w => V' (Pipeline.arrRef spec1 w) from funext hG]
  refine sep_mono .rfl (Entails.of_eq ?_)
  unfold Pipeline.unscopedRest
  exact bigSep_congr fun b hb => by rw [hrest b (Finset.mem_sdiff.mp hb).2]

/-- The distinct buffers behind the third pallas_call's windows, one by one: the adjacency once. -/
theorem arrBufs2_eq (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_arg1) ↦{fullShare} V main_arg1) ∗ (((c : Thread nD τ).loc main_v3_2) ↦{fullShare} V main_v3_2)
          ∗ (((c : Thread nD τ).loc main_v1) ↦{fullShare} V main_v1) ∗ (((c : Thread nD τ).loc main_v4_0) ↦{fullShare} V main_v4_0)
          ∗ (((c : Thread nD τ).loc main_v4_1) ↦{fullShare} V main_v4_1)) := by
  unfold Pipeline.arrBufs
  exact bigSep_eq_bigSepL_of_eq [main_arg1, main_v3_2, main_v1, main_v4_0, main_v4_1] (by decide) (by decide) _

/-- The third pallas_call's windowed arrays, one by one: the adjacency's two windows hold the halves of its
    share, every other window its array's full share. -/
theorem arrays2_eq (dat : Dat τ (Elt F) Unit ℕ (UR sig nD τ) ℕ cfg2 c)
    (hq0 : dat.q 0 = fullShare.left) (hq1 : dat.q 1 = fullShare.right)
    (hq : ∀ w : Fin cfg2.W, w ≠ 0 → w ≠ 1 → dat.q w = fullShare)
    (G : (w : Fin cfg2.W) → Buf (Elt F) ((cfg2.win w).arr.view.loc (c.tc : Thread nD τ))) :
    (dat.arrays G : sProp 𝕄)
      = iprop((((c : Thread nD τ).loc main_arg1) ↦{fullShare.left} G 0) ∗ (((c : Thread nD τ).loc main_arg1) ↦{fullShare.right} G 1)
          ∗ (((c : Thread nD τ).loc main_v3_2) ↦{fullShare} G 2) ∗ (((c : Thread nD τ).loc main_v1) ↦{fullShare} G 3)
          ∗ (((c : Thread nD τ).loc main_v4_0) ↦{fullShare} G 4) ∗ (((c : Thread nD τ).loc main_v4_1) ↦{fullShare} G 5)) := by
  have e : ∀ (w : Fin cfg2.W) (q : PosShare TreeShare), dat.share w = q →
      ((cfg2.win w).arr.view.loc (c.tc : Thread nD τ) ↦[(cfg2.win w).arr.view.set]{dat.share w} G w : sProp 𝕄)
      = ((cfg2.win w).arr.view.loc (c.tc : Thread nD τ) ↦{q} G w) := fun w q h => by rw [(Gen.arr_whole2 w).set_eq_univ, h]
  unfold Dat.arrays
  refine (Gen.bigSep_W2 _).trans ?_
  refine congrArg₂ BI.sep ?_ (congrArg₂ BI.sep ?_ (congrArg₂ BI.sep ?_ (congrArg₂ BI.sep ?_ (congrArg₂ BI.sep ?_ ?_))))
  · exact e 0 _ hq0
  · exact e 1 _ hq1
  · exact e 2 _ (hq 2 (by decide) (by decide))
  · exact e 3 _ (hq 3 (by decide) (by decide))
  · exact e 4 _ rfl
  · exact e 5 _ rfl

/-- The distinct buffers behind the third pallas_call's windows, at contents `V`, are its windowed arrays at the
    contents `V` has at each window's array: the adjacency's full share is its left and its right half. -/
theorem arrBufs2_eq_arrays (dat : Dat τ (Elt F) Unit ℕ (UR sig nD τ) ℕ cfg2 c)
    (hq0 : dat.q 0 = fullShare.left) (hq1 : dat.q 1 = fullShare.right)
    (hq : ∀ w : Fin cfg2.W, w ≠ 0 → w ≠ 1 → dat.q w = fullShare)
    (V : (b : Ref sig .tc) → Buf (Elt F) ((c : Thread nD τ).loc b)) :
    (Pipeline.arrBufs (Ix := Unit) (Name := ℕ) (U := UR sig nD τ) (Lvl := ℕ) spec2 c V : sProp 𝕄)
      = dat.arrays fun w => V (Pipeline.arrRef spec2 w) := by
  have hsh : (((c : Thread nD τ).loc main_arg1) ↦{fullShare} V main_arg1 : sProp 𝕄)
      = iprop((((c : Thread nD τ).loc main_arg1) ↦{fullShare.left} V main_arg1) ∗ (((c : Thread nD τ).loc main_arg1) ↦{fullShare.right} V main_arg1)) :=
    Idealize.SL.BI.Entails.antisymm (pointsTo_share (PosShare.mem_left_op_right fullShare)).1
      (pointsTo_share (PosShare.mem_left_op_right fullShare)).2
  rw [arrBufs2_eq, arrays2_eq dat hq0 hq1 hq, hsh]
  exact Idealize.SL.BI.Entails.antisymm Idealize.SL.BI.sep_assoc Idealize.SL.BI.sep_assoc'

/-- Entering the third pallas_call. -/
theorem arrays_of_unscopedBufs2 (dat : Dat τ (Elt F) Unit ℕ (UR sig nD τ) ℕ cfg2 c)
    (hq0 : dat.q 0 = fullShare.left) (hq1 : dat.q 1 = fullShare.right)
    (hq : ∀ w : Fin cfg2.W, w ≠ 0 → w ≠ 1 → dat.q w = fullShare)
    (V : (b : Ref sig .tc) → Buf (Elt F) ((c : Thread nD τ).loc b)) (hA : ∀ w, dat.A w = V (Pipeline.arrRef spec2 w)) :
    (unscopedBufs c V : sProp 𝕄)
      ⊢ iprop(dat.arrays dat.A ∗ Pipeline.unscopedRest (Ix := Unit) (Name := ℕ) (U := UR sig nD τ) (Lvl := ℕ) spec2 c V) := by
  have hs : (unscopedBufs c V : sProp 𝕄) = iprop(Pipeline.arrBufs spec2 c V ∗ Pipeline.unscopedRest spec2 c V) :=
    Pipeline.unscopedBufs_split₀ cfgs 2 Gen.winFacts₀2.arr_unscoped c V
  rw [hs, arrBufs2_eq_arrays dat hq0 hq1 hq V, show dat.A = fun w => V (Pipeline.arrRef spec2 w) from funext hA]

/-- Leaving it. -/
theorem unscopedBufs_of_arrays2 (dat : Dat τ (Elt F) Unit ℕ (UR sig nD τ) ℕ cfg2 c)
    (hq0 : dat.q 0 = fullShare.left) (hq1 : dat.q 1 = fullShare.right)
    (hq : ∀ w : Fin cfg2.W, w ≠ 0 → w ≠ 1 → dat.q w = fullShare)
    (V V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w))
    (hrest : ∀ b, b ∉ Finset.univ.image (Pipeline.arrRef spec2) → V' b = V b) :
    iprop(dat.arrays G ∗ Pipeline.unscopedRest (Ix := Unit) (Name := ℕ) (U := UR sig nD τ) (Lvl := ℕ) spec2 c V)
      ⊢ (unscopedBufs c V' : sProp 𝕄) := by
  have hs : (unscopedBufs c V' : sProp 𝕄) = iprop(Pipeline.arrBufs spec2 c V' ∗ Pipeline.unscopedRest spec2 c V') :=
    Pipeline.unscopedBufs_split₀ cfgs 2 Gen.winFacts₀2.arr_unscoped c V'
  rw [hs, arrBufs2_eq_arrays dat hq0 hq1 hq V', show G = fun w => V' (Pipeline.arrRef spec2 w) from funext hG]
  refine sep_mono .rfl (Entails.of_eq ?_)
  unfold Pipeline.unscopedRest
  exact bigSep_congr fun b hb => by rw [hrest b (Finset.mem_sdiff.mp hb).2]

end Share

end Cert.KernelIdeal.Fr

end
-- ==== Proof.KI.Run.lean ====
/-
  The idealized kernel's @main from the launch to the return: a stretch of two host reshapes (the bias vectors laid
  out as one-row matrices) and the three pallas_calls in order. Between two items every unscoped buffer of the core
  is held at a known valuation: the launch contents, then the host stretch applied, then after each region its output
  arrays replaced by what the pipeline's write-backs leave (every other buffer as it was). Each region is entered
  from the valuation before it and left at the one after it; the run ends with every unscoped buffer at the last
  valuation, from which the arguments (untouched) and the five results are read.
-/
import proofs.«134506_g53876069761532_cont_9to1_m_356_22_alg».proof.Proof.Gen.KernelIdeal.Launch
import proofs.«134506_g53876069761532_cont_9to1_m_356_22_alg».proof.Proof.Gen.KernelIdeal.Skeleton
import proofs.«134506_g53876069761532_cont_9to1_m_356_22_alg».proof.Proof.Gen.KernelIdeal.Points
import proofs.«134506_g53876069761532_cont_9to1_m_356_22_alg».proof.Proof.Gen.KernelIdeal.Regions
import proofs.«134506_g53876069761532_cont_9to1_m_356_22_alg».proof.Proof.KI.Reg0
import proofs.«134506_g53876069761532_cont_9to1_m_356_22_alg».proof.Proof.KI.Reg1
import proofs.«134506_g53876069761532_cont_9to1_m_356_22_alg».proof.Proof.KI.Reg2
import proofs.«134506_g53876069761532_cont_9to1_m_356_22_alg».proof.Proof.KI.Share
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- The contents the first region is entered at: the launch contents with the host stretch applied. -/
abbrev E0 : (c : Dev nD) → (b : Ref sig .tc) → Buf (Elt F) ((c : Thread nD τ).loc b) := fun c b => V1 m c b
/-- After the first region: its output array at what the pipeline leaves. -/
def X2 (c : Dev nD) : Valuation τ sig (Elt F) :=
  Function.update (V1 m c) main_v2 ((dat0 (E0 m) c).arrAt 2 cfg0.N)
/-- The contents the second region is entered at. -/
abbrev E1 : (c : Dev nD) → (b : Ref sig .tc) → Buf (Elt F) ((c : Thread nD τ).loc b) := fun c b => X2 m c b
/-- After the second region: its three output arrays at what the pipeline leaves. -/
def X3 (c : Dev nD) : Valuation τ sig (Elt F) :=
  Function.update (Function.update (Function.update (X2 m c) main_v3_0 ((dat1 (E1 m) c).arrAt 5 cfg1.N))
    main_v3_1 ((dat1 (E1 m) c).arrAt 6 cfg1.N)) main_v3_2 ((dat1 (E1 m) c).arrAt 7 cfg1.N)
/-- The contents the third region is entered at. -/
abbrev E2 : (c : Dev nD) → (b : Ref sig .tc) → Buf (Elt F) ((c : Thread nD τ).loc b) := fun c b => X3 m c b
/-- After the third region: its two output arrays at what the pipeline leaves. -/
def X4 (c : Dev nD) : Valuation τ sig (Elt F) :=
  Function.update (Function.update (X3 m c) main_v4_0 ((dat2 (E2 m) c).arrAt 4 cfg2.N))
    main_v4_1 ((dat2 (E2 m) c).arrAt 5 cfg2.N)

/-- Two different references are different keys of a valuation. -/
theorem dne {r r' : Ref sig .tc} (h : r ≠ r') : (Proc.devRef .tc r : DevRef τ sig) ≠ Proc.devRef .tc r' :=
  StableHlo.devRef_ne_of_ne h

/-! ### Reading the valuations -/

theorem X2_v2 (c : Dev nD) : X2 m c main_v2 = (dat0 (E0 m) c).arrAt 2 cfg0.N := by
  unfold X2; exact Function.update_self ..
theorem X2_of (c : Dev nD) (r : Ref sig .tc) (h : r ≠ main_v2) : X2 m c r = V1 m c r := by
  unfold X2; exact Function.update_of_ne (dne h) ..

theorem X3_v3_0 (c : Dev nD) : X3 m c main_v3_0 = (dat1 (E1 m) c).arrAt 5 cfg1.N := by
  unfold X3
  rw [Function.update_of_ne (dne (by decide : main_v3_0 ≠ main_v3_2)), Function.update_of_ne (dne (by decide : main_v3_0 ≠ main_v3_1))]
  exact Function.update_self ..
theorem X3_v3_1 (c : Dev nD) : X3 m c main_v3_1 = (dat1 (E1 m) c).arrAt 6 cfg1.N := by
  unfold X3
  rw [Function.update_of_ne (dne (by decide : main_v3_1 ≠ main_v3_2))]
  exact Function.update_self ..
theorem X3_v3_2 (c : Dev nD) : X3 m c main_v3_2 = (dat1 (E1 m) c).arrAt 7 cfg1.N := by
  unfold X3; exact Function.update_self ..
theorem X3_of (c : Dev nD) (r : Ref sig .tc) (h0 : r ≠ main_v3_0) (h1 : r ≠ main_v3_1) (h2 : r ≠ main_v3_2) : X3 m c r = X2 m c r := by
  unfold X3
  rw [Function.update_of_ne (dne h2), Function.update_of_ne (dne h1), Function.update_of_ne (dne h0)]

theorem X4_v4_0 (c : Dev nD) : X4 m c main_v4_0 = (dat2 (E2 m) c).arrAt 4 cfg2.N := by
  unfold X4
  rw [Function.update_of_ne (dne (by decide : main_v4_0 ≠ main_v4_1))]
  exact Function.update_self ..
theorem X4_v4_1 (c : Dev nD) : X4 m c main_v4_1 = (dat2 (E2 m) c).arrAt 5 cfg2.N := by
  unfold X4; exact Function.update_self ..
theorem X4_of (c : Dev nD) (r : Ref sig .tc) (h0 : r ≠ main_v4_0) (h1 : r ≠ main_v4_1) : X4 m c r = X3 m c r := by
  unfold X4
  rw [Function.update_of_ne (dne h1), Function.update_of_ne (dne h0)]

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### Each region's arrays at its exit valuation -/

theorem hF0 (c : Dev nD) (w : Fin cfg0.W) : (dat0 (E0 m) c).arrAt w cfg0.N = E1 m c (Pipeline.arrRef spec0 w) := by
  match w with
  | ⟨0, _⟩ => exact ((dat0 (E0 m) c).arrAt_in 0 rfl _).trans ((A_eq0 (E0 m) c 0).trans (X2_of m c main_arg0 (by decide)).symm)
  | ⟨1, _⟩ => exact ((dat0 (E0 m) c).arrAt_in 1 rfl _).trans ((A_eq0 (E0 m) c 1).trans (X2_of m c main_arg2 (by decide)).symm)
  | ⟨2, _⟩ => exact (X2_v2 m c).symm
theorem hrest0 (c : Dev nD) : ∀ b, b ∉ Finset.univ.image (Pipeline.arrRef spec0) → E1 m c b = E0 m c b :=
  fun b hb => X2_of m c b fun e => hb (Finset.mem_image.mpr ⟨2, Finset.mem_univ _, e.symm⟩)

theorem hF1 (c : Dev nD) (w : Fin cfg1.W) : (dat1 (E1 m) c).arrAt w cfg1.N = E2 m c (Pipeline.arrRef spec1 w) := by
  match w with
  | ⟨0, _⟩ => exact ((dat1 (E1 m) c).arrAt_in 0 rfl _).trans ((A_eq1 (E1 m) c 0).trans (X3_of m c main_arg1 (by decide) (by decide) (by decide)).symm)
  | ⟨1, _⟩ => exact ((dat1 (E1 m) c).arrAt_in 1 rfl _).trans ((A_eq1 (E1 m) c 1).trans (X3_of m c main_arg1 (by decide) (by decide) (by decide)).symm)
  | ⟨2, _⟩ => exact ((dat1 (E1 m) c).arrAt_in 2 rfl _).trans ((A_eq1 (E1 m) c 2).trans (X3_of m c main_v2 (by decide) (by decide) (by decide)).symm)
  | ⟨3, _⟩ => exact ((dat1 (E1 m) c).arrAt_in 3 rfl _).trans ((A_eq1 (E1 m) c 3).trans (X3_of m c main_v0 (by decide) (by decide) (by decide)).symm)
  | ⟨4, _⟩ => exact ((dat1 (E1 m) c).arrAt_in 4 rfl _).trans ((A_eq1 (E1 m) c 4).trans (X3_of m c main_arg4 (by decide) (by decide) (by decide)).symm)
  | ⟨5, _⟩ => exact (X3_v3_0 m c).symm
  | ⟨6, _⟩ => exact (X3_v3_1 m c).symm
  | ⟨7, _⟩ => exact (X3_v3_2 m c).symm
theorem hrest1 (c : Dev nD) : ∀ b, b ∉ Finset.univ.image (Pipeline.arrRef spec1) → E2 m c b = E1 m c b :=
  fun b hb => X3_of m c b (fun e => hb (Finset.mem_image.mpr ⟨5, Finset.mem_univ _, e.symm⟩))
    (fun e => hb (Finset.mem_image.mpr ⟨6, Finset.mem_univ _, e.symm⟩)) (fun e => hb (Finset.mem_image.mpr ⟨7, Finset.mem_univ _, e.symm⟩))

theorem hF2 (c : Dev nD) (w : Fin cfg2.W) : (dat2 (E2 m) c).arrAt w cfg2.N = X4 m c (Pipeline.arrRef spec2 w) := by
  match w with
  | ⟨0, _⟩ => exact ((dat2 (E2 m) c).arrAt_in 0 rfl _).trans ((A_eq2 (E2 m) c 0).trans (X4_of m c main_arg1 (by decide) (by decide)).symm)
  | ⟨1, _⟩ => exact ((dat2 (E2 m) c).arrAt_in 1 rfl _).trans ((A_eq2 (E2 m) c 1).trans (X4_of m c main_arg1 (by decide) (by decide)).symm)
  | ⟨2, _⟩ => exact ((dat2 (E2 m) c).arrAt_in 2 rfl _).trans ((A_eq2 (E2 m) c 2).trans (X4_of m c main_v3_2 (by decide) (by decide)).symm)
  | ⟨3, _⟩ => exact ((dat2 (E2 m) c).arrAt_in 3 rfl _).trans ((A_eq2 (E2 m) c 3).trans (X4_of m c main_v1 (by decide) (by decide)).symm)
  | ⟨4, _⟩ => exact (X4_v4_0 m c).symm
  | ⟨5, _⟩ => exact (X4_v4_1 m c).symm
theorem hrest2 (c : Dev nD) : ∀ b, b ∉ Finset.univ.image (Pipeline.arrRef spec2) → (fun b => X4 m c b : (b : Ref sig .tc) → Buf (Elt F) ((c : Thread nD τ).loc b)) b = E2 m c b :=
  fun b hb => X4_of m c b (fun e => hb (Finset.mem_image.mpr ⟨4, Finset.mem_univ _, e.symm⟩))
    (fun e => hb (Finset.mem_image.mpr ⟨5, Finset.mem_univ _, e.symm⟩))

/-! ## The regions as segments -/

set_option backward.isDefEq.respectTransparency.types false in
/-- The first pallas_call over the thread state: entered from every unscoped buffer at the contents before it, left at
    the contents after it; its arrays split out of the unscoped buffers and put back; the generator register into the
    pipeline's invariant and out; nothing owed; no semaphore of the kernel's own. -/
def reg0 : Pipeline.RegionSeg (pcfgs (F := F)) adm (pdats m) () defs₀ 𝒱₀ L lv 0 where
  win := launch0.win.to₀
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at the contents before it, left at
    the contents after it; its arrays split out of the unscoped buffers and put back; the generator register into the
    pipeline's invariant and out; nothing owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := arrays_of_unscopedBufs1 (c := c) (pdats m 1 c) (q1_0 (E1 m) c) (q1_1 (E1 m) c) (q1_rest (E1 m) c) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (c := c) (pdats m 1 c) (q1_0 (E1 m) c) (q1_1 (E1 m) c) (q1_rest (E1 m) c)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third pallas_call over the thread state: entered from every unscoped buffer at the contents before it, left at
    the contents after it; its arrays split out of the unscoped buffers and put back; the generator register into the
    pipeline's invariant and out; nothing owed; no semaphore of the kernel's own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := arrays_of_unscopedBufs2 (c := c) (pdats m 2 c) (q2_0 (E2 m) c) (q2_1 (E2 m) c) (q2_rest (E2 m) c) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (c := c) (pdats m 2 c) (q2_0 (E2 m) c) (q2_1 (E2 m) c) (q2_rest (E2 m) c)
      (E2 m c) (fun b => X4 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev segs : List (Pipeline.Seg (pcfgs (F := F)) adm (pdats m) () defs₀ 𝒱₀ L lv) :=
  [ .host (hseg0 m), .region (reg0 m), .region (reg1 m), .region (reg2 m) ]

theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every final state holds every unscoped buffer of every core at the last valuation. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = X4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (X4 m c) ∗ ∃ r, prngReg c r))
    (hch := ⟨fun _ => .rfl, fun _ => .rfl, fun _ => .rfl, fun _ => .rfl, fun c => by
      show iprop(StableHlo.held (c : Thread nD τ) (Pipeline.ucRefs τ sig) (X4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X4 m c b)
    (hfin := fun c s' => by
      iintro ⟨⟨Hh, -⟩, HSI⟩
      unfold StableHlo.held
      imodintro
      iapply (pointsTo_read_all (Pipeline.ucRefs τ sig) (fun b => (((c : Thread nD τ)).1, b)) (X4 m c) s')
      isplitl [Hh] <;> iassumption)
    (hQ := fun s h c => h c)

/-! ## Reading the last valuation -/

/-- An argument's buffer is never written: the last valuation has it as launched. -/
theorem X4_arg (c : Dev nD) (r : Ref sig .tc) (h2 : r ≠ main_v2) (h30 : r ≠ main_v3_0) (h31 : r ≠ main_v3_1) (h32 : r ≠ main_v3_2)
    (h40 : r ≠ main_v4_0) (h41 : r ≠ main_v4_1) (hw : r ∉ hostOps0_W) : X4 m c r = m ((c : Thread nD τ).loc r) :=
  (X4_of m c r h40 h41).trans <| (X3_of m c r h30 h31 h32).trans <| (X2_of m c r h2).trans <| (V1_of m c r hw).trans rfl

end Cert.KernelIdeal.Fr

end
-- ==== Proof.Spec.lean ====
/-
  The mathematics both programs compute, on the extended reals, index by index, over matrices of literal extents.

  A two-layer graph convolution with a dense adjacency `A` (N×N), features `x` (N×D), weights `W1` (D×H),
  `W2` (H×C) and biases `b1`, `b2`:
      pre1 = A · (x · W1) + b1,   h1 = max(pre1, 0),   pre2 = A · (h1 · W2) + b2,   out = log_softmax(pre2) by rows.
  The row-wise log-softmax is written in two arrangements: with `m` the row's maximum and
  `L = log Σ_q exp(z_q − m)`, one program computes `z − (L + m)` and the other `(z − m) − L`; on finite entries
  these agree (`lsm_eq`).
-/
import Idealize.ShloMosaic.Lib.ValueIdx
import Idealize.ShloMosaic.PureOps.Ideal.Laws

open scoped BigOperators

noncomputable section

namespace Cert.Spec

open Idealize.ShloMosaic Idealize.ShloMosaic.ValueIdx

/-- An M×N matrix of extended reals, indexed as the programs index a rank-2 array. -/
abbrev T (M N : Nat) : Type := (⟨2, ![M, N]⟩ : Shape).Idx → EReal
/-- A vector of N extended reals, indexed as the programs index a rank-1 array. -/
abbrev T1 (N : Nat) : Type := (⟨1, ![N]⟩ : Shape).Idx → EReal

/-- Every entry is a real number (neither infinity). -/
def AllReal {ι : Type} (X : ι → EReal) : Prop := ∀ j, ∃ r : ℝ, X j = (r : EReal)

variable {M K N : Nat}

/-- The matrix product: entry (p, q) is Σ_k A(p, k) · B(k, q). -/
def mm (A : T M K) (B : T K N) : T M N := fun j => ∑ k : Fin K, A (ix2 (j 0) k) * B (ix2 k (j 1))

/-- A vector laid out as a one-row matrix. -/
def rowOf (b : T1 N) : T 1 N := fun j => b (ix1 (j 1))

/-- Adding a one-row matrix to every row. -/
def addRow (X : T M N) (b : T 1 N) : T M N := fun j => X j + b (ix2 0 (j 1))

/-- The positive part, entry by entry. -/
def relu (X : T M N) : T M N := fun j => max (X j) 0

/-- A row's maximum (the maximum over no entries is −∞). -/
def rowMax (X : T M N) (p : Fin M) : EReal := (Finset.univ : Finset (Fin N)).fold max ⊥ (fun q => X (ix2 p q))

/-- log Σ_q exp(z_q − m) of a row, m its maximum. -/
def rowLse (X : T M N) (p : Fin M) : EReal := Ideal.log (∑ q : Fin N, Ideal.exp (X (ix2 p q) - rowMax X p))

/-- Row-wise log-softmax, arranged as z − (L + m). -/
def lsmK (X : T M N) : T M N := fun j => X j - (rowLse X (j 0) + rowMax X (j 0))

/-- Row-wise log-softmax, arranged as (z − m) − L. -/
def lsmR (X : T M N) : T M N := fun j => (X j - rowMax X (j 0)) - rowLse X (j 0)

/-! Finite sums and maxima of real numbers, computed in the extended reals, are real. -/

/-- A finite sum of real numbers, taken in the extended reals, is the real sum. -/
theorem coe_sum {ι : Type} (s : Finset ι) (f : ι → ℝ) :
    (∑ k ∈ s, (f k : EReal)) = ((∑ k ∈ s, f k : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The maximum of two real numbers, taken in the extended reals, is the real maximum: the inclusion of the
reals is monotone. -/
theorem coe_max (a b : ℝ) : ((max a b : ℝ) : EReal) = max (a : EReal) (b : EReal) :=
  EReal.coe_strictMono.monotone.map_max

/-- The maximum of a nonempty finite family of real numbers, taken in the extended reals (starting from −∞),
is a real number: −∞ is absorbed by the first entry, and the maximum of two reals is a real. -/
theorem fold_max_real {ι : Type} (f : ι → ℝ) (s : Finset ι) (hs : s.Nonempty) :
    ∃ m : ℝ, s.fold max ⊥ (fun q => (f q : EReal)) = (m : EReal) := by
  classical
  induction s using Finset.induction_on with
  | empty => exact absurd hs Finset.not_nonempty_empty
  | insert a s ha ih =>
    rw [Finset.fold_insert ha]
    rcases s.eq_empty_or_nonempty with rfl | hne
    · exact ⟨f a, by rw [Finset.fold_empty, max_bot_right]⟩
    · obtain ⟨m, hm⟩ := ih hne
      exact ⟨max (f a) m, by rw [hm, coe_max]⟩

/-- A product of real matrices is real. -/
theorem mm_real {A : T M K} {B : T K N} (hA : AllReal A) (hB : AllReal B) : AllReal (mm A B) := by
  intro j
  choose a ha using hA
  choose b hb using hB
  refine ⟨∑ k : Fin K, a (ix2 (j 0) k) * b (ix2 k (j 1)), ?_⟩
  simp only [mm, ha, hb, ← EReal.coe_mul]
  exact coe_sum _ _

theorem rowOf_real {b : T1 N} (hb : AllReal b) : AllReal (rowOf b) := fun j => hb _

theorem addRow_real {X : T M N} {b : T 1 N} (hX : AllReal X) (hb : AllReal b) : AllReal (addRow X b) := by
  intro j
  obtain ⟨r, hr⟩ := hX j
  obtain ⟨s, hs⟩ := hb (ix2 0 (j 1))
  exact ⟨r + s, by show X j + b (ix2 0 (j 1)) = _; rw [hr, hs, EReal.coe_add]⟩

theorem relu_real {X : T M N} (hX : AllReal X) : AllReal (relu X) := by
  intro j
  obtain ⟨r, hr⟩ := hX j
  exact ⟨max r 0, by show max (X j) 0 = _; rw [hr, coe_max, EReal.coe_zero]⟩

/-- The maximum of a row of reals that has at least one entry is a real. -/
theorem rowMax_real {X : T M N} (hX : AllReal X) (p : Fin M) (q0 : Fin N) :
    ∃ m : ℝ, rowMax X p = (m : EReal) := by
  choose z hz using hX
  have h := fold_max_real (fun q : Fin N => z (ix2 p q)) Finset.univ ⟨q0, Finset.mem_univ _⟩
  simpa only [rowMax, hz] using h

/-- For a row of reals with at least one entry, log Σ_q exp(z_q − m) is a real: every z_q − m is real, so every
exp(z_q − m) is a positive real, their sum S over a nonempty row is a positive real, and log S is real. -/
theorem rowLse_real {X : T M N} (hX : AllReal X) (p : Fin M) (q0 : Fin N) :
    ∃ L : ℝ, rowLse X p = (L : EReal) := by
  obtain ⟨m, hm⟩ := rowMax_real hX p q0
  choose z hz using hX
  have hS : 0 < ∑ q : Fin N, Real.exp (z (ix2 p q) - m) :=
    Finset.sum_pos (fun q _ => Real.exp_pos _) ⟨q0, Finset.mem_univ _⟩
  refine ⟨Real.log (∑ q : Fin N, Real.exp (z (ix2 p q) - m)), ?_⟩
  simp only [rowLse, hm, hz, ← EReal.coe_sub, Ideal.exp_coe]
  rw [coe_sum, Ideal.log_coe, if_neg (not_le.mpr hS)]

/-- On real entries the two arrangements of the log-softmax agree. -/
theorem lsm_eq {X : T M N} (hX : AllReal X) : lsmK X = lsmR X := by
  funext j
  -- the row through j has the entry at j, so its maximum m and its L are real; z − (L + m) = (z − m) − L in ℝ
  obtain ⟨m, hm⟩ := rowMax_real hX (j 0) (j 1)
  obtain ⟨L, hL⟩ := rowLse_real hX (j 0) (j 1)
  obtain ⟨z, hz⟩ := hX j
  show X j - (rowLse X (j 0) + rowMax X (j 0)) = (X j - rowMax X (j 0)) - rowLse X (j 0)
  rw [hm, hL, hz, ← EReal.coe_add, ← EReal.coe_sub, ← EReal.coe_sub, ← EReal.coe_sub]
  congr 1
  ring

/-! The values of the five results, as functions of the six arguments. -/

variable {Nn D H C : Nat}

def pre1 (x : T Nn D) (adj : T Nn Nn) (W1 : T D H) (b1 : T1 H) : T Nn H := addRow (mm adj (mm x W1)) (rowOf b1)
def h1 (x : T Nn D) (adj : T Nn Nn) (W1 : T D H) (b1 : T1 H) : T Nn H := relu (pre1 x adj W1 b1)
def pre2 (x : T Nn D) (adj : T Nn Nn) (W1 : T D H) (b1 : T1 H) (W2 : T H C) (b2 : T1 C) : T Nn C :=
  addRow (mm adj (mm (h1 x adj W1 b1) W2)) (rowOf b2)

theorem pre2_real {x : T Nn D} {adj : T Nn Nn} {W1 : T D H} {b1 : T1 H} {W2 : T H C} {b2 : T1 C}
    (hx : AllReal x) (ha : AllReal adj) (hW1 : AllReal W1) (hb1 : AllReal b1) (hW2 : AllReal W2) (hb2 : AllReal b2) :
    AllReal (pre2 x adj W1 b1 W2 b2) :=
  addRow_real (mm_real ha (mm_real (relu_real (addRow_real (mm_real ha (mm_real hx hW1)) (rowOf_real hb1))) hW2)) (rowOf_real hb2)

end Cert.Spec

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.KI.Val0.lean ====
/-
  What the first pallas_call leaves in its output array, at the ideal values: the product x · W1, entry by entry.
  The pipeline has one point and its windows are the whole arrays, so the array after the run is the one block the
  body stored.
-/
import proofs.«134506_g53876069761532_cont_9to1_m_356_22_alg».proof.Proof.KI.Reg0
import proofs.«134506_g53876069761532_cont_9to1_m_356_22_alg».proof.Proof.Spec
import proofs.«134506_g53876069761532_cont_9to1_m_356_22_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Fr

-- `V`: the contents of the core's buffers when the region is entered, at the ideal values
variable (V : (c : Dev nD) → (b : Ref sig .tc) → Buf (Elt Ideal) ((c : Thread nD τ).loc b))

/-- The offsets of a rectangle that starts at the array's first row and first column. -/
theorem zero_offsets : (![0, 0] : Fin 2 → Nat) = fun _ => 0 := funext fun a => by fin_cases a <;> rfl

/-- The stored block, entry by entry: narrowing and widening the format change nothing on the extended reals, and
    the matrix unit's product into a zero accumulator is the sum over the 256 positions of the contracted axis, so
    entry (p, q) is Σ_k x(p, k) · W(k, q). -/
theorem xw1_entry (x : Vec Ideal S10000x256 .f32) (W : Vec Ideal S256x256 .f32) (p : Fin 10000) (q : Fin 256) :
    k0_pay1 (F := Ideal) x W (ix2 p q) = ∑ k : Fin 256, x (ix2 p k) * W (ix2 k q) := by
  unfold k0_pay1
  exact PlainDot.matmul_zero_apply dot_S10000x256_S256x256_S10000x256_1_0_0_1_n_n rfl rfl rfl rfl rfl rfl
    (by decide) (by rfl) none _ _ p q

/-- So the stored block is the matrix product of the two loaded blocks: every index is the pair of its two
    coordinates. -/
theorem xw1_eq_mm (x : Vec Ideal S10000x256 .f32) (W : Vec Ideal S256x256 .f32) :
    (k0_pay1 (F := Ideal) x W : S10000x256.Idx → EReal) = Spec.mm (M := 10000) (K := 256) (N := 256) x W := by
  funext j
  exact (congrArg (k0_pay1 (F := Ideal) x W) (eq_ix2 j)).trans (xw1_entry x W (j 0) (j 1))

/-- The block of `x` at the one point is all of `x`: on each axis the block index is 0 and the block has the array's
    extent, so the entry (y₀, y₁) of the block sits at (0 · 10000 + y₀, 0 · 256 + y₁) of the array. -/
theorem x_block_eq (c : Dev nD) (t : Fin cfg0.N) : (iblk0 V c 0 t : S10000x256.Idx → EReal) = V c main_arg0 := by
  funext y
  show V c main_arg0 (((cfg0.win 0).blk t).view.emb y) = V c main_arg0 y
  congr 1
  funext a; apply Fin.ext
  match a with
  | ⟨0, _⟩ => show 0 * 10000 + 1 * (y 0).val = (y 0).val; omega
  | ⟨1, _⟩ => show 0 * 256 + 1 * (y 1).val = (y 1).val; omega

/-- Likewise the block of `W1` at the one point is all of `W1`. -/
theorem w1_block_eq (c : Dev nD) (t : Fin cfg0.N) : (iblk0 V c 1 t : S256x256.Idx → EReal) = V c main_arg2 := by
  funext y
  show V c main_arg2 (((cfg0.win 1).blk t).view.emb y) = V c main_arg2 y
  congr 1
  funext a; apply Fin.ext
  match a with
  | ⟨0, _⟩ => show 0 * 256 + 1 * (y 0).val = (y 0).val; omega
  | ⟨1, _⟩ => show 0 * 256 + 1 * (y 1).val = (y 1).val; omega

/-- What the point writes back is its block of the one whole-array function x · W1: the body's single store covers
    the buffer, so the buffer holds the product of the two loaded blocks, which are the whole arrays; and the
    entry (j₀, j₁) of the output's block sits at (0 · 10000 + j₀, 0 · 256 + j₁) of the output array. -/
theorem written_back_eq (c : Dev nD) (t : Fin cfg0.N) :
    (dat0 V c).flushed 2 t = ((cfg0.win 2).blk t).view.read (Elt Ideal)
      (Spec.mm (M := 10000) (K := 256) (N := 256) (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x256) zero_offsets, View.ld_unit_zero (S := S256x256) zero_offsets]
  rw [xw1_eq_mm, x_block_eq, w1_block_eq]
  funext j
  show Spec.mm (M := 10000) (K := 256) (N := 256) (V c main_arg0) (V c main_arg2) ((cfg0.win 2).xinj (grid0.coords t) j)
    = Spec.mm (M := 10000) (K := 256) (N := 256) (V c main_arg0) (V c main_arg2) (((cfg0.win 2).blk t).view.emb j)
  congr 1
  funext a; apply Fin.ext
  match a with
  | ⟨0, _⟩ => show (j 0).val = 0 * 10000 + 1 * (j 0).val; omega
  | ⟨1, _⟩ => show (j 1).val = 0 * 256 + 1 * (j 1).val; omega

/-- After the first region the array of `xw1` holds x · W1. -/
theorem final0_2 (c : Dev nD) :
    ((dat0 V c).arrAt 2 cfg0.N : S10000x256.Idx → EReal)
      = Spec.mm (M := 10000) (K := 256) (N := 256) (V c main_arg0) (V c main_arg2) := by
  -- the one point writes its block back, and that block is the whole array: every index (i₀, i₁) has
  -- 0 · 10000 ≤ i₀ < 0 · 10000 + 10000 and 0 · 256 ≤ i₁ < 0 · 256 + 256
  refine (dat0 V c).arrAt_eq_of_cover 2 _ (fun t _ => written_back_eq V c t) fun i => ?_
  refine ⟨t0_0, rfl, ?_⟩
  show i ∈ ((View.whole main_v2).slice (win0_2.rect t0_0)).set
  rw [View.set_slice_whole, Rect.mem_set_unit]
  intro a
  match a with
  | ⟨0, _⟩ =>
    show 0 * 10000 ≤ (i 0).val ∧ (i 0).val < 0 * 10000 + 10000
    have h0 : (i 0).val < 10000 := (i 0).isLt
    omega
  | ⟨1, _⟩ =>
    show 0 * 256 ≤ (i 1).val ∧ (i 1).val < 0 * 256 + 256
    have h1 : (i 1).val < 256 := (i 1).isLt
    omega

end Cert.KernelIdeal.Val

end
-- ==== Proof.KI.Val1.lean ====
/-
  What the second pallas_call leaves in its three output arrays, at the ideal values, entry by entry:
      pre1 = A · xw1 + b1,   h1 = max(pre1, 0),   hw2 = h1 · W2,
  with A, xw1, the bias row and W2 the contents of the region's input arrays at entry. Grid point i writes rows
  400·i … 400·i+399 of each output, its lower 200 rows from the adjacency rows the first window holds (block 2·i of
  200 rows) and its upper 200 rows from those the second window holds (block 2·i+1): every output row depends only
  on the same row of A.
-/
import proofs.«134506_g53876069761532_cont_9to1_m_356_22_alg».proof.Proof.KI.Reg1
import proofs.«134506_g53876069761532_cont_9to1_m_356_22_alg».proof.Proof.Spec
import proofs.«134506_g53876069761532_cont_9to1_m_356_22_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Fr

-- `V`: the contents of the core's buffers when the region is entered, at the ideal values
variable (V : (c : Dev nD) → (b : Ref sig .tc) → Buf (Elt Ideal) ((c : Thread nD τ).loc b))

/-- pre1 as a function of the region's input arrays. -/
abbrev pre1Of (c : Dev nD) : Spec.T 10000 256 :=
  Spec.addRow (Spec.mm (M := 10000) (K := 10000) (N := 256) (V c main_arg1) (V c main_v2)) (V c main_v0)

namespace R1

/-- The region's input arrays at entry, as matrices: the adjacency, `xw1`, the bias row and `W2`. -/
abbrev adjOf (c : Dev nD) : Spec.T 10000 10000 := V c main_arg1
abbrev xwOf (c : Dev nD) : Spec.T 10000 256 := V c main_v2
abbrev b1Of (c : Dev nD) : Spec.T 1 256 := V c main_v0
abbrev w2Of (c : Dev nD) : Spec.T 256 128 := V c main_arg4

/-! ## The body's stored values, entry by entry -/

/-- Rows of the adjacency block times `xw1`, into the zero accumulator, plus the bias row. -/
theorem pay4_at (xw : FVec Ideal S10000x256 .bf16) (a : FVec Ideal S200x10000 .f32) (b : FVec Ideal S1x256 .f32)
    (p : Fin 200) (q : Fin 256) :
    k1_pay4 (F := Ideal) xw a b (ix2 p q) = (∑ k : Fin 10000, a (ix2 p k) * xw (ix2 k q)) + b (ix2 0 q) := by
  unfold k1_pay4 k1_pay3
  rw [addf_apply, broadcastTo_1b_ab_apply, shapeCast_self, shapeCast_self,
    PlainDot.matmul_zero_apply dot_S200x10000_S10000x256_S200x256_1_0_0_1_n_n rfl rfl rfl rfl rfl rfl (by rfl) (by rfl)]
  rfl

/-- The same for the upper half's adjacency block. -/
theorem pay7_at (xw : FVec Ideal S10000x256 .bf16) (a : FVec Ideal S200x10000 .f32) (b : FVec Ideal S1x256 .f32)
    (p : Fin 200) (q : Fin 256) :
    k1_pay7 (F := Ideal) xw a b (ix2 p q) = (∑ k : Fin 10000, a (ix2 p k) * xw (ix2 k q)) + b (ix2 0 q) := by
  unfold k1_pay7 k1_pay3
  rw [addf_apply, broadcastTo_1b_ab_apply, shapeCast_self, shapeCast_self,
    PlainDot.matmul_zero_apply dot_S200x10000_S10000x256_S200x256_1_0_0_1_n_n rfl rfl rfl rfl rfl rfl (by rfl) (by rfl)]
  rfl

/-- The positive part of the lower half's entry. -/
theorem pay5_at (xw : FVec Ideal S10000x256 .bf16) (a : FVec Ideal S200x10000 .f32) (b : FVec Ideal S1x256 .f32)
    (p : Fin 200) (q : Fin 256) :
    k1_pay5 (F := Ideal) xw a b (ix2 p q) = max ((∑ k : Fin 10000, a (ix2 p k) * xw (ix2 k q)) + b (ix2 0 q)) 0 := by
  unfold k1_pay5
  rw [maximumf_apply, pay4_at, broadcast_apply]
  exact congrArg _ Ideal.ofBits_zero_f32

/-- The positive part of the upper half's entry. -/
theorem pay8_at (xw : FVec Ideal S10000x256 .bf16) (a : FVec Ideal S200x10000 .f32) (b : FVec Ideal S1x256 .f32)
    (p : Fin 200) (q : Fin 256) :
    k1_pay8 (F := Ideal) xw a b (ix2 p q) = max ((∑ k : Fin 10000, a (ix2 p k) * xw (ix2 k q)) + b (ix2 0 q)) 0 := by
  unfold k1_pay8
  rw [maximumf_apply, pay7_at, broadcast_apply]
  exact congrArg _ Ideal.ofBits_zero_f32

/-- The lower half of the third output: the positive parts times `W2`. -/
theorem pay6_at (w2 : FVec Ideal S256x128 .f32) (xw : FVec Ideal S10000x256 .bf16) (a : FVec Ideal S200x10000 .f32)
    (b : FVec Ideal S1x256 .f32) (p : Fin 200) (q : Fin 128) :
    k1_pay6 (F := Ideal) w2 xw a b (ix2 p q)
      = ∑ j : Fin 256, max ((∑ k : Fin 10000, a (ix2 p k) * xw (ix2 k j)) + b (ix2 0 j)) 0 * w2 (ix2 j q) := by
  unfold k1_pay6 k1_pay2
  rw [truncf_apply,
    PlainDot.matmul_zero_apply dot_S200x256_S256x128_S200x128_1_0_0_1_n_n rfl rfl rfl rfl rfl rfl (by rfl) (by rfl)]
  refine Finset.sum_congr rfl fun j _ => ?_
  rw [truncf_apply, truncf_apply, pay5_at]

/-- The upper half of the third output. -/
theorem pay1_at (w2 : FVec Ideal S256x128 .f32) (xw : FVec Ideal S10000x256 .bf16) (a : FVec Ideal S200x10000 .f32)
    (b : FVec Ideal S1x256 .f32) (p : Fin 200) (q : Fin 128) :
    k1_pay1 (F := Ideal) (k1_pay2 (F := Ideal) w2) (k1_pay8 (F := Ideal) xw a b) (ix2 p q)
      = ∑ j : Fin 256, max ((∑ k : Fin 10000, a (ix2 p k) * xw (ix2 k j)) + b (ix2 0 j)) 0 * w2 (ix2 j q) := by
  unfold k1_pay1 k1_pay2
  rw [truncf_apply,
    PlainDot.matmul_zero_apply dot_S200x256_S256x128_S200x128_1_0_0_1_n_n rfl rfl rfl rfl rfl rfl (by rfl) (by rfl)]
  refine Finset.sum_congr rfl fun j _ => ?_
  rw [truncf_apply, truncf_apply, pay8_at]

/-! ## The windows' blocks, entry by entry -/

/-- The printed index maps over the grid: the two adjacency windows are at blocks `2·t` and `2·t + 1` of 200 rows, the
    three outputs at block `t` of 400 rows, the three whole windows at block 0. -/
theorem idx_facts1 : ∀ t : Fin cfg1.N,
    win1_0.index t (0 : Fin 2) = 2 * t.val ∧ win1_0.index t (1 : Fin 2) = 0
    ∧ win1_1.index t (0 : Fin 2) = 2 * t.val + 1 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ t.val < 25 :=
  (by decide +kernel : ∀ t : Fin grid1.N, _)

/-- Row `p` of the first adjacency window's block at point `t` is row `400·t + p` of the adjacency. -/
theorem adj0_at (c : Dev nD) (t : Fin cfg1.N) (p : Fin 200) (k : Fin 10000) (r : Fin 10000) (hr : r.val = 400 * t.val + p.val) :
    View.ld (iblk1 V c 0 t) rAdj1 (ix2 p k) = adjOf V c (ix2 r k) := by
  show V c main_arg1 (((cfg1.win 0).blk t).view.emb (rAdj1.emb (ix2 p k))) = V c main_arg1 (ix2 r k)
  refine congrArg (V c main_arg1) ?_
  obtain ⟨e0, e1, -⟩ := idx_facts1 t
  funext a; apply Fin.ext
  match a with
  | ⟨0, _⟩ => show win1_0.index t (0 : Fin 2) * 200 + 1 * (0 + 1 * p.val) = r.val; omega
  | ⟨1, _⟩ => show win1_0.index t (1 : Fin 2) * 10000 + 1 * (0 + 1 * k.val) = k.val; omega

/-- Row `p` of the second adjacency window's block at point `t` is row `400·t + 200 + p` of the adjacency. -/
theorem adj1_at (c : Dev nD) (t : Fin cfg1.N) (p : Fin 200) (k : Fin 10000) (r : Fin 10000) (hr : r.val = 400 * t.val + 200 + p.val) :
    View.ld (iblk1 V c 1 t) rAdj1 (ix2 p k) = adjOf V c (ix2 r k) := by
  show V c main_arg1 (((cfg1.win 1).blk t).view.emb (rAdj1.emb (ix2 p k))) = V c main_arg1 (ix2 r k)
  refine congrArg (V c main_arg1) ?_
  obtain ⟨-, -, e0, e1, -⟩ := idx_facts1 t
  funext a; apply Fin.ext
  match a with
  | ⟨0, _⟩ => show win1_1.index t (0 : Fin 2) * 200 + 1 * (0 + 1 * p.val) = r.val; omega
  | ⟨1, _⟩ => show win1_1.index t (1 : Fin 2) * 10000 + 1 * (0 + 1 * k.val) = k.val; omega

/-- The `xw1` window's block is the whole array at every point. -/
theorem xw_at (c : Dev nD) (t : Fin cfg1.N) (k : Fin 10000) (q : Fin 256) :
    View.ld (iblk1 V c 2 t) rXw1 (ix2 k q) = xwOf V c (ix2 k q) := by
  show V c main_v2 (((cfg1.win 2).blk t).view.emb (rXw1.emb (ix2 k q))) = V c main_v2 (ix2 k q)
  refine congrArg (V c main_v2) ?_
  obtain ⟨-, -, -, -, e0, e1, -⟩ := idx_facts1 t
  funext a; apply Fin.ext
  match a with
  | ⟨0, _⟩ => show win1_2.index t (0 : Fin 2) * 10000 + 1 * (0 + 1 * k.val) = k.val; omega
  | ⟨1, _⟩ => show win1_2.index t (1 : Fin 2) * 256 + 1 * (0 + 1 * q.val) = q.val; omega

/-- The bias row's window holds the row at every point. -/
theorem b_at (c : Dev nD) (t : Fin cfg1.N) (q : Fin 256) :
    View.ld (iblk1 V c 3 t) rB1 (ix2 0 q) = b1Of V c (ix2 0 q) := by
  show V c main_v0 (((cfg1.win 3).blk t).view.emb (rB1.emb (ix2 0 q))) = V c main_v0 (ix2 0 q)
  refine congrArg (V c main_v0) ?_
  obtain ⟨-, -, -, -, -, -, e0, e1, -⟩ := idx_facts1 t
  funext a; apply Fin.ext
  match a with
  | ⟨0, _⟩ => show win1_3.index t (0 : Fin 2) * 1 + 1 * (0 + 1 * 0) = 0; omega
  | ⟨1, _⟩ => show win1_3.index t (1 : Fin 2) * 256 + 1 * (0 + 1 * q.val) = q.val; omega

/-- The `W2` window's block is the whole array at every point. -/
theorem w2_at (c : Dev nD) (t : Fin cfg1.N) (j : Fin 256) (q : Fin 128) :
    View.ld (iblk1 V c 4 t) rW2 (ix2 j q) = w2Of V c (ix2 j q) := by
  show V c main_arg4 (((cfg1.win 4).blk t).view.emb (rW2.emb (ix2 j q))) = V c main_arg4 (ix2 j q)
  refine congrArg (V c main_arg4) ?_
  obtain ⟨-, -, -, -, -, -, -, -, e0, e1, -⟩ := idx_facts1 t
  funext a; apply Fin.ext
  match a with
  | ⟨0, _⟩ => show win1_4.index t (0 : Fin 2) * 256 + 1 * (0 + 1 * j.val) = j.val; omega
  | ⟨1, _⟩ => show win1_4.index t (1 : Fin 2) * 128 + 1 * (0 + 1 * q.val) = q.val; omega

/-! ## What each point writes back, and the arrays after the run -/

/-- `pre1` at row `r`, column `q`, written out. -/
theorem pre1Of_at (c : Dev nD) (r : Fin 10000) (q : Fin 256) :
    pre1Of V c (ix2 r q) = (∑ k : Fin 10000, adjOf V c (ix2 r k) * xwOf V c (ix2 k q)) + b1Of V c (ix2 0 q) := rfl

/-- The lower half's stored entry is `pre1` at the row the first adjacency window holds. -/
theorem piece5_lo (c : Dev nD) (t : Fin cfg1.N) (p : Fin 200) (q : Fin 256) (r : Fin 10000) (hr : r.val = 400 * t.val + p.val) :
    k1_pay4 (F := Ideal) (View.ld (iblk1 V c 2 t) rXw1) (View.ld (iblk1 V c 0 t) rAdj1) (View.ld (iblk1 V c 3 t) rB1) (ix2 p q)
      = pre1Of V c (ix2 r q) := by
  rw [pay4_at, pre1Of_at, b_at]
  refine congrArg (· + _) (Finset.sum_congr rfl fun k _ => ?_)
  rw [adj0_at V c t p k r hr, xw_at]

/-- The upper half's stored entry is `pre1` at the row the second adjacency window holds. -/
theorem piece5_hi (c : Dev nD) (t : Fin cfg1.N) (p : Fin 200) (q : Fin 256) (r : Fin 10000) (hr : r.val = 400 * t.val + 200 + p.val) :
    k1_pay7 (F := Ideal) (View.ld (iblk1 V c 2 t) rXw1) (View.ld (iblk1 V c 1 t) rAdj1) (View.ld (iblk1 V c 3 t) rB1) (ix2 p q)
      = pre1Of V c (ix2 r q) := by
  rw [pay7_at, pre1Of_at, b_at]
  refine congrArg (· + _) (Finset.sum_congr rfl fun k _ => ?_)
  rw [adj1_at V c t p k r hr, xw_at]

/-- What point `t` writes back to the first output is block `t` of `pre1`. -/
theorem flushed5_eq (c : Dev nD) (t : Fin cfg1.N) :
    (dat1 V c).flushed 5 t = ((cfg1.win 5).blk t).view.read (Elt Ideal) (pre1Of V c) := by
  show (cfg1.win 5).cut (grid1.coords t) ((dat1 V c).after 5 t) = _
  rw [after1_5]
  unfold out1_5
  obtain ⟨-, -, -, -, -, -, -, -, -, -, e0, e1, -, -, -, -, ht⟩ := idx_facts1 t
  funext y
  refine (View.canon_apply_of_pieces (fun z : S400x256.Idx => pre1Of V c (((cfg1.win 5).blk t).view.emb z)) _ ?_
    ((cfg1.win 5).xinj (grid1.coords t) y) (cover1_256 _ _ _)).trans rfl
  intro pc hpc x
  simp only [List.mem_cons, List.mem_singleton, List.not_mem_nil, or_false] at hpc
  rcases hpc with rfl | rfl
  · obtain ⟨p, q, rfl⟩ : ∃ (p : Fin 200) (q : Fin 256), x = ix2 p q := ⟨x 0, x 1, eq_ix2 x⟩
    show k1_pay7 (F := Ideal) (View.ld (iblk1 V c 2 t) rXw1) (View.ld (iblk1 V c 1 t) rAdj1) (View.ld (iblk1 V c 3 t) rB1) (ix2 p q)
      = pre1Of V c (((cfg1.win 5).blk t).view.emb (rHi256.emb (ix2 p q)))
    rw [piece5_hi V c t p q ⟨400 * t.val + 200 + p.val, by omega⟩ rfl]
    refine congrArg (pre1Of V c) ?_
    funext a; apply Fin.ext
    match a with
    | ⟨0, _⟩ => show 400 * t.val + 200 + p.val = win1_5.index t (0 : Fin 2) * 400 + 1 * (200 + 1 * p.val); omega
    | ⟨1, _⟩ => show q.val = win1_5.index t (1 : Fin 2) * 256 + 1 * (0 + 1 * q.val); omega
  · obtain ⟨p, q, rfl⟩ : ∃ (p : Fin 200) (q : Fin 256), x = ix2 p q := ⟨x 0, x 1, eq_ix2 x⟩
    show k1_pay4 (F := Ideal) (View.ld (iblk1 V c 2 t) rXw1) (View.ld (iblk1 V c 0 t) rAdj1) (View.ld (iblk1 V c 3 t) rB1) (ix2 p q)
      = pre1Of V c (((cfg1.win 5).blk t).view.emb (rLo256.emb (ix2 p q)))
    rw [piece5_lo V c t p q ⟨400 * t.val + p.val, by omega⟩ rfl]
    refine congrArg (pre1Of V c) ?_
    funext a; apply Fin.ext
    match a with
    | ⟨0, _⟩ => show 400 * t.val + p.val = win1_5.index t (0 : Fin 2) * 400 + 1 * (0 + 1 * p.val); omega
    | ⟨1, _⟩ => show q.val = win1_5.index t (1 : Fin 2) * 256 + 1 * (0 + 1 * q.val); omega

/-- An index of the first output's array is in point `t`'s block iff each coordinate is in the block's range. -/
theorem mem_blk5 (t : Fin cfg1.N) (i : S10000x256.Idx) :
    i ∈ ((cfg1.win 5).blk t).view.set ↔ ∀ a : Fin 2, win1_5.index t a * S400x256.size a ≤ (i a).val
      ∧ (i a).val < win1_5.index t a * S400x256.size a + S400x256.size a := by
  show i ∈ ((View.whole main_v3_0).slice (win1_5.rect t)).set ↔ _
  rw [View.set_slice_whole, Rect.mem_set_unit]
  exact Iff.rfl

/-- Row `r` of the first output is written back by point `r / 400`. -/
theorem cover5 (i : S10000x256.Idx) :
    ∃ t : Fin cfg1.N, (cfg1.win 5).flush t = true ∧ i ∈ ((cfg1.win 5).blk t).view.set := by
  have hi0 : (i 0).val < 10000 := idx2_lt0 i
  have hi1 : (i 1).val < 256 := idx2_lt1 i
  have hN : (i 0).val / 400 < cfg1.N := by show _ < grid1.N; rw [N_1]; omega
  obtain ⟨-, -, -, -, -, -, -, -, -, -, e0, e1, -⟩ := idx_facts1 ⟨(i 0).val / 400, hN⟩
  refine ⟨⟨(i 0).val / 400, hN⟩, flush1_5 _, ?_⟩
  rw [mem_blk5]
  intro a
  match a with
  | ⟨0, _⟩ =>
    show win1_5.index ⟨(i 0).val / 400, hN⟩ (0 : Fin 2) * 400 ≤ (i 0).val
      ∧ (i 0).val < win1_5.index ⟨(i 0).val / 400, hN⟩ (0 : Fin 2) * 400 + 400
    rw [e0]; show (i 0).val / 400 * 400 ≤ (i 0).val ∧ (i 0).val < (i 0).val / 400 * 400 + 400; omega
  | ⟨1, _⟩ =>
    show win1_5.index ⟨(i 0).val / 400, hN⟩ (1 : Fin 2) * 256 ≤ (i 1).val
      ∧ (i 1).val < win1_5.index ⟨(i 0).val / 400, hN⟩ (1 : Fin 2) * 256 + 256
    rw [e1]; omega

/-- `h1` at row `r`, column `q`, written out. -/
theorem h1Of_at (c : Dev nD) (r : Fin 10000) (q : Fin 256) :
    Spec.relu (pre1Of V c) (ix2 r q)
      = max ((∑ k : Fin 10000, adjOf V c (ix2 r k) * xwOf V c (ix2 k q)) + b1Of V c (ix2 0 q)) 0 := rfl

theorem piece6_lo (c : Dev nD) (t : Fin cfg1.N) (p : Fin 200) (q : Fin 256) (r : Fin 10000) (hr : r.val = 400 * t.val + p.val) :
    k1_pay5 (F := Ideal) (View.ld (iblk1 V c 2 t) rXw1) (View.ld (iblk1 V c 0 t) rAdj1) (View.ld (iblk1 V c 3 t) rB1) (ix2 p q)
      = Spec.relu (pre1Of V c) (ix2 r q) := by
  rw [pay5_at, h1Of_at, b_at]
  refine congrArg (fun s => max (s + _) 0) (Finset.sum_congr rfl fun k _ => ?_)
  rw [adj0_at V c t p k r hr, xw_at]

theorem piece6_hi (c : Dev nD) (t : Fin cfg1.N) (p : Fin 200) (q : Fin 256) (r : Fin 10000) (hr : r.val = 400 * t.val + 200 + p.val) :
    k1_pay8 (F := Ideal) (View.ld (iblk1 V c 2 t) rXw1) (View.ld (iblk1 V c 1 t) rAdj1) (View.ld (iblk1 V c 3 t) rB1) (ix2 p q)
      = Spec.relu (pre1Of V c) (ix2 r q) := by
  rw [pay8_at, h1Of_at, b_at]
  refine congrArg (fun s => max (s + _) 0) (Finset.sum_congr rfl fun k _ => ?_)
  rw [adj1_at V c t p k r hr, xw_at]

/-- What point `t` writes back to the second output is block `t` of `h1`. -/
theorem flushed6_eq (c : Dev nD) (t : Fin cfg1.N) :
    (dat1 V c).flushed 6 t = ((cfg1.win 6).blk t).view.read (Elt Ideal) (Spec.relu (pre1Of V c)) := by
  show (cfg1.win 6).cut (grid1.coords t) ((dat1 V c).after 6 t) = _
  rw [after1_6]
  unfold out1_6
  obtain ⟨-, -, -, -, -, -, -, -, -, -, -, -, e0, e1, -, -, ht⟩ := idx_facts1 t
  funext y
  refine (View.canon_apply_of_pieces (fun z : S400x256.Idx => Spec.relu (pre1Of V c) (((cfg1.win 6).blk t).view.emb z)) _ ?_
    ((cfg1.win 6).xinj (grid1.coords t) y) (cover1_256 _ _ _)).trans rfl
  intro pc hpc x
  simp only [List.mem_cons, List.mem_singleton, List.not_mem_nil, or_false] at hpc
  rcases hpc with rfl | rfl
  · obtain ⟨p, q, rfl⟩ : ∃ (p : Fin 200) (q : Fin 256), x = ix2 p q := ⟨x 0, x 1, eq_ix2 x⟩
    show k1_pay8 (F := Ideal) (View.ld (iblk1 V c 2 t) rXw1) (View.ld (iblk1 V c 1 t) rAdj1) (View.ld (iblk1 V c 3 t) rB1) (ix2 p q)
      = Spec.relu (pre1Of V c) (((cfg1.win 6).blk t).view.emb (rHi256.emb (ix2 p q)))
    rw [piece6_hi V c t p q ⟨400 * t.val + 200 + p.val, by omega⟩ rfl]
    refine congrArg (Spec.relu (pre1Of V c)) ?_
    funext a; apply Fin.ext
    match a with
    | ⟨0, _⟩ => show 400 * t.val + 200 + p.val = win1_6.index t (0 : Fin 2) * 400 + 1 * (200 + 1 * p.val); omega
    | ⟨1, _⟩ => show q.val = win1_6.index t (1 : Fin 2) * 256 + 1 * (0 + 1 * q.val); omega
  · obtain ⟨p, q, rfl⟩ : ∃ (p : Fin 200) (q : Fin 256), x = ix2 p q := ⟨x 0, x 1, eq_ix2 x⟩
    show k1_pay5 (F := Ideal) (View.ld (iblk1 V c 2 t) rXw1) (View.ld (iblk1 V c 0 t) rAdj1) (View.ld (iblk1 V c 3 t) rB1) (ix2 p q)
      = Spec.relu (pre1Of V c) (((cfg1.win 6).blk t).view.emb (rLo256.emb (ix2 p q)))
    rw [piece6_lo V c t p q ⟨400 * t.val + p.val, by omega⟩ rfl]
    refine congrArg (Spec.relu (pre1Of V c)) ?_
    funext a; apply Fin.ext
    match a with
    | ⟨0, _⟩ => show 400 * t.val + p.val = win1_6.index t (0 : Fin 2) * 400 + 1 * (0 + 1 * p.val); omega
    | ⟨1, _⟩ => show q.val = win1_6.index t (1 : Fin 2) * 256 + 1 * (0 + 1 * q.val); omega

theorem mem_blk6 (t : Fin cfg1.N) (i : S10000x256.Idx) :
    i ∈ ((cfg1.win 6).blk t).view.set ↔ ∀ a : Fin 2, win1_6.index t a * S400x256.size a ≤ (i a).val
      ∧ (i a).val < win1_6.index t a * S400x256.size a + S400x256.size a := by
  show i ∈ ((View.whole main_v3_1).slice (win1_6.rect t)).set ↔ _
  rw [View.set_slice_whole, Rect.mem_set_unit]
  exact Iff.rfl

theorem cover6 (i : S10000x256.Idx) :
    ∃ t : Fin cfg1.N, (cfg1.win 6).flush t = true ∧ i ∈ ((cfg1.win 6).blk t).view.set := by
  have hi0 : (i 0).val < 10000 := idx2_lt0 i
  have hi1 : (i 1).val < 256 := idx2_lt1 i
  have hN : (i 0).val / 400 < cfg1.N := by show _ < grid1.N; rw [N_1]; omega
  obtain ⟨-, -, -, -, -, -, -, -, -, -, -, -, e0, e1, -⟩ := idx_facts1 ⟨(i 0).val / 400, hN⟩
  refine ⟨⟨(i 0).val / 400, hN⟩, flush1_6 _, ?_⟩
  rw [mem_blk6]
  intro a
  match a with
  | ⟨0, _⟩ =>
    show win1_6.index ⟨(i 0).val / 400, hN⟩ (0 : Fin 2) * 400 ≤ (i 0).val
      ∧ (i 0).val < win1_6.index ⟨(i 0).val / 400, hN⟩ (0 : Fin 2) * 400 + 400
    rw [e0]; show (i 0).val / 400 * 400 ≤ (i 0).val ∧ (i 0).val < (i 0).val / 400 * 400 + 400; omega
  | ⟨1, _⟩ =>
    show win1_6.index ⟨(i 0).val / 400, hN⟩ (1 : Fin 2) * 256 ≤ (i 1).val
      ∧ (i 1).val < win1_6.index ⟨(i 0).val / 400, hN⟩ (1 : Fin 2) * 256 + 256
    rw [e1]; omega

/-- `hw2` as a function of the region's input arrays, and at row `r`, column `q`, written out. -/
abbrev hw2Of (c : Dev nD) : Spec.T 10000 128 :=
  Spec.mm (M := 10000) (K := 256) (N := 128) (Spec.relu (pre1Of V c)) (V c main_arg4)

theorem hw2Of_at (c : Dev nD) (r : Fin 10000) (q : Fin 128) :
    hw2Of V c (ix2 r q)
      = ∑ j : Fin 256, max ((∑ k : Fin 10000, adjOf V c (ix2 r k) * xwOf V c (ix2 k j)) + b1Of V c (ix2 0 j)) 0 * w2Of V c (ix2 j q) := rfl

theorem piece7_lo (c : Dev nD) (t : Fin cfg1.N) (p : Fin 200) (q : Fin 128) (r : Fin 10000) (hr : r.val = 400 * t.val + p.val) :
    k1_pay6 (F := Ideal) (View.ld (iblk1 V c 4 t) rW2) (View.ld (iblk1 V c 2 t) rXw1) (View.ld (iblk1 V c 0 t) rAdj1) (View.ld (iblk1 V c 3 t) rB1) (ix2 p q)
      = hw2Of V c (ix2 r q) := by
  rw [pay6_at, hw2Of_at]
  refine Finset.sum_congr rfl fun j _ => ?_
  rw [b_at, w2_at]
  refine congrArg (fun s => max (s + _) 0 * _) (Finset.sum_congr rfl fun k _ => ?_)
  rw [adj0_at V c t p k r hr, xw_at]

theorem piece7_hi (c : Dev nD) (t : Fin cfg1.N) (p : Fin 200) (q : Fin 128) (r : Fin 10000) (hr : r.val = 400 * t.val + 200 + p.val) :
    k1_pay1 (F := Ideal) (k1_pay2 (F := Ideal) (View.ld (iblk1 V c 4 t) rW2))
        (k1_pay8 (F := Ideal) (View.ld (iblk1 V c 2 t) rXw1) (View.ld (iblk1 V c 1 t) rAdj1) (View.ld (iblk1 V c 3 t) rB1)) (ix2 p q)
      = hw2Of V c (ix2 r q) := by
  rw [pay1_at, hw2Of_at]
  refine Finset.sum_congr rfl fun j _ => ?_
  rw [b_at, w2_at]
  refine congrArg (fun s => max (s + _) 0 * _) (Finset.sum_congr rfl fun k _ => ?_)
  rw [adj1_at V c t p k r hr, xw_at]

/-- What point `t` writes back to the third output is block `t` of `hw2`. -/
theorem flushed7_eq (c : Dev nD) (t : Fin cfg1.N) :
    (dat1 V c).flushed 7 t = ((cfg1.win 7).blk t).view.read (Elt Ideal) (hw2Of V c) := by
  show (cfg1.win 7).cut (grid1.coords t) ((dat1 V c).after 7 t) = _
  rw [after1_7]
  unfold out1_7
  obtain ⟨-, -, -, -, -, -, -, -, -, -, -, -, -, -, e0, e1, ht⟩ := idx_facts1 t
  funext y
  refine (View.canon_apply_of_pieces (fun z : S400x128.Idx => hw2Of V c (((cfg1.win 7).blk t).view.emb z)) _ ?_
    ((cfg1.win 7).xinj (grid1.coords t) y) (cover1_128 _ _ _)).trans rfl
  intro pc hpc x
  simp only [List.mem_cons, List.mem_singleton, List.not_mem_nil, or_false] at hpc
  rcases hpc with rfl | rfl
  · obtain ⟨p, q, rfl⟩ : ∃ (p : Fin 200) (q : Fin 128), x = ix2 p q := ⟨x 0, x 1, eq_ix2 x⟩
    show k1_pay1 (F := Ideal) (k1_pay2 (F := Ideal) (View.ld (iblk1 V c 4 t) rW2))
        (k1_pay8 (F := Ideal) (View.ld (iblk1 V c 2 t) rXw1) (View.ld (iblk1 V c 1 t) rAdj1) (View.ld (iblk1 V c 3 t) rB1)) (ix2 p q)
      = hw2Of V c (((cfg1.win 7).blk t).view.emb (rHi128.emb (ix2 p q)))
    rw [piece7_hi V c t p q ⟨400 * t.val + 200 + p.val, by omega⟩ rfl]
    refine congrArg (hw2Of V c) ?_
    funext a; apply Fin.ext
    match a with
    | ⟨0, _⟩ => show 400 * t.val + 200 + p.val = win1_7.index t (0 : Fin 2) * 400 + 1 * (200 + 1 * p.val); omega
    | ⟨1, _⟩ => show q.val = win1_7.index t (1 : Fin 2) * 128 + 1 * (0 + 1 * q.val); omega
  · obtain ⟨p, q, rfl⟩ : ∃ (p : Fin 200) (q : Fin 128), x = ix2 p q := ⟨x 0, x 1, eq_ix2 x⟩
    show k1_pay6 (F := Ideal) (View.ld (iblk1 V c 4 t) rW2) (View.ld (iblk1 V c 2 t) rXw1) (View.ld (iblk1 V c 0 t) rAdj1) (View.ld (iblk1 V c 3 t) rB1) (ix2 p q)
      = hw2Of V c (((cfg1.win 7).blk t).view.emb (rLo128.emb (ix2 p q)))
    rw [piece7_lo V c t p q ⟨400 * t.val + p.val, by omega⟩ rfl]
    refine congrArg (hw2Of V c) ?_
    funext a; apply Fin.ext
    match a with
    | ⟨0, _⟩ => show 400 * t.val + p.val = win1_7.index t (0 : Fin 2) * 400 + 1 * (0 + 1 * p.val); omega
    | ⟨1, _⟩ => show q.val = win1_7.index t (1 : Fin 2) * 128 + 1 * (0 + 1 * q.val); omega

theorem mem_blk7 (t : Fin cfg1.N) (i : S10000x128.Idx) :
    i ∈ ((cfg1.win 7).blk t).view.set ↔ ∀ a : Fin 2, win1_7.index t a * S400x128.size a ≤ (i a).val
      ∧ (i a).val < win1_7.index t a * S400x128.size a + S400x128.size a := by
  show i ∈ ((View.whole main_v3_2).slice (win1_7.rect t)).set ↔ _
  rw [View.set_slice_whole, Rect.mem_set_unit]
  exact Iff.rfl

theorem cover7 (i : S10000x128.Idx) :
    ∃ t : Fin cfg1.N, (cfg1.win 7).flush t = true ∧ i ∈ ((cfg1.win 7).blk t).view.set := by
  have hi0 : (i 0).val < 10000 := idx2_lt0 i
  have hi1 : (i 1).val < 128 := idx2_lt1 i
  have hN : (i 0).val / 400 < cfg1.N := by show _ < grid1.N; rw [N_1]; omega
  obtain ⟨-, -, -, -, -, -, -, -, -, -, -, -, -, -, e0, e1, -⟩ := idx_facts1 ⟨(i 0).val / 400, hN⟩
  refine ⟨⟨(i 0).val / 400, hN⟩, flush1_7 _, ?_⟩
  rw [mem_blk7]
  intro a
  match a with
  | ⟨0, _⟩ =>
    show win1_7.index ⟨(i 0).val / 400, hN⟩ (0 : Fin 2) * 400 ≤ (i 0).val
      ∧ (i 0).val < win1_7.index ⟨(i 0).val / 400, hN⟩ (0 : Fin 2) * 400 + 400
    rw [e0]; show (i 0).val / 400 * 400 ≤ (i 0).val ∧ (i 0).val < (i 0).val / 400 * 400 + 400; omega
  | ⟨1, _⟩ =>
    show win1_7.index ⟨(i 0).val / 400, hN⟩ (1 : Fin 2) * 128 ≤ (i 1).val
      ∧ (i 1).val < win1_7.index ⟨(i 0).val / 400, hN⟩ (1 : Fin 2) * 128 + 128
    rw [e1]; omega

end R1

/-- After the second region the array of `pre1` holds A · xw1 + b1: every point writes back its block of that one
    function, and row `r` lies in the block of point `r / 400`. -/
theorem final1_5 (c : Dev nD) : ((dat1 V c).arrAt 5 cfg1.N : S10000x256.Idx → EReal) = pre1Of V c :=
  (dat1 V c).arrAt_eq_of_cover 5 (pre1Of V c) (fun t _ => R1.flushed5_eq V c t) R1.cover5

/-- Likewise the array of `h1` holds the positive part of `pre1`. -/
theorem final1_6 (c : Dev nD) : ((dat1 V c).arrAt 6 cfg1.N : S10000x256.Idx → EReal) = Spec.relu (pre1Of V c) :=
  (dat1 V c).arrAt_eq_of_cover 6 (Spec.relu (pre1Of V c)) (fun t _ => R1.flushed6_eq V c t) R1.cover6

/-- And the array of `hw2` holds h1 · W2. -/
theorem final1_7 (c : Dev nD) : ((dat1 V c).arrAt 7 cfg1.N : S10000x128.Idx → EReal)
    = Spec.mm (M := 10000) (K := 256) (N := 128) (Spec.relu (pre1Of V c)) (V c main_arg4) :=
  (dat1 V c).arrAt_eq_of_cover 7 (R1.hw2Of V c) (fun t _ => R1.flushed7_eq V c t) R1.cover7

end Cert.KernelIdeal.Val

end
-- ==== Proof.KI.Val2.lean ====
/-
  What the third pallas_call leaves in its two output arrays, at the ideal values, entry by entry:
      pre2 = A · hw2 + b2,   out = pre2 − (log Σ_q exp(pre2 − m) + m),  m the row's maximum,
  with A, hw2 and the bias row the contents of the region's input arrays at entry. Grid point i writes rows
  400·i … 400·i+399 of each output, its lower 200 rows from the adjacency rows the first window holds (block 2·i of
  200 rows) and its upper 200 rows from those the second window holds (block 2·i+1); the maximum and the sum run over
  the 128 entries of one row.
-/
import proofs.«134506_g53876069761532_cont_9to1_m_356_22_alg».proof.Proof.KI.Reg2
import proofs.«134506_g53876069761532_cont_9to1_m_356_22_alg».proof.Proof.Spec
import proofs.«134506_g53876069761532_cont_9to1_m_356_22_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Fr

-- `V`: the contents of the core's buffers when the region is entered, at the ideal values
variable (V : (c : Dev nD) → (b : Ref sig .tc) → Buf (Elt Ideal) ((c : Thread nD τ).loc b))

/-- pre2 as a function of the region's input arrays. -/
abbrev pre2Of (c : Dev nD) : Spec.T 10000 128 :=
  Spec.addRow (Spec.mm (M := 10000) (K := 10000) (N := 128) (V c main_arg1) (V c main_v3_2)) (V c main_v1)

namespace R2

/-! ## Column vectors: a row statistic kept as a column of one entry per row, and spread back over the row -/

section Layout
variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's maximum and a row's sum, as the kernel's reductions along the second axis compute them -/

/-- The index over row `p` with column `k` put back is `(p, k)`. -/
theorem lift_row {m n : ℕ} (h : (⟨2, ![m, n]⟩ : Shape).Reduces [1] ⟨1, ![m]⟩) (p : Fin m) (k : Fin n) :
    h.lift (ix1 p) k = ix2 p k := by
  funext a; apply Fin.ext
  match a with
  | ⟨0, _⟩ => rfl
  | ⟨1, _⟩ => rfl

/-- The pattern the maximum starts from is −∞. -/
theorem ofBits_neg_inf : Ideal.ofBits .f32 0xFF800000#32 = (⊥ : EReal) := by simp [Ideal.ofBits, Ideal.ieee]

/-- The maximum over the second axis, at row `p`: the fold of `max` from −∞ over the row's entries. -/
theorem rowMaxRed_apply {m n : ℕ} (src : FVec Ideal ⟨2, ![m, n]⟩ .f32) (h : (⟨2, ![m, n]⟩ : Shape).Reduces [1] ⟨1, ![m]⟩)
    (hacc : (0xFF800000#32 : BitVec 32) = 0xFF800000#32) (p : Fin m) :
    multiReduction .maximumf [1] ⟨1, ![m]⟩ src 0xFF800000#32 h (.inl rfl) hacc (ix1 p) = Spec.rowMax src p := by
  refine (Ideal.multiReduction_maximumf_single src _ h (.inl rfl) hacc (ix1 p)).trans ?_
  show (Finset.univ : Finset (Fin n)).fold max (Ideal.ofBits .f32 0xFF800000#32) (fun q => src (h.lift (ix1 p) q)) = _
  rw [ofBits_neg_inf]
  unfold Spec.rowMax
  exact congrArg (fun f => (Finset.univ : Finset (Fin n)).fold max ⊥ f) (funext fun q => congrArg src (lift_row h p q))

/-- The sum over the second axis, at row `p`: the sum of the row's entries. -/
theorem rowSumRed_apply {m n : ℕ} (src : FVec Ideal ⟨2, ![m, n]⟩ .f32) (h : (⟨2, ![m, n]⟩ : Shape).Reduces [1] ⟨1, ![m]⟩)
    (hacc : (0x00000000#32 : BitVec 32) = 0x00000000#32) (p : Fin m) :
    multiReduction .add [1] ⟨1, ![m]⟩ src 0x00000000#32 h (.inl rfl) hacc (ix1 p) = ∑ q : Fin n, src (ix2 p q) := by
  refine (Ideal.multiReduction_add_single src _ h (.inl rfl) hacc (ix1 p)).trans ?_
  show ∑ q : Fin n, src (h.lift (ix1 p) q) = _
  exact Finset.sum_congr rfl fun q _ => congrArg src (lift_row h p q)

/-! ## The body's payloads, block by block, as the specification's functions of the loaded blocks -/

section Payloads

variable (hw : Vec Ideal S10000x128 .bf16) (a : Vec Ideal S200x10000 .f32) (b : Vec Ideal S1x128 .f32)

/-- A 200-row slab of pre2: the slab of the adjacency times `hw2`, plus the bias row (the product's operands are
    read as they are: narrowing to bf16 is the identity on the ideal values). -/
theorem pay3_apply (p : Fin 200) (q : Fin 128) :
    k2_pay3 (F := Ideal) hw a b (ix2 p q) = (∑ k : Fin 10000, a (ix2 p k) * hw (ix2 k q)) + b (ix2 0 q) := by
  unfold k2_pay3 k2_pay2
  dsimp only
  rw [addf_apply, PlainDot.matmul_zero_apply dot_S200x10000_S10000x128_S200x128_1_0_0_1_n_n rfl rfl rfl rfl rfl rfl (by rfl) (by rfl),
    broadcastTo_1b_ab_apply, shapeCast_self, shapeCast_self]
  rfl

theorem pay5_apply (p : Fin 200) (q : Fin 128) :
    k2_pay5 (F := Ideal) hw a b (ix2 p q) = (∑ k : Fin 10000, a (ix2 p k) * hw (ix2 k q)) + b (ix2 0 q) := by
  unfold k2_pay5 k2_pay2
  dsimp only
  rw [addf_apply, PlainDot.matmul_zero_apply dot_S200x10000_S10000x128_S200x128_1_0_0_1_n_n rfl rfl rfl rfl rfl rfl (by rfl) (by rfl),
    broadcastTo_1b_ab_apply, shapeCast_self, shapeCast_self]
  rfl

theorem pay3_eq : k2_pay3 (F := Ideal) hw a b = Spec.addRow (Spec.mm (M := 200) (K := 10000) (N := 128) a hw) b := by
  funext j
  rw [eq_ix2 j]
  exact pay3_apply hw a b (j 0) (j 1)

theorem pay5_eq : k2_pay5 (F := Ideal) hw a b = Spec.addRow (Spec.mm (M := 200) (K := 10000) (N := 128) a hw) b := by
  funext j
  rw [eq_ix2 j]
  exact pay5_apply hw a b (j 0) (j 1)

end Payloads

section LogSoftmax

variable (P : FVec Ideal S200x128 .f32)

/-- A slab's row maxima kept as a column. -/
theorem colMax_apply (hacc : (0xFF800000#32 : BitVec 32) = 0xFF800000#32) (p : Fin 200) (u : Fin 1) :
    shapeCast S200x1 (multiReduction .maximumf [1] S200 P 0xFF800000#32 reduces_S200x128_S200 (.inl rfl) hacc) shapeCasts_S200_S200x1 (ix2 p u)
      = Spec.rowMax P p :=
  (shapeCast_a_a1_apply _ shapeCasts_S200_S200x1 p u).trans (rowMaxRed_apply P reduces_S200x128_S200 hacc p)

end LogSoftmax

section LogSoftmax2

variable (P : FVec Ideal S200x128 .f32)

/-- exp(z − m) over a slab, m the row maxima spread back over the rows. -/
theorem expShift_apply (hacc : (0xFF800000#32 : BitVec 32) = 0xFF800000#32) (p : Fin 200) (r : Fin 128) :
    exp (subf P (broadcastTo S200x128 (shapeCast S200x1 (multiReduction .maximumf [1] S200 P 0xFF800000#32 reduces_S200x128_S200 (.inl rfl) hacc) shapeCasts_S200_S200x1) broadcasts_S200x1_S200x128)) (ix2 p r)
      = Ideal.exp (P (ix2 p r) - Spec.rowMax P p) := by
  show Ideal.exp (P (ix2 p r) - broadcastTo S200x128 _ broadcasts_S200x1_S200x128 (ix2 p r)) = _
  rw [broadcastTo_a1_ab_apply, colMax_apply]

/-- log Σ exp(z − m) over a slab's rows, kept as a column. -/
theorem colLse_apply (hacc : (0xFF800000#32 : BitVec 32) = 0xFF800000#32) (hacc0 : (0x00000000#32 : BitVec 32) = 0x00000000#32)
    (p : Fin 200) (u : Fin 1) :
    log (shapeCast S200x1 (multiReduction .add [1] S200 (exp (subf P (broadcastTo S200x128 (shapeCast S200x1 (multiReduction .maximumf [1] S200 P 0xFF800000#32 reduces_S200x128_S200 (.inl rfl) hacc) shapeCasts_S200_S200x1) broadcasts_S200x1_S200x128))) 0x00000000#32 reduces_S200x128_S200 (.inl rfl) hacc0) shapeCasts_S200_S200x1) (ix2 p u)
      = Spec.rowLse P p := by
  show Ideal.log (shapeCast S200x1 _ shapeCasts_S200_S200x1 (ix2 p u)) = _
  rw [shapeCast_a_a1_apply, rowSumRed_apply]
  unfold Spec.rowLse
  exact congrArg Ideal.log (Finset.sum_congr rfl fun r _ => expShift_apply P hacc p r)

end LogSoftmax2

section Payloads2

variable (hw : Vec Ideal S10000x128 .bf16) (a : Vec Ideal S200x10000 .f32) (b : Vec Ideal S1x128 .f32)

/-- The lower slab of the output: the row-wise log-softmax of the lower slab of pre2. -/
theorem pay4_apply (p : Fin 200) (q : Fin 128) :
    k2_pay4 (F := Ideal) hw a b (ix2 p q) = Spec.lsmK (k2_pay3 (F := Ideal) hw a b) (ix2 p q) := by
  unfold k2_pay4
  dsimp only
  generalize k2_pay3 (F := Ideal) hw a b = P
  rw [subf_apply, broadcastTo_a1_ab_apply, addf_apply, colLse_apply, colMax_apply]
  rfl

/-- The upper slab's row maxima, -/
theorem pay6_apply (p : Fin 200) (u : Fin 1) :
    k2_pay6 (F := Ideal) hw a b (ix2 p u) = Spec.rowMax (k2_pay5 (F := Ideal) hw a b) p := by
  unfold k2_pay6
  exact colMax_apply _ rfl p u

/-- its rows' log Σ exp(z − m), -/
theorem pay7_apply (p : Fin 200) (u : Fin 1) :
    k2_pay7 (F := Ideal) hw a b (ix2 p u) = Spec.rowLse (k2_pay5 (F := Ideal) hw a b) p := by
  unfold k2_pay7 k2_pay6
  dsimp only
  exact colLse_apply _ rfl rfl p u

/-- and the upper slab of the output: the row-wise log-softmax of the upper slab of pre2. -/
theorem pay1_apply (p : Fin 200) (q : Fin 128) :
    k2_pay1 (F := Ideal) (k2_pay5 hw a b) (k2_pay6 hw a b) (k2_pay7 hw a b) (ix2 p q) = Spec.lsmK (k2_pay5 (F := Ideal) hw a b) (ix2 p q) := by
  unfold k2_pay1
  rw [subf_apply, broadcastTo_a1_ab_apply, addf_apply, pay7_apply, pay6_apply]
  rfl

theorem pay4_eq : k2_pay4 (F := Ideal) hw a b = Spec.lsmK (Spec.addRow (Spec.mm (M := 200) (K := 10000) (N := 128) a hw) b) := by
  rw [← pay3_eq hw a b]
  funext j
  rw [eq_ix2 j]
  exact pay4_apply hw a b (j 0) (j 1)

theorem pay1_eq : k2_pay1 (F := Ideal) (k2_pay5 hw a b) (k2_pay6 hw a b) (k2_pay7 hw a b)
    = Spec.lsmK (Spec.addRow (Spec.mm (M := 200) (K := 10000) (N := 128) a hw) b) := by
  rw [← pay5_eq hw a b]
  funext j
  rw [eq_ix2 j]
  exact pay1_apply hw a b (j 0) (j 1)

end Payloads2

/-! ## Slabs of rows: the specification's functions commute with taking rows `r0` … `r0 + m − 1` -/

section Slabs

variable {M K N m : ℕ}

/-- Rows `r0` … `r0 + m − 1` of a matrix. -/
def rowsOf (X : Spec.T M N) (r0 : ℕ) (h : r0 + m ≤ M) : Spec.T m N :=
  fun j => X (ix2 ⟨r0 + (j 0).val, by have := idx2_lt0 j; omega⟩ (j 1))

/-- A product's rows are the left factor's rows times the right factor. -/
theorem mm_rowsOf (A : Spec.T M K) (B : Spec.T K N) (r0 : ℕ) (h : r0 + m ≤ M) :
    Spec.mm (rowsOf A r0 h) B = rowsOf (Spec.mm A B) r0 h := rfl

/-- Adding one row to every row commutes with taking rows. -/
theorem addRow_rowsOf (X : Spec.T M N) (b : Spec.T 1 N) (r0 : ℕ) (h : r0 + m ≤ M) :
    Spec.addRow (rowsOf X r0 h) b = rowsOf (Spec.addRow X b) r0 h := rfl

/-- The row-wise log-softmax involves one row at a time, so it commutes with taking rows. -/
theorem lsmK_rowsOf (X : Spec.T M N) (r0 : ℕ) (h : r0 + m ≤ M) :
    Spec.lsmK (rowsOf X r0 h) = rowsOf (Spec.lsmK X) r0 h := rfl

end Slabs

/-! ## A 400-row buffer written as two 200-row slabs -/

theorem hz2 : (![0, 0] : Fin 2 → Nat) = fun _ => 0 := funext fun a => by fin_cases a <;> rfl

/-- A buffer whose rows 0–199 and rows 200–399 are the two slabs of `G` is `G`. -/
theorem canon_two_slabs (f1 f0 : Spec.T 200 128) (G : Spec.T 400 128)
    (hlo : f0 = rowsOf G 0 (by omega)) (hhi : f1 = rowsOf G 200 (by omega)) :
    View.canon (Val := Elt Ideal) (e := .f32) [⟨rHi, f1⟩, ⟨rLo, f0⟩] = G := by
  funext y
  refine View.canon_apply_of_pieces (Val := Elt Ideal) G _ ?_ y (cover2_out (F := Ideal) f1 f0 y)
  intro pc hpc x
  obtain rfl | rfl : pc = ⟨rHi, f1⟩ ∨ pc = ⟨rLo, f0⟩ := by simpa using hpc
  · show f1 x = G (rHi.emb x)
    rw [hhi]
    refine congrArg G (funext fun ax => Fin.ext ?_)
    match ax with
    | ⟨0, _⟩ => show 200 + (x 0).val = 200 + 1 * (x 0).val; omega
    | ⟨1, _⟩ => show (x 1).val = 0 + 1 * (x 1).val; omega
  · show f0 x = G (rLo.emb x)
    rw [hlo]
    refine congrArg G (funext fun ax => Fin.ext ?_)
    match ax with
    | ⟨0, _⟩ => show 0 + (x 0).val = 0 + 1 * (x 0).val; omega
    | ⟨1, _⟩ => show (x 1).val = 0 + 1 * (x 1).val; omega

/-! ## The windows' blocks, read off the arrays -/

/-- The windows' index maps over the 25 points: the two adjacency windows are on blocks 2·t and 2·t + 1 of 200 rows,
    the `hw2` and bias windows stay on block 0, the two output windows are on block t of 400 rows. -/
theorem idx_facts2 : ∀ t : Fin cfg2.N,
    win2_0.index t (0 : Fin 2) = 2 * t.val ∧ win2_0.index t (1 : Fin 2) = 0
    ∧ win2_1.index t (0 : Fin 2) = 2 * t.val + 1 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The first adjacency window's block at point `t`: rows 400·t … 400·t + 199 of the adjacency. -/
theorem iblk2_0_eq (c : Dev nD) (t : Fin cfg2.N) :
    (iblk2 V c 0 t : Spec.T 200 10000) = rowsOf (V c main_arg1 : Spec.T 10000 10000) (400 * t.val) (by have : t.val < 25 := t.isLt; omega) := by
  funext y
  have ht : t.val < 25 := t.isLt
  obtain ⟨e00, e01, e10, e11, e20, e21, e30, e31, e40, e41, e50, e51⟩ := idx_facts2 t
  show V c main_arg1 (((cfg2.win 0).blk t).view.emb y) = V c main_arg1 (ix2 ⟨400 * t.val + (y 0).val, _⟩ (y 1))
  refine congrArg (V c main_arg1) (funext fun ax => Fin.ext ?_)
  match ax with
  | ⟨0, _⟩ => show win2_0.index t (0 : Fin 2) * 200 + 1 * (y 0).val = 400 * t.val + (y 0).val; omega
  | ⟨1, _⟩ => show win2_0.index t (1 : Fin 2) * 10000 + 1 * (y 1).val = (y 1).val; omega
/-- The second adjacency window's block at point `t`: rows 400·t + 200 … 400·t + 399 of the adjacency. -/
theorem iblk2_1_eq (c : Dev nD) (t : Fin cfg2.N) :
    (iblk2 V c 1 t : Spec.T 200 10000) = rowsOf (V c main_arg1 : Spec.T 10000 10000) ((400 * t.val + 200)) (by have : t.val < 25 := t.isLt; omega) := by
  funext y
  have ht : t.val < 25 := t.isLt
  obtain ⟨e00, e01, e10, e11, e20, e21, e30, e31, e40, e41, e50, e51⟩ := idx_facts2 t
  show V c main_arg1 (((cfg2.win 1).blk t).view.emb y) = V c main_arg1 (ix2 ⟨(400 * t.val + 200) + (y 0).val, _⟩ (y 1))
  refine congrArg (V c main_arg1) (funext fun ax => Fin.ext ?_)
  match ax with
  | ⟨0, _⟩ => show win2_1.index t (0 : Fin 2) * 200 + 1 * (y 0).val = (400 * t.val + 200) + (y 0).val; omega
  | ⟨1, _⟩ => show win2_1.index t (1 : Fin 2) * 10000 + 1 * (y 1).val = (y 1).val; omega
/-- The `hw2` window's block is the whole array, at every point. -/
theorem iblk2_2_eq (c : Dev nD) (t : Fin cfg2.N) :
    (iblk2 V c 2 t : Spec.T 10000 128) = (V c main_v3_2 : Spec.T 10000 128) := by
  funext y
  obtain ⟨e00, e01, e10, e11, e20, e21, e30, e31, e40, e41, e50, e51⟩ := idx_facts2 t
  show V c main_v3_2 (((cfg2.win 2).blk t).view.emb y) = V c main_v3_2 y
  refine congrArg (V c main_v3_2) (funext fun ax => Fin.ext ?_)
  match ax with
  | ⟨0, _⟩ => show win2_2.index t (0 : Fin 2) * 10000 + 1 * (y 0).val = (y 0).val; omega
  | ⟨1, _⟩ => show win2_2.index t (1 : Fin 2) * 128 + 1 * (y 1).val = (y 1).val; omega
/-- The bias window's block is the whole row, at every point. -/
theorem iblk2_3_eq (c : Dev nD) (t : Fin cfg2.N) :
    (iblk2 V c 3 t : Spec.T 1 128) = (V c main_v1 : Spec.T 1 128) := by
  funext y
  obtain ⟨e00, e01, e10, e11, e20, e21, e30, e31, e40, e41, e50, e51⟩ := idx_facts2 t
  show V c main_v1 (((cfg2.win 3).blk t).view.emb y) = V c main_v1 y
  refine congrArg (V c main_v1) (funext fun ax => Fin.ext ?_)
  match ax with
  | ⟨0, _⟩ => show win2_3.index t (0 : Fin 2) * 1 + 1 * (y 0).val = (y 0).val; omega
  | ⟨1, _⟩ => show win2_3.index t (1 : Fin 2) * 128 + 1 * (y 1).val = (y 1).val; omega
/-- Output window 4's block at point `t` of a whole-array function: its rows 400·t … 400·t + 399. -/
theorem read_blk2_4 (t : Fin cfg2.N) (G : Spec.T 10000 128) :
    (((cfg2.win 4).blk t).view.read (Elt Ideal) G : Spec.T 400 128) = rowsOf G (400 * t.val) (by have : t.val < 25 := t.isLt; omega) := by
  funext y
  have ht : t.val < 25 := t.isLt
  obtain ⟨e00, e01, e10, e11, e20, e21, e30, e31, e40, e41, e50, e51⟩ := idx_facts2 t
  show G (((cfg2.win 4).blk t).view.emb y) = G (ix2 ⟨400 * t.val + (y 0).val, _⟩ (y 1))
  refine congrArg G (funext fun ax => Fin.ext ?_)
  match ax with
  | ⟨0, _⟩ => show win2_4.index t (0 : Fin 2) * 400 + 1 * (y 0).val = 400 * t.val + (y 0).val; omega
  | ⟨1, _⟩ => show win2_4.index t (1 : Fin 2) * 128 + 1 * (y 1).val = (y 1).val; omega
/-- Output window 5's block at point `t` of a whole-array function: its rows 400·t … 400·t + 399. -/
theorem read_blk2_5 (t : Fin cfg2.N) (G : Spec.T 10000 128) :
    (((cfg2.win 5).blk t).view.read (Elt Ideal) G : Spec.T 400 128) = rowsOf G (400 * t.val) (by have : t.val < 25 := t.isLt; omega) := by
  funext y
  have ht : t.val < 25 := t.isLt
  obtain ⟨e00, e01, e10, e11, e20, e21, e30, e31, e40, e41, e50, e51⟩ := idx_facts2 t
  show G (((cfg2.win 5).blk t).view.emb y) = G (ix2 ⟨400 * t.val + (y 0).val, _⟩ (y 1))
  refine congrArg G (funext fun ax => Fin.ext ?_)
  match ax with
  | ⟨0, _⟩ => show win2_5.index t (0 : Fin 2) * 400 + 1 * (y 0).val = 400 * t.val + (y 0).val; omega
  | ⟨1, _⟩ => show win2_5.index t (1 : Fin 2) * 128 + 1 * (y 1).val = (y 1).val; omega

/-- Rows of rows. -/
theorem rowsOf_rowsOf {M N m m' : ℕ} (X : Spec.T M N) (r0 r1 : ℕ) (h : r0 + m ≤ M) (h' : r1 + m' ≤ m) :
    rowsOf (rowsOf X r0 h) r1 h' = rowsOf X (r0 + r1) (by omega) := by
  funext j
  refine congrArg X (funext fun ax => Fin.ext ?_)
  match ax with
  | ⟨0, _⟩ => show r0 + (r1 + (j 0).val) = r0 + r1 + (j 0).val; omega
  | ⟨1, _⟩ => rfl

/-- A slab of pre2 from a slab of the adjacency. -/
theorem slab_pre2 (A : Spec.T 10000 10000) (HW : Spec.T 10000 128) (B : Spec.T 1 128) (a : Spec.T 200 10000) (hw : Spec.T 10000 128)
    (b : Spec.T 1 128) (r0 : ℕ) (h : r0 + 200 ≤ 10000) (ha : a = rowsOf A r0 h) (hhw : hw = HW) (hb : b = B) :
    Spec.addRow (Spec.mm a hw) b = rowsOf (Spec.addRow (Spec.mm A HW) B) r0 h := by
  subst ha hhw hb; rfl

/-- WHAT POINT `t` WRITES BACK to the `pre2` array is block `t` of pre2 of the input arrays. -/
theorem flushed2_4_eq (c : Dev nD) (t : Fin cfg2.N) :
    (dat2 V c).flushed 4 t = ((cfg2.win 4).blk t).view.read (Elt Ideal) (pre2Of V c) := by
  have ht : t.val < 25 := t.isLt
  show (cfg2.win 4).cut (grid2.coords t) ((dat2 V c).after 4 t) = _
  rw [after2_4]
  refine Eq.trans ?_ (read_blk2_4 t (pre2Of V c)).symm
  show out2_4 (iblk2 V c 0 t) (iblk2 V c 1 t) (iblk2 V c 2 t) (iblk2 V c 3 t) = _
  unfold out2_4
  simp only [View.ld_unit_zero (S := S10000x128) hz2, View.ld_unit_zero (S := S200x10000) hz2, View.ld_unit_zero (S := S1x128) hz2]
  rw [pay3_eq, pay5_eq]
  refine canon_two_slabs _ _ _ ?_ ?_
  · rw [rowsOf_rowsOf]
    exact slab_pre2 _ _ _ _ _ _ _ _ (iblk2_0_eq V c t) (iblk2_2_eq V c t) (iblk2_3_eq V c t)
  · rw [rowsOf_rowsOf]
    exact slab_pre2 _ _ _ _ _ _ _ _ (iblk2_1_eq V c t) (iblk2_2_eq V c t) (iblk2_3_eq V c t)

/-- WHAT POINT `t` WRITES BACK to the output array is block `t` of the row-wise log-softmax of pre2. -/
theorem flushed2_5_eq (c : Dev nD) (t : Fin cfg2.N) :
    (dat2 V c).flushed 5 t = ((cfg2.win 5).blk t).view.read (Elt Ideal) (Spec.lsmK (pre2Of V c)) := by
  have ht : t.val < 25 := t.isLt
  show (cfg2.win 5).cut (grid2.coords t) ((dat2 V c).after 5 t) = _
  rw [after2_5]
  refine Eq.trans ?_ (read_blk2_5 t (Spec.lsmK (pre2Of V c))).symm
  show out2_5 (iblk2 V c 0 t) (iblk2 V c 1 t) (iblk2 V c 2 t) (iblk2 V c 3 t) = _
  unfold out2_5
  simp only [View.ld_unit_zero (S := S10000x128) hz2, View.ld_unit_zero (S := S200x10000) hz2, View.ld_unit_zero (S := S1x128) hz2]
  rw [pay4_eq, pay1_eq]
  refine canon_two_slabs _ _ _ ?_ ?_
  · rw [rowsOf_rowsOf, ← lsmK_rowsOf]
    exact congrArg Spec.lsmK (slab_pre2 _ _ _ _ _ _ _ _ (iblk2_0_eq V c t) (iblk2_2_eq V c t) (iblk2_3_eq V c t))
  · rw [rowsOf_rowsOf, ← lsmK_rowsOf]
    exact congrArg Spec.lsmK (slab_pre2 _ _ _ _ _ _ _ _ (iblk2_1_eq V c t) (iblk2_2_eq V c t) (iblk2_3_eq V c t))

/-- An index of the array is in point `t`'s block iff each coordinate is in the block's range on its axis. -/
theorem mem_blk2_4 (t : Fin cfg2.N) (i : S10000x128.Idx) :
    i ∈ ((cfg2.win 4).blk t).view.set ↔ ∀ a : Fin 2, win2_4.index t a * S400x128.size a ≤ (i a).val ∧ (i a).val < win2_4.index t a * S400x128.size a + S400x128.size a := by
  show i ∈ ((View.whole main_v4_0).slice (win2_4.rect t)).set ↔ _
  rw [View.set_slice_whole, Rect.mem_set_unit]
  exact Iff.rfl

/-- Row r of the array is in the block of point r / 400. -/
theorem cover2_4 (i : S10000x128.Idx) : ∃ t : Fin cfg2.N, (cfg2.win 4).flush t = true ∧ i ∈ ((cfg2.win 4).blk t).view.set := by
  have hi0 : (i 0).val < 10000 := (i 0).isLt
  have hi1 : (i 1).val < 128 := (i 1).isLt
  obtain ⟨t, ht⟩ : ∃ t : Fin cfg2.N, t.val = (i 0).val / 400 := ⟨⟨(i 0).val / 400, by show _ < 25; omega⟩, rfl⟩
  obtain ⟨e00, e01, e10, e11, e20, e21, e30, e31, e40, e41, e50, e51⟩ := idx_facts2 t
  refine ⟨t, flush2_4 t, ?_⟩
  rw [mem_blk2_4]
  intro a
  match a with
  | ⟨0, _⟩ => show win2_4.index t (0 : Fin 2) * 400 ≤ (i 0).val ∧ (i 0).val < win2_4.index t (0 : Fin 2) * 400 + 400; omega
  | ⟨1, _⟩ => show win2_4.index t (1 : Fin 2) * 128 ≤ (i 1).val ∧ (i 1).val < win2_4.index t (1 : Fin 2) * 128 + 128; omega
/-- An index of the array is in point `t`'s block iff each coordinate is in the block's range on its axis. -/
theorem mem_blk2_5 (t : Fin cfg2.N) (i : S10000x128.Idx) :
    i ∈ ((cfg2.win 5).blk t).view.set ↔ ∀ a : Fin 2, win2_5.index t a * S400x128.size a ≤ (i a).val ∧ (i a).val < win2_5.index t a * S400x128.size a + S400x128.size a := by
  show i ∈ ((View.whole main_v4_1).slice (win2_5.rect t)).set ↔ _
  rw [View.set_slice_whole, Rect.mem_set_unit]
  exact Iff.rfl

/-- Row r of the array is in the block of point r / 400. -/
theorem cover2_5 (i : S10000x128.Idx) : ∃ t : Fin cfg2.N, (cfg2.win 5).flush t = true ∧ i ∈ ((cfg2.win 5).blk t).view.set := by
  have hi0 : (i 0).val < 10000 := (i 0).isLt
  have hi1 : (i 1).val < 128 := (i 1).isLt
  obtain ⟨t, ht⟩ : ∃ t : Fin cfg2.N, t.val = (i 0).val / 400 := ⟨⟨(i 0).val / 400, by show _ < 25; omega⟩, rfl⟩
  obtain ⟨e00, e01, e10, e11, e20, e21, e30, e31, e40, e41, e50, e51⟩ := idx_facts2 t
  refine ⟨t, flush2_5 t, ?_⟩
  rw [mem_blk2_5]
  intro a
  match a with
  | ⟨0, _⟩ => show win2_5.index t (0 : Fin 2) * 400 ≤ (i 0).val ∧ (i 0).val < win2_5.index t (0 : Fin 2) * 400 + 400; omega
  | ⟨1, _⟩ => show win2_5.index t (1 : Fin 2) * 128 ≤ (i 1).val ∧ (i 1).val < win2_5.index t (1 : Fin 2) * 128 + 128; omega

end R2

/-- The `pre2` array after the run: every row is in some point's block, and each point writes back its block of pre2. -/
theorem final2_4 (c : Dev nD) : ((dat2 V c).arrAt 4 cfg2.N : S10000x128.Idx → EReal) = pre2Of V c :=
  (dat2 V c).arrAt_eq_of_cover 4 (pre2Of V c) (fun t _ => R2.flushed2_4_eq V c t) R2.cover2_4

/-- The output array after the run: the row-wise log-softmax of pre2. -/
theorem final2_5 (c : Dev nD) : ((dat2 V c).arrAt 5 cfg2.N : S10000x128.Idx → EReal) = Spec.lsmK (pre2Of V c) :=
  (dat2 V c).arrAt_eq_of_cover 5 (Spec.lsmK (pre2Of V c)) (fun t _ => R2.flushed2_5_eq V c t) R2.cover2_5

end Cert.KernelIdeal.Val

end
-- ==== Proof.KI.Value.lean ====
/-
  The idealized kernel's five results as functions of its six arguments. The run ends with every unscoped buffer at
  the last valuation; walking that valuation back through the three regions — each region's outputs the
  specification's functions of the region's inputs, each region's inputs the arguments, the host's one-row bias
  matrices, or an earlier region's outputs — gives
      pre1 = A · (x · W1) + b1,   h1 = max(pre1, 0),   pre2 = A · (h1 · W2) + b2,   out = pre2 − (L + m) by rows,
  and the arguments as launched.
-/
import proofs.«134506_g53876069761532_cont_9to1_m_356_22_alg».proof.Proof.KI.Run
import proofs.«134506_g53876069761532_cont_9to1_m_356_22_alg».proof.Proof.KI.Val0
import proofs.«134506_g53876069761532_cont_9to1_m_356_22_alg».proof.Proof.KI.Val1
import proofs.«134506_g53876069761532_cont_9to1_m_356_22_alg».proof.Proof.KI.Val2
import Idealize.ShloMosaic.Lib.StableHlo.Run
import proofs.«134506_g53876069761532_cont_9to1_m_356_22_alg».proof.Proof.Spec
import proofs.«134506_g53876069761532_cont_9to1_m_356_22_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Fr

variable (m : (ℓ : Loc nD τ sig) → Buf (Elt Ideal) ℓ)

/-- The six arguments as launched, on core `c`, as matrices and vectors of extended reals. -/
abbrev ax (c : Dev nD) : Spec.T 10000 256 := (m ((c : Thread nD τ).loc main_arg0))
abbrev aadj (c : Dev nD) : Spec.T 10000 10000 := (m ((c : Thread nD τ).loc main_arg1))
abbrev aW1 (c : Dev nD) : Spec.T 256 256 := (m ((c : Thread nD τ).loc main_arg2))
abbrev ab1 (c : Dev nD) : Spec.T1 256 := (m ((c : Thread nD τ).loc main_arg3))
abbrev aW2 (c : Dev nD) : Spec.T 256 128 := (m ((c : Thread nD τ).loc main_arg4))
abbrev ab2 (c : Dev nD) : Spec.T1 128 := (m ((c : Thread nD τ).loc main_arg5))

/-! ## The contents the first region is entered at -/

theorem E0_arg0 (c : Dev nD) : E0 m c main_arg0 = (m ((c : Thread nD τ).loc main_arg0)) := V1_of m c main_arg0 (by decide)
theorem E0_arg1 (c : Dev nD) : E0 m c main_arg1 = (m ((c : Thread nD τ).loc main_arg1)) := V1_of m c main_arg1 (by decide)
theorem E0_arg2 (c : Dev nD) : E0 m c main_arg2 = (m ((c : Thread nD τ).loc main_arg2)) := V1_of m c main_arg2 (by decide)
theorem E0_arg4 (c : Dev nD) : E0 m c main_arg4 = (m ((c : Thread nD τ).loc main_arg4)) := V1_of m c main_arg4 (by decide)

/-- The host lays the first bias vector out as a one-row matrix. -/
theorem E0_v0 (c : Dev nD) : (E0 m c main_v0 : S1x256.Idx → EReal) = Spec.rowOf (ab1 m c) := by
  have e : (V1 m c main_v0 : S1x256.Idx → EReal) = shapeCast S1x256 (ab1 m c) shapeCasts_S256_S1x256 := by
    dsimp only [V1, V0, hostOps0]; after_results; rfl
  show (V1 m c main_v0 : S1x256.Idx → EReal) = _
  rw [e]
  funext j
  obtain ⟨u, q, rfl⟩ : ∃ (u : Fin 1) (q : Fin 256), j = ix2 u q := ⟨j 0, j 1, eq_ix2 j⟩
  exact shapeCast_a_1a_apply (ab1 m c) shapeCasts_S256_S1x256 u q

/-- The host lays the second bias vector out as a one-row matrix. -/
theorem E0_v1 (c : Dev nD) : (E0 m c main_v1 : S1x128.Idx → EReal) = Spec.rowOf (ab2 m c) := by
  have e : (V1 m c main_v1 : S1x128.Idx → EReal) = shapeCast S1x128 (ab2 m c) shapeCasts_S128_S1x128 := by
    dsimp only [V1, V0, hostOps0]; after_results; rfl
  show (V1 m c main_v1 : S1x128.Idx → EReal) = _
  rw [e]
  funext j
  obtain ⟨u, q, rfl⟩ : ∃ (u : Fin 1) (q : Fin 128), j = ix2 u q := ⟨j 0, j 1, eq_ix2 j⟩
  exact shapeCast_a_1a_apply (ab2 m c) shapeCasts_S128_S1x128 u q

/-! ## The contents the second region is entered at -/

theorem E1_arg1 (c : Dev nD) : E1 m c main_arg1 = (m ((c : Thread nD τ).loc main_arg1)) := (X2_of m c main_arg1 (by decide)).trans (E0_arg1 m c)
theorem E1_arg4 (c : Dev nD) : E1 m c main_arg4 = (m ((c : Thread nD τ).loc main_arg4)) := (X2_of m c main_arg4 (by decide)).trans (E0_arg4 m c)
theorem E1_v0 (c : Dev nD) : (E1 m c main_v0 : S1x256.Idx → EReal) = Spec.rowOf (ab1 m c) :=
  (X2_of m c main_v0 (by decide)).trans (E0_v0 m c)
theorem E1_v1 (c : Dev nD) : (E1 m c main_v1 : S1x128.Idx → EReal) = Spec.rowOf (ab2 m c) :=
  (X2_of m c main_v1 (by decide)).trans (E0_v1 m c)
/-- The first region's product. -/
theorem E1_v2 (c : Dev nD) : (E1 m c main_v2 : S10000x256.Idx → EReal) = Spec.mm (ax m c) (aW1 m c) := by
  refine (X2_v2 m c).trans ((final0_2 (E0 m) c).trans ?_)
  rw [E0_arg0, E0_arg2]

/-- The second region's `pre1` is the specification's. -/
theorem pre1_eq (c : Dev nD) : pre1Of (E1 m) c = Spec.pre1 (ax m c) (aadj m c) (aW1 m c) (ab1 m c) := by
  unfold pre1Of Spec.pre1
  rw [E1_arg1, E1_v2, E1_v0]

/-! ## The contents the third region is entered at -/

theorem E2_arg1 (c : Dev nD) : E2 m c main_arg1 = (m ((c : Thread nD τ).loc main_arg1)) :=
  (X3_of m c main_arg1 (by decide) (by decide) (by decide)).trans (E1_arg1 m c)
theorem E2_v1 (c : Dev nD) : (E2 m c main_v1 : S1x128.Idx → EReal) = Spec.rowOf (ab2 m c) :=
  (X3_of m c main_v1 (by decide) (by decide) (by decide)).trans (E1_v1 m c)
/-- The second region's `hw2`. -/
theorem E2_v3_2 (c : Dev nD) : (E2 m c main_v3_2 : S10000x128.Idx → EReal)
    = Spec.mm (Spec.h1 (ax m c) (aadj m c) (aW1 m c) (ab1 m c)) (aW2 m c) := by
  refine (X3_v3_2 m c).trans ((final1_7 (E1 m) c).trans ?_)
  rw [pre1_eq, E1_arg4]
  rfl

/-- The third region's `pre2` is the specification's. -/
theorem pre2_eq (c : Dev nD) : pre2Of (E2 m) c = Spec.pre2 (ax m c) (aadj m c) (aW1 m c) (ab1 m c) (aW2 m c) (ab2 m c) := by
  unfold pre2Of Spec.pre2
  rw [E2_arg1, E2_v3_2, E2_v1]

/-! ## The five results and the six arguments at the end -/

theorem X4_v3_0 (c : Dev nD) : (X4 m c main_v3_0 : S10000x256.Idx → EReal) = Spec.pre1 (ax m c) (aadj m c) (aW1 m c) (ab1 m c) :=
  (X4_of m c main_v3_0 (by decide) (by decide)).trans ((X3_v3_0 m c).trans ((final1_5 (E1 m) c).trans (pre1_eq m c)))
theorem X4_v3_1 (c : Dev nD) : (X4 m c main_v3_1 : S10000x256.Idx → EReal) = Spec.h1 (ax m c) (aadj m c) (aW1 m c) (ab1 m c) := by
  refine (X4_of m c main_v3_1 (by decide) (by decide)).trans ((X3_v3_1 m c).trans ((final1_6 (E1 m) c).trans ?_))
  rw [pre1_eq]; rfl
theorem X4_v4_0' (c : Dev nD) : (X4 m c main_v4_0 : S10000x128.Idx → EReal) = Spec.pre2 (ax m c) (aadj m c) (aW1 m c) (ab1 m c) (aW2 m c) (ab2 m c) :=
  (X4_v4_0 m c).trans ((final2_4 (E2 m) c).trans (pre2_eq m c))
theorem X4_v4_1' (c : Dev nD) : (X4 m c main_v4_1 : S10000x128.Idx → EReal) = Spec.lsmK (Spec.pre2 (ax m c) (aadj m c) (aW1 m c) (ab1 m c) (aW2 m c) (ab2 m c)) := by
  refine (X4_v4_1 m c).trans ((final2_5 (E2 m) c).trans ?_)
  rw [pre2_eq]

/-- THE VALUE RUN of the idealized kernel: every weakly fair execution terminates, the five results at the
    specification's functions of the launch contents of the arguments, the arguments unchanged. -/
theorem run_value (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v3_0) : S10000x256.Idx → EReal) = Spec.pre1 (ax m c) (aadj m c) (aW1 m c) (ab1 m c)
      ∧ (r.2.mem ((c.tc : Thread nD τ).loc main_v4_0) : S10000x128.Idx → EReal) = Spec.pre2 (ax m c) (aadj m c) (aW1 m c) (ab1 m c) (aW2 m c) (ab2 m c)
      ∧ (r.2.mem ((c.tc : Thread nD τ).loc main_v3_1) : S10000x256.Idx → EReal) = Spec.h1 (ax m c) (aadj m c) (aW1 m c) (ab1 m c)
      ∧ (r.2.mem ((c.tc : Thread nD τ).loc main_v4_1) : S10000x128.Idx → EReal) = Spec.lsmK (Spec.pre2 (ax m c) (aadj m c) (aW1 m c) (ab1 m c) (aW2 m c) (ab2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v3_0 (by decide))).trans (X4_v3_0 m c),
     (h c _ (mem_uc main_v4_0 (by decide))).trans (X4_v4_0' m c),
     (h c _ (mem_uc main_v3_1 (by decide))).trans (X4_v3_1 m c),
     (h c _ (mem_uc main_v4_1 (by decide))).trans (X4_v4_1' m c),
     (h c _ (mem_uc main_arg0 (by decide))).trans (X4_arg m c main_arg0 (by decide) (by decide) (by decide) (by decide) (by decide) (by decide) (by decide)),
     (h c _ (mem_uc main_arg1 (by decide))).trans (X4_arg m c main_arg1 (by decide) (by decide) (by decide) (by decide) (by decide) (by decide) (by decide)),
     (h c _ (mem_uc main_arg2 (by decide))).trans (X4_arg m c main_arg2 (by decide) (by decide) (by decide) (by decide) (by decide) (by decide) (by decide)),
     (h c _ (mem_uc main_arg3 (by decide))).trans (X4_arg m c main_arg3 (by decide) (by decide) (by decide) (by decide) (by decide) (by decide) (by decide)),
     (h c _ (mem_uc main_arg4 (by decide))).trans (X4_arg m c main_arg4 (by decide) (by decide) (by decide) (by decide) (by decide) (by decide) (by decide)),
     (h c _ (mem_uc main_arg5 (by decide))).trans (X4_arg m c main_arg5 (by decide) (by decide) (by decide) (by decide) (by decide) (by decide) (by decide))⟩)
    (run_main (F := Ideal) m ρ)

end Cert.KernelIdeal.Val

end
-- ==== Proof.RefSide.lean ====
/-
  The reference program's results as functions of its arguments, at the ideal values: its run ends with
      pre1 = A · (x · W1) + b1,   h1 = max(pre1, 0),   pre2 = A · (h1 · W2) + b2,   out = (pre2 − m) − log Σ exp(pre2 − m)
  in its result buffers and its arguments unchanged.
-/
import proofs.«134506_g53876069761532_cont_9to1_m_356_22_alg».proof.Proof.RefRun
import proofs.«134506_g53876069761532_cont_9to1_m_356_22_alg».proof.Proof.RefRead
import proofs.«134506_g53876069761532_cont_9to1_m_356_22_alg».proof.Proof.Spec
import proofs.«134506_g53876069761532_cont_9to1_m_356_22_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.ReferenceIdeal.RefValue

open Idealize.ShloMosaic Idealize.ShloMosaic.TcCoe Idealize.ShloMosaic.ValueIdx
open Idealize.SL.Sem
open Idealize.ShloMosaic.Pipeline (Dat)
open Cert.ReferenceIdeal Cert.ReferenceIdeal.Gen Cert.ReferenceIdeal.Value

open Cert.ReferenceIdeal.Read

/-! ## The index functions of the reads, at an index given by its coordinates

Each operand index the reads compute from a result index (p, q) and a contraction coordinate k is the index with
the coordinates one expects: row p and column k on the left of a product, row k and column q on its right; a bias
is read at column q; a row's statistic at row p. -/

theorem lidx_v0_ix2 (p : Fin 10000) (q : Fin 256) (k : Fin 256) : lidx_main_v0 (ix2 p q) k = ix2 p k := funext fun a => Fin.ext (by match a with | ⟨0, _⟩ => rfl | ⟨1, _⟩ => rfl)
theorem ridx_v0_ix2 (p : Fin 10000) (q : Fin 256) (k : Fin 256) : ridx_main_v0 (ix2 p q) k = ix2 k q := funext fun a => Fin.ext (by match a with | ⟨0, _⟩ => rfl | ⟨1, _⟩ => rfl)
theorem lidx_v1_ix2 (p : Fin 10000) (q : Fin 256) (k : Fin 10000) : lidx_main_v1 (ix2 p q) k = ix2 p k := funext fun a => Fin.ext (by match a with | ⟨0, _⟩ => rfl | ⟨1, _⟩ => rfl)
theorem ridx_v1_ix2 (p : Fin 10000) (q : Fin 256) (k : Fin 10000) : ridx_main_v1 (ix2 p q) k = ix2 k q := funext fun a => Fin.ext (by match a with | ⟨0, _⟩ => rfl | ⟨1, _⟩ => rfl)
theorem idx_v2_v3_ix2 (p : Fin 10000) (q : Fin 256) : idx_main_v2 (idx_main_v3 (ix2 p q)) = ix1 q := funext fun a => Fin.ext (by match a with | ⟨0, _⟩ => rfl)
theorem lidx_v6_ix2 (p : Fin 10000) (q : Fin 128) (k : Fin 256) : lidx_main_v6 (ix2 p q) k = ix2 p k := funext fun a => Fin.ext (by match a with | ⟨0, _⟩ => rfl | ⟨1, _⟩ => rfl)
theorem ridx_v6_ix2 (p : Fin 10000) (q : Fin 128) (k : Fin 256) : ridx_main_v6 (ix2 p q) k = ix2 k q := funext fun a => Fin.ext (by match a with | ⟨0, _⟩ => rfl | ⟨1, _⟩ => rfl)
theorem lidx_v7_ix2 (p : Fin 10000) (q : Fin 128) (k : Fin 10000) : lidx_main_v7 (ix2 p q) k = ix2 p k := funext fun a => Fin.ext (by match a with | ⟨0, _⟩ => rfl | ⟨1, _⟩ => rfl)
theorem ridx_v7_ix2 (p : Fin 10000) (q : Fin 128) (k : Fin 10000) : ridx_main_v7 (ix2 p q) k = ix2 k q := funext fun a => Fin.ext (by match a with | ⟨0, _⟩ => rfl | ⟨1, _⟩ => rfl)
theorem idx_v8_v9_ix2 (p : Fin 10000) (q : Fin 128) : idx_main_v8 (idx_main_v9 (ix2 p q)) = ix1 q := funext fun a => Fin.ext (by match a with | ⟨0, _⟩ => rfl)
theorem idx_c3_c4_ix2 (p : Fin 10000) (q : Fin 128) : idx_main_call1_v3 (idx_main_call1_v4 (ix2 p q)) = ix1 p := funext fun a => Fin.ext (by match a with | ⟨0, _⟩ => rfl)
theorem idx_c8_c10_ix2 (p : Fin 10000) (q : Fin 128) : idx_main_call1_v8 (idx_main_call1_v10 (ix2 p q)) = ix1 p := funext fun a => Fin.ext (by match a with | ⟨0, _⟩ => rfl)
theorem idx_c7_ix1 (p : Fin 10000) (k : Fin 128) : idx_main_call1_v7 (ix1 p) k = ix2 p k := funext fun a => Fin.ext (by match a with | ⟨0, _⟩ => rfl | ⟨1, _⟩ => rfl)

/-! ## The first layer -/

/-- A · (x · W1) + b1, entry by entry: the two products are the sums over the contracted coordinate, the bias is
read at the column. -/
theorem v4_eq (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) :
    (val_main_v4 (F := Ideal) x0 x1 x2 x3 : S10000x256.Idx → EReal)
      = Spec.pre1 (Nn := 10000) (D := 256) (H := 256) x0 x1 x2 x3 := by
  funext i
  obtain ⟨p, q, rfl⟩ : ∃ p q, i = ix2 p q := ⟨i 0, i 1, eq_ix2 i⟩
  rw [val_main_v4_apply, val_main_v1_apply, val_main_v3_apply, val_main_v2_apply]
  simp only [val_main_v0_apply, lidx_v0_ix2, ridx_v0_ix2, lidx_v1_ix2, ridx_v1_ix2, idx_v2_v3_ix2, Ideal.addf_def]
  rfl

/-- The positive part: the maximum with the zero constant spread over the matrix. -/
theorem v5_eq (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) :
    (val_main_v5 (F := Ideal) x0 x1 x2 x3 : S10000x256.Idx → EReal)
      = Spec.h1 (Nn := 10000) (D := 256) (H := 256) x0 x1 x2 x3 := by
  funext i
  rw [val_main_v5_apply, v4_eq, val_main_call0_v0_apply, val_main_call0_cst_apply]
  simp only [Ideal.maximumf_def, Ideal.ofBits_def, Ideal.ofBits_zero_f32]
  rfl

/-! ## The second layer -/

/-- A · (h1 · W2) + b2, entry by entry, the first layer's result kept as one matrix. -/
theorem v10_eq (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) :
    (val_main_v10 (F := Ideal) x0 x1 x2 x3 x4 x5 : S10000x128.Idx → EReal)
      = Spec.pre2 (Nn := 10000) (D := 256) (H := 256) (C := 128) x0 x1 x2 x3 x4 x5 := by
  funext i
  obtain ⟨p, q, rfl⟩ : ∃ p q, i = ix2 p q := ⟨i 0, i 1, eq_ix2 i⟩
  rw [val_main_v10_apply, val_main_v7_apply, val_main_v9_apply, val_main_v8_apply]
  simp only [val_main_v6_apply, v5_eq, lidx_v6_ix2, ridx_v6_ix2, lidx_v7_ix2, ridx_v7_ix2, idx_v8_v9_ix2, Ideal.addf_def]
  rfl

/-! ## The row-wise log-softmax -/

/-- The bit pattern of −∞ denotes the least extended real. -/
theorem ofBits_ninf : Ideal.ofBits .f32 0xFF800000#32 = (⊥ : EReal) := by simp [Ideal.ofBits, Ideal.ieee]

/-- The row index p with the column k put back is (p, k). -/
theorem lift_ix2 (h : S10000x128.Reduces [1] S10000) (p : Fin 10000) (k : Fin (S10000x128.size 1)) :
    h.lift (ix1 p) k = ix2 p (⟨k.val, k.isLt⟩ : Fin 128) := by
  funext c; apply Fin.ext
  fin_cases c <;> rfl

/-- Reducing a matrix over its columns with the maximum, from −∞, gives at row p the maximum of that row: the
reduction over one axis is the fold over that axis's coordinates, and −∞ is the starting value of both. -/
theorem reduce_max_row (z : S10000x128.Idx → Ideal .f32) (h' : S10000x128.ReducesTo [1] S10000) (hu : 0 < S_.numel)
    (p : Fin 10000) :
    Host.reduce FloatOps.maximumf z (constant S_ .f32 0xFF800000#32) h' hu (ix1 p) = Spec.rowMax z p := by
  have h : S10000x128.Reduces [1] S10000 := by decide
  rw [Host.reduce_eq_fold_single FloatOps.maximumf z _ h' h hu]
  have hf : (z ∘ h.lift (ix1 p)) = fun q : Fin 128 => z (ix2 p q) := funext fun k => congrArg z (lift_ix2 h p k)
  show Finset.fold max (Ideal.ofBits .f32 0xFF800000#32) (z ∘ h.lift (ix1 p)) (Finset.univ : Finset (Fin 128))
      = Finset.fold max ⊥ (fun q => z (ix2 p q)) Finset.univ
  rw [hf, ofBits_ninf]
  rfl

/-- The reduce-max of the second layer's result, read at row p, is that row's maximum. -/
theorem c0_eq (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (p : Fin 10000) :
    val_main_call1_v0 (F := Ideal) x0 x1 x2 x3 x4 x5 (ix1 p)
      = Spec.rowMax (val_main_v10 (F := Ideal) x0 x1 x2 x3 x4 x5 : S10000x128.Idx → EReal) p := by
  unfold val_main_call1_v0 val_main_call1_cst
  exact reduce_max_row _ _ _ p

/-- z − m at an entry, z the second layer's result kept as one matrix and m its row's maximum: the spread of the
row maxima over the matrix is read back at the row, and the further maximum with −∞ changes nothing. -/
theorem c5_eq (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (p : Fin 10000) (q : Fin 128) :
    val_main_call1_v5 (F := Ideal) x0 x1 x2 x3 x4 x5 (ix2 p q)
      = (val_main_v10 (F := Ideal) x0 x1 x2 x3 x4 x5 : S10000x128.Idx → EReal) (ix2 p q) - Spec.rowMax (val_main_v10 (F := Ideal) x0 x1 x2 x3 x4 x5 : S10000x128.Idx → EReal) p := by
  rw [val_main_call1_v5_apply, val_main_call1_v4_apply, val_main_call1_v3_apply, val_main_call1_v2_apply,
    idx_c3_c4_ix2, val_main_call1_v1_apply, val_main_call1_cst_0_apply, c0_eq]
  generalize val_main_v10 (F := Ideal) x0 x1 x2 x3 x4 x5 = z
  simp only [Ideal.subf_def, Ideal.maximumf_def, Ideal.ofBits_def, ofBits_ninf, max_bot_left]

/-- Σ exp(z − m) over a row: the sum starts from 0 and runs over the row's columns. -/
theorem c7_eq (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (p : Fin 10000) :
    val_main_call1_v7 (F := Ideal) x0 x1 x2 x3 x4 x5 (ix1 p)
      = ∑ k : Fin 128, Ideal.exp ((val_main_v10 (F := Ideal) x0 x1 x2 x3 x4 x5 : S10000x128.Idx → EReal) (ix2 p k) - Spec.rowMax (val_main_v10 (F := Ideal) x0 x1 x2 x3 x4 x5 : S10000x128.Idx → EReal) p) := by
  have e : ∀ k : Fin 128, val_main_call1_v6 (F := Ideal) x0 x1 x2 x3 x4 x5 (idx_main_call1_v7 (ix1 p) k)
      = Ideal.exp ((val_main_v10 (F := Ideal) x0 x1 x2 x3 x4 x5 : S10000x128.Idx → EReal) (ix2 p k) - Spec.rowMax (val_main_v10 (F := Ideal) x0 x1 x2 x3 x4 x5 : S10000x128.Idx → EReal) p) := by
    intro k
    rw [idx_c7_ix1, val_main_call1_v6_apply, c5_eq]
    exact Ideal.hostUnary_exp_def _
  rw [val_main_call1_v7_apply, val_main_call1_cst_1_apply, Finset.sum_congr rfl (fun k _ => e k)]
  generalize val_main_v10 (F := Ideal) x0 x1 x2 x3 x4 x5 = z
  rw [Ideal.ofBits_def, Ideal.ofBits_zero_f32, zero_add]

/-- (z − m) − log Σ exp(z − m) by rows, z the second layer's result kept as one matrix: the spread of the row's
logarithm over the row is read back at the row. -/
theorem v11_eq (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) :
    (val_main_v11 (F := Ideal) x0 x1 x2 x3 x4 x5 : S10000x128.Idx → EReal)
      = Spec.lsmR (val_main_v10 (F := Ideal) x0 x1 x2 x3 x4 x5 : S10000x128.Idx → EReal) := by
  funext i
  obtain ⟨p, q, rfl⟩ : ∃ p q, i = ix2 p q := ⟨i 0, i 1, eq_ix2 i⟩
  rw [val_main_v11_apply, c5_eq, val_main_call1_v10_apply, val_main_call1_v9_apply, val_main_call1_v8_apply,
    idx_c8_c10_ix2, c7_eq]
  generalize val_main_v10 (F := Ideal) x0 x1 x2 x3 x4 x5 = z
  rw [Ideal.subf_def, Ideal.hostUnary_log_def]
  rfl

/-! ## The run

Each result buffer ends at the composed term of the launch contents; that term is the stage's function, and the
stage's function is the specification's, so the two are chained result by result. The log-softmax is stated of
the second layer's result, which is then replaced by its specification. The arguments are unchanged. -/

/-- The reference's run, its results named by the specification's functions of the launch contents of the arguments. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v4) : S10000x256.Idx → EReal)
          = Spec.pre1 (Nn := 10000) (D := 256) (H := 256) (m ((c.tc : Thread nD τ).loc main_arg0)) (m ((c.tc : Thread nD τ).loc main_arg1)) (m ((c.tc : Thread nD τ).loc main_arg2)) (m ((c.tc : Thread nD τ).loc main_arg3))
      ∧ (r.2.mem ((c.tc : Thread nD τ).loc main_v10) : S10000x128.Idx → EReal)
          = Spec.pre2 (Nn := 10000) (D := 256) (H := 256) (C := 128) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ (r.2.mem ((c.tc : Thread nD τ).loc main_v5) : S10000x256.Idx → EReal)
          = Spec.h1 (Nn := 10000) (D := 256) (H := 256) (m ((c.tc : Thread nD τ).loc main_arg0)) (m ((c.tc : Thread nD τ).loc main_arg1)) (m ((c.tc : Thread nD τ).loc main_arg2)) (m ((c.tc : Thread nD τ).loc main_arg3))
      ∧ (r.2.mem ((c.tc : Thread nD τ).loc main_v11) : S10000x128.Idx → EReal)
          = Spec.lsmR (Spec.pre2 (Nn := 10000) (D := 256) (H := 256) (C := 128) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun _ h c => ?_) (Cert.ReferenceIdeal.Value.run (F := Ideal) m ρ)
  obtain ⟨h4, h10, _, h5, h11, a0, a1, a2, a3, a4, a5⟩ := h c
  exact ⟨(h4.trans (val_main_v4_eq _ _ _ _)).trans (v4_eq _ _ _ _),
    (h10.trans (val_main_v10_eq _ _ _ _ _ _)).trans (v10_eq _ _ _ _ _ _),
    (h5.trans (val_main_v5_eq _ _ _ _)).trans (v5_eq _ _ _ _),
    (h11.trans (val_main_v11_eq m c)).trans ((v11_eq _ _ _ _ _ _).trans (congrArg Spec.lsmR (v10_eq _ _ _ _ _ _))),
    a0, a1, a2, a3, a4, a5⟩

end Cert.ReferenceIdeal.RefValue

end
-- ==== Proof.Finite.lean ====
/-
  From the precondition "every float input is finite" to: every entry of every argument array is a real number.
  The precondition is the conjunction, over the six arguments, of "all entries have absolute value below +∞".
-/
import proofs.«134506_g53876069761532_cont_9to1_m_356_22_alg».proof.Defs
import proofs.«134506_g53876069761532_cont_9to1_m_356_22_alg».proof.Proof.Gen.Pre_finite_inputs
import proofs.«134506_g53876069761532_cont_9to1_m_356_22_alg».proof.Proof.Spec
import Idealize.ShloMosaic.Lib.ReduceAll
import Idealize.ShloMosaic.Lib.ValueIdx
import Idealize.ShloMosaic.PureOps.Ideal.Laws

set_option maxRecDepth 16384

open scoped BigOperators

noncomputable section

namespace Cert.KernelIdeal.Fin

open Idealize.ShloMosaic Idealize.ShloMosaic.TcCoe Idealize.ShloMosaic.ValueIdx
open Idealize.SL.Sem
open Cert.KernelIdeal

/-- The rank-0 shape has exactly one index: there is no axis to choose a coordinate on. -/
instance : Subsingleton Cert.Pre_finite_inputs.S_.Idx := ⟨fun a b => funext fun d => d.elim0⟩

/-- An extended real whose absolute value max(x, −x) lies strictly below +∞ is a real number: for x = −∞ and for
x = +∞ that maximum is +∞ itself. -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- A strict comparison of two extended reals that came out 1 says the first lies below the second. -/
theorem lt_of_cmp_olt {a b : EReal} (hab : Ideal.cmp .olt a b = 1#1) : a < b := by
  by_contra hn
  have h0 : Ideal.cmp .olt a b = 0#1 := by
    show BitVec.ofBool (decide (a < b)) = 0#1
    rw [decide_eq_false hn]; rfl
  rw [h0] at hab
  exact absurd hab (by decide)

/-- "All entries of x have absolute value below +∞", as the precondition states it for one argument (the entrywise
comparison of |x| against the splat of the pattern of +∞, reduced by "and" over every axis into one word),
gives: every entry of x is a real number. -/
theorem allReal_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim S ![] hb (constant Cert.Pre_finite_inputs.S_ .f32 0x7F800000#32)))
          init hr hu ix0 = 1#1) :
    Spec.AllReal (x : S.Idx → EReal) := by
  intro i
  -- the entry at i of the compared array is 1, that is |x i| < (the value of the pattern 0x7F800000) = +∞
  have h1 : Ideal.cmp .olt (max (x i) (-(x i))) (Ideal.ofBits .f32 0x7F800000#32) = 1#1 :=
    Host.reduce_andi_all _ init hr hu ix0 e i
  have htop : Ideal.ofBits .f32 0x7F800000#32 = ⊤ := by simp [Ideal.ofBits, Ideal.ieee]
  rw [htop] at h1
  exact real_of_abs_lt_top _ (lt_of_cmp_olt h1)

/-- Under the precondition every argument array of the idealized kernel holds real numbers only. -/
theorem real_of_pre (m : (ℓ : Loc nD τ sig) → Buf (Elt Ideal) ℓ)
    (h : Cert.Pre_KernelIdeal (hPre_finite_inputs := Cert.Pre_finite_inputs.Gen.facts) m) (c : Dev nD) :
    Spec.AllReal (m ((c.tc : Thread nD τ).loc main_arg0) : S10000x256.Idx → EReal)
    ∧ Spec.AllReal (m ((c.tc : Thread nD τ).loc main_arg1) : S10000x10000.Idx → EReal)
    ∧ Spec.AllReal (m ((c.tc : Thread nD τ).loc main_arg2) : S256x256.Idx → EReal)
    ∧ Spec.AllReal (m ((c.tc : Thread nD τ).loc main_arg3) : S256.Idx → EReal)
    ∧ Spec.AllReal (m ((c.tc : Thread nD τ).loc main_arg4) : S256x128.Idx → EReal)
    ∧ Spec.AllReal (m ((c.tc : Thread nD τ).loc main_arg5) : S128.Idx → EReal) := by
  -- the precondition at device c, at the one index of its rank-0 result: a five-fold "and" of six all-reductions
  have h0 := congrFun (h c) ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all _ _ _ _ _ e0, allReal_of_all _ _ _ _ _ e1, allReal_of_all _ _ _ _ _ e2,
    allReal_of_all _ _ _ _ _ e3, allReal_of_all _ _ _ _ _ e4, allReal_of_all _ _ _ _ _ e5⟩

end Cert.KernelIdeal.Fin

end
-- ==== Proof.lean ====
/-
  A two-layer graph convolution with a dense adjacency, as a kernel of three pallas_calls against its plain reference.

  Both programs compute, on the extended reals and entry by entry,
      pre1 = A · (x · W1) + b1,   h1 = max(pre1, 0),   pre2 = A · (h1 · W2) + b2,   out = log_softmax(pre2) by rows,
  and return (pre1, pre2, x, h1, out). The kernel forms x · W1 in one call, then walks the adjacency twice in blocks of
  400 rows (two windows of 200 rows each on the one array), writing every output block by two stores; a change of
  float format is the identity on the extended reals, a matrix-unit product into a zero accumulator is the plain
  product, and a blockwise product is the whole product restricted to the block's rows. The one place the two
  programs differ as expressions is the log-softmax: with m a row's maximum and L = log Σ exp(z − m) the kernel
  returns z − (L + m) and the reference (z − m) − L. These agree when z, m and L are real numbers, which they are
  because every input is finite (the precondition) and sums, products and maxima of reals are real: this is where the
  precondition is used.

  The three frames: each program runs to the end on every weakly fair schedule, faults nowhere and leaves its
  arguments as launched. For the two kernel programs this is the run of @main through its host stretch and its three
  pipelines; for the reference it is its host run with the results dropped. The idealization rewrote nothing, so
  `preserves` is trivial.
-/
import proofs.«134506_g53876069761532_cont_9to1_m_356_22_alg».proof.Defs
import proofs.«134506_g53876069761532_cont_9to1_m_356_22_alg».proof.Proof.Gen.Kernel
import proofs.«134506_g53876069761532_cont_9to1_m_356_22_alg».proof.Proof.Gen.KernelIdeal
import proofs.«134506_g53876069761532_cont_9to1_m_356_22_alg».proof.Proof.Gen.ReferenceIdeal
import proofs.«134506_g53876069761532_cont_9to1_m_356_22_alg».proof.Proof.Gen.Pre_finite_inputs
import proofs.«134506_g53876069761532_cont_9to1_m_356_22_alg».proof.Proof.K.Run
import proofs.«134506_g53876069761532_cont_9to1_m_356_22_alg».proof.Proof.KI.Value
import proofs.«134506_g53876069761532_cont_9to1_m_356_22_alg».proof.Proof.RefSide
import proofs.«134506_g53876069761532_cont_9to1_m_356_22_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => (θ_run Cert.Kernel.defs _ _).mono (fun r h c =>
    ⟨(h c _ (Cert.Kernel.Fr.mem_uc Cert.Kernel.main_arg0 (by decide))).trans (Cert.Kernel.Fr.X4_arg m c Cert.Kernel.main_arg0 (by decide) (by decide) (by decide) (by decide) (by decide) (by decide) (by decide)),
      (h c _ (Cert.Kernel.Fr.mem_uc Cert.Kernel.main_arg1 (by decide))).trans (Cert.Kernel.Fr.X4_arg m c Cert.Kernel.main_arg1 (by decide) (by decide) (by decide) (by decide) (by decide) (by decide) (by decide)),
      (h c _ (Cert.Kernel.Fr.mem_uc Cert.Kernel.main_arg2 (by decide))).trans (Cert.Kernel.Fr.X4_arg m c Cert.Kernel.main_arg2 (by decide) (by decide) (by decide) (by decide) (by decide) (by decide) (by decide)),
      (h c _ (Cert.Kernel.Fr.mem_uc Cert.Kernel.main_arg3 (by decide))).trans (Cert.Kernel.Fr.X4_arg m c Cert.Kernel.main_arg3 (by decide) (by decide) (by decide) (by decide) (by decide) (by decide) (by decide)),
      (h c _ (Cert.Kernel.Fr.mem_uc Cert.Kernel.main_arg4 (by decide))).trans (Cert.Kernel.Fr.X4_arg m c Cert.Kernel.main_arg4 (by decide) (by decide) (by decide) (by decide) (by decide) (by decide) (by decide)),
      (h c _ (Cert.Kernel.Fr.mem_uc Cert.Kernel.main_arg5 (by decide))).trans (Cert.Kernel.Fr.X4_arg m c Cert.Kernel.main_arg5 (by decide) (by decide) (by decide) (by decide) (by decide) (by decide) (by decide))⟩)
    (Cert.Kernel.Fr.run_main (F := Bits) m ρ)

/-- The idealized kernel runs and leaves its arguments as launched. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun r h c =>
    ⟨(h c).2.2.2.2.1, (h c).2.2.2.2.2.1, (h c).2.2.2.2.2.2.1, (h c).2.2.2.2.2.2.2.1, (h c).2.2.2.2.2.2.2.2.1, (h c).2.2.2.2.2.2.2.2.2⟩)
    (Cert.KernelIdeal.Val.run_value m ρ)

/-- The idealized reference runs and leaves its arguments as launched. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c).2.2.2.2.1, (h c).2.2.2.2.2.1, (h c).2.2.2.2.2.2.1, (h c).2.2.2.2.2.2.2.1, (h c).2.2.2.2.2.2.2.2.1, (h c).2.2.2.2.2.2.2.2.2⟩)
    (Cert.ReferenceIdeal.RefValue.run_spec m ρ)

/-- From memories agreeing on the arguments both idealized programs end with the same five results: the four that are
    the same expression on both sides at once, the log-softmax by the agreement of its two arrangements on real entries. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Spec.pre1 (Nn := 10000) (D := 256) (H := 256) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Spec.pre2 (Nn := 10000) (D := 256) (H := 256) (C := 128) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => m ((c.tc : Thread Cert.KernelIdeal.nD Cert.KernelIdeal.τ).loc Cert.KernelIdeal.main_arg0),
    fun c => Spec.h1 (Nn := 10000) (D := 256) (H := 256) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Spec.lsmK (Spec.pre2 (Nn := 10000) (D := 256) (H := 256) (C := 128) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), ?_, ?_⟩
  · exact (θ_run Cert.KernelIdeal.defs _ _).mono (fun r h c =>
      ⟨(h c).1, (h c).2.1, (h c).2.2.2.2.1, (h c).2.2.1, (h c).2.2.2.1,
        (h c).2.2.2.2.1, (h c).2.2.2.2.2.1, (h c).2.2.2.2.2.2.1, (h c).2.2.2.2.2.2.2.1, (h c).2.2.2.2.2.2.2.2.1, (h c).2.2.2.2.2.2.2.2.2⟩)
      (Cert.KernelIdeal.Val.run_value m ρ)
  · refine (θ_run Cert.ReferenceIdeal.defs _ _).mono (fun r h c => ?_) (Cert.ReferenceIdeal.RefValue.run_spec m' ρ')
    obtain ⟨e0, e1, e2, e3, e4, e5⟩ := hagree c
    obtain ⟨hx, ha, hW1, hb1, hW2, hb2⟩ := Cert.KernelIdeal.Fin.real_of_pre m hpre c
    refine ⟨?_, ?_, ?_, ?_, ?_, (h c).2.2.2.2.1, (h c).2.2.2.2.2.1, (h c).2.2.2.2.2.2.1, (h c).2.2.2.2.2.2.2.1, (h c).2.2.2.2.2.2.2.2.1, (h c).2.2.2.2.2.2.2.2.2⟩
    · rw [(h c).1, e0, e1, e2, e3]
    · rw [(h c).2.1, e0, e1, e2, e3, e4, e5]
    · rw [(h c).2.2.2.2.1, e0]
    · rw [(h c).2.2.1, e0, e1, e2, e3]
    · rw [(h c).2.2.2.1, e0, e1, e2, e3, e4, e5]
      exact (Spec.lsm_eq (Spec.pre2_real hx ha hW1 hb1 hW2 hb2)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
